-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x64 : Shape := ⟨3, ![64, 256, 64]⟩
abbrev S_ : Shape := ⟨0, ![]⟩

class Facts : Prop where
  bcast_S_S64x256x64 : S_.BroadcastsInDim S64x256x64 (![] : Fin 0 → Fin S64x256x64.rank)
  reducesTo_S64x256x64_S_d0_1_2 : S64x256x64.ReducesTo [0, 1, 2] S_
  h_S_ : 0 < S_.numel

variable [Facts]

def fn {F : FTy → Type} [FloatOps F] (main_arg0 : FVec F S64x256x64 .f32) (main_arg1 : FVec F S64x256x64 .f32) : IVec S_ 1 :=
  let main_v0 : FVec F S64x256x64 .f32 := Host.absf main_arg0
  let main_cst : FVec F S_ .f32 := constant S_ .f32 0x7F800000#32
  let main_v1 : FVec F S64x256x64 .f32 := broadcastInDim S64x256x64 ![] bcast_S_S64x256x64 main_cst
  let main_v2 : IVec S64x256x64 1 := cmpf .olt main_v0 main_v1
  let main_c : IVec S_ 1 := constantI S_ 1 1#1
  let main_v3 : IVec S_ 1 := (fun x v => Host.reduce IntOp.andi x v reducesTo_S64x256x64_S_d0_1_2 h_S_) main_v2 main_c
  let main_v4 : FVec F S64x256x64 .f32 := Host.absf main_arg1
  let main_cst_0 : FVec F S_ .f32 := constant S_ .f32 0x7F800000#32
  let main_v5 : FVec F S64x256x64 .f32 := broadcastInDim S64x256x64 ![] bcast_S_S64x256x64 main_cst_0
  let main_v6 : IVec S64x256x64 1 := cmpf .olt main_v4 main_v5
  let main_c_1 : IVec S_ 1 := constantI S_ 1 1#1
  let main_v7 : IVec S_ 1 := (fun x v => Host.reduce IntOp.andi x v reducesTo_S64x256x64_S_d0_1_2 h_S_) main_v6 main_c_1
  let main_v8 : IVec S_ 1 := andi main_v3 main_v7
  main_v8
-- ==== Kernel.lean ====
abbrev S64x256x64 : Shape := ⟨3, ![64, 256, 64]⟩
abbrev S_ : Shape := ⟨0, ![]⟩
abbrev S64x256 : Shape := ⟨2, ![64, 256]⟩
abbrev S64x256x1 : Shape := ⟨3, ![64, 256, 1]⟩
abbrev S16384x64 : Shape := ⟨2, ![16384, 64]⟩
abbrev S64x64 : Shape := ⟨2, ![64, 64]⟩
abbrev S8x256x64 : Shape := ⟨3, ![8, 256, 64]⟩
abbrev S8x64 : Shape := ⟨2, ![8, 64]⟩
abbrev S1x256x64 : Shape := ⟨3, ![1, 256, 64]⟩
abbrev S256x64 : Shape := ⟨2, ![256, 64]⟩
abbrev S4096x64 : Shape := ⟨2, ![4096, 64]⟩
abbrev S256x4096 : Shape := ⟨2, ![256, 4096]⟩
abbrev S256x16x256 : Shape := ⟨3, ![256, 16, 256]⟩
abbrev S256x16 : Shape := ⟨2, ![256, 16]⟩
abbrev S16 : Shape := ⟨1, ![16]⟩
abbrev S1x16 : Shape := ⟨2, ![1, 16]⟩
abbrev S1x1 : Shape := ⟨2, ![1, 1]⟩

abbrev nBuf : Space → Nat
  | .hbm => 87
  | .vmem => 8
  | .smem => 0
  | _ => 0

abbrev bufTy : (tb : Table) → Fin (tcTables nBuf tb) → BufTy
  | .hbm, ⟨0, _⟩ => ⟨S64x256x64, .f32⟩
  | .hbm, ⟨1, _⟩ => ⟨S64x256x64, .f32⟩
  | .hbm, ⟨2, _⟩ => ⟨S64x256x64, .f32⟩
  | .hbm, ⟨3, _⟩ => ⟨S_, .f32⟩
  | .hbm, ⟨4, _⟩ => ⟨S64x256, .f32⟩
  | .hbm, ⟨5, _⟩ => ⟨S64x256x1, .f32⟩
  | .hbm, ⟨6, _⟩ => ⟨S64x256x1, .f32⟩
  | .hbm, ⟨7, _⟩ => ⟨S_, .f32⟩
  | .hbm, ⟨8, _⟩ => ⟨S64x256x1, .f32⟩
  | .hbm, ⟨9, _⟩ => ⟨S64x256x1, .f32⟩
  | .hbm, ⟨10, _⟩ => ⟨S64x256x64, .f32⟩
  | .hbm, ⟨11, _⟩ => ⟨S64x256x64, .f32⟩
  | .hbm, ⟨12, _⟩ => ⟨S64x256x64, .f32⟩
  | .hbm, ⟨13, _⟩ => ⟨S_, .f32⟩
  | .hbm, ⟨14, _⟩ => ⟨S64x256, .f32⟩
  | .hbm, ⟨15, _⟩ => ⟨S64x256x1, .f32⟩
  | .hbm, ⟨16, _⟩ => ⟨S64x256x1, .f32⟩
  | .hbm, ⟨17, _⟩ => ⟨S_, .f32⟩
  | .hbm, ⟨18, _⟩ => ⟨S64x256x1, .f32⟩
  | .hbm, ⟨19, _⟩ => ⟨S64x256x1, .f32⟩
  | .hbm, ⟨20, _⟩ => ⟨S64x256x64, .f32⟩
  | .hbm, ⟨21, _⟩ => ⟨S64x256x64, .f32⟩
  | .hbm, ⟨22, _⟩ => ⟨S64x256x64, .bf16⟩
  | .hbm, ⟨23, _⟩ => ⟨S64x256x64, .bf16⟩
  | .hbm, ⟨24, _⟩ => ⟨S16384x64, .bf16⟩
  | .hbm, ⟨25, _⟩ => ⟨S16384x64, .bf16⟩
  | .hbm, ⟨26, _⟩ => ⟨S64x64, .f32⟩
  | .hbm, ⟨27, _⟩ => ⟨S64x64, .f32⟩
  | .hbm, ⟨28, _⟩ => ⟨S64x64, .i32⟩
  | .hbm, ⟨29, _⟩ => ⟨S64x64, .i32⟩
  | .hbm, ⟨30, _⟩ => ⟨S_, .i32⟩
  | .hbm, ⟨31, _⟩ => ⟨S64x64, .i32⟩
  | .hbm, ⟨32, _⟩ => ⟨S64x64, .i32⟩
  | .hbm, ⟨33, _⟩ => ⟨S64x64, .i1⟩
  | .hbm, ⟨34, _⟩ => ⟨S64x64, .i1⟩
  | .hbm, ⟨35, _⟩ => ⟨S_, .f32⟩
  | .hbm, ⟨36, _⟩ => ⟨S_, .f32⟩
  | .hbm, ⟨37, _⟩ => ⟨S64x64, .f32⟩
  | .hbm, ⟨38, _⟩ => ⟨S64x64, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S_, .f32⟩
  | .hbm, ⟨47, _⟩ => ⟨S_, .f32⟩
  | .hbm, ⟨48, _⟩ => ⟨S64x64, .f32⟩
  | .hbm, ⟨49, _⟩ => ⟨S64x64, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .i32⟩
  | .hbm, ⟨60, _⟩ => ⟨S_, .f32⟩
  | .hbm, ⟨61, _⟩ => ⟨S_, .f32⟩
  | .hbm, ⟨62, _⟩ => ⟨S1x1, .f32⟩
  | .hbm, ⟨63, _⟩ => ⟨S_, .f32⟩
  | .hbm, ⟨64, _⟩ => ⟨S1x1, .f32⟩
  | .hbm, ⟨65, _⟩ => ⟨S1x1, .f32⟩
  | .hbm, ⟨66, _⟩ => ⟨S64x64, .f32⟩
  | .hbm, ⟨67, _⟩ => ⟨S64x64, .f32⟩
  | .hbm, ⟨68, _⟩ => ⟨S64x64, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .i1⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .local _ .vmem, ⟨0, _⟩ => ⟨S8x256x64, .bf16⟩
  | .local _ .vmem, ⟨1, _⟩ => ⟨S8x256x64, .bf16⟩
  | .local _ .vmem, ⟨2, _⟩ => ⟨S16384x64, .bf16⟩
  | .local _ .vmem, ⟨3, _⟩ => ⟨S16384x64, .bf16⟩
  | .local _ .vmem, ⟨4, _⟩ => ⟨S8x64, .f32⟩
  | .local _ .vmem, ⟨5, _⟩ => ⟨S8x64, .f32⟩
  | .local _ .vmem, ⟨6, _⟩ => ⟨S8x64, .f32⟩
  | .local _ .vmem, ⟨7, _⟩ => ⟨S8x64, .f32⟩
  | _, _ => ⟨S64x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14_0 : Ref sig .tc := ⟨.hbm, 26, rfl⟩
abbrev main_v14_1 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_call2_v0 : Ref sig .tc := ⟨.hbm, 36, rfl⟩
abbrev main_call2_v1 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_call3_v0 : Ref sig .tc := ⟨.hbm, 47, rfl⟩
abbrev main_call3_v1 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_cst_6 : Ref sig .tc := ⟨.hbm, 52, rfl⟩
abbrev main_v29 : Ref sig .tc := ⟨.hbm, 53, rfl⟩
abbrev main_v30 : Ref sig .tc := ⟨.hbm, 54, rfl⟩
abbrev main_cst_7 : Ref sig .tc := ⟨.hbm, 55, rfl⟩
abbrev main_v31 : Ref sig .tc := ⟨.hbm, 56, rfl⟩
abbrev main_cst_8 : Ref sig .tc := ⟨.hbm, 57, rfl⟩
abbrev main_v32 : Ref sig .tc := ⟨.hbm, 58, rfl⟩
abbrev main_c_9 : Ref sig .tc := ⟨.hbm, 59, rfl⟩
abbrev main_call4_call0_cst : Ref sig .tc := ⟨.hbm, 60, rfl⟩
abbrev main_call4_call0_v0 : Ref sig .tc := ⟨.hbm, 61, rfl⟩
abbrev main_call4_call0_v1 : Ref sig .tc := ⟨.hbm, 62, rfl⟩
abbrev main_call4_call0_cst_0 : Ref sig .tc := ⟨.hbm, 63, rfl⟩
abbrev main_call4_call0_v2 : Ref sig .tc := ⟨.hbm, 64, rfl⟩
abbrev main_call4_call0_v3 : Ref sig .tc := ⟨.hbm, 65, rfl⟩
abbrev main_call4_call0_v4 : Ref sig .tc := ⟨.hbm, 66, rfl⟩
abbrev main_call4_call0_v5 : Ref sig .tc := ⟨.hbm, 67, rfl⟩
abbrev main_call4_call0_v6 : Ref sig .tc := ⟨.hbm, 68, rfl⟩
abbrev main_call4_call0_v7 : Ref sig .tc := ⟨.hbm, 69, rfl⟩
abbrev main_call4_call0_cst_1 : Ref sig .tc := ⟨.hbm, 70, rfl⟩
abbrev main_call4_call0_v8 : Ref sig .tc := ⟨.hbm, 71, rfl⟩
abbrev main_call4_call0_cst_2 : Ref sig .tc := ⟨.hbm, 72, rfl⟩
abbrev main_call4_call0_v9 : Ref sig .tc := ⟨.hbm, 73, rfl⟩
abbrev main_call4_call0_v10 : Ref sig .tc := ⟨.hbm, 74, rfl⟩
abbrev main_call4_call0_cst_3 : Ref sig .tc := ⟨.hbm, 75, rfl⟩
abbrev main_call4_call0_v11 : Ref sig .tc := ⟨.hbm, 76, rfl⟩
abbrev main_call4_call0_cst_4 : Ref sig .tc := ⟨.hbm, 77, rfl⟩
abbrev main_call4_call0_call0_v0 : Ref sig .tc := ⟨.hbm, 78, rfl⟩
abbrev main_call4_v0 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_cst_10 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def k0_mult1 : BitVec 32 :=
  let c0_i32_1 : BitVec 32 := 0#32
  let c4096_i32 : BitVec 32 := 4096#32
  let v3 : BitVec 32 := Scalar.muli c0_i32_1 c4096_i32
  v3
def k0_off1 (c0_i32_1 : BitVec 32) : Fin 2 → Nat :=
  let c4096_i32 : BitVec 32 := 4096#32
  let v3 : BitVec 32 := Scalar.muli c0_i32_1 c4096_i32
  let v4 : BitVec 32 := v3
  let v5 : Index := Scalar.indexCast v4
  let c0_2 : Index := 0#32
  ![v5.toNat, 0]
def k0_mult2 : BitVec 32 :=
  let c0_i32_1 : BitVec 32 := 0#32
  let c16_i32 : BitVec 32 := 16#32
  let v14 : BitVec 32 := Scalar.muli c0_i32_1 c16_i32
  v14
def k0_off2 (c0_i32_1 : BitVec 32) : Fin 2 → Nat :=
  let c0_i32 : BitVec 32 := 0#32
  let v16 : Index := Scalar.indexCast c0_i32
  let c16_i32 : BitVec 32 := 16#32
  let v14 : BitVec 32 := Scalar.muli c0_i32_1 c16_i32
  let v15 : BitVec 32 := v14
  let v17 : Index := Scalar.indexCast v15
  ![0, v17.toNat]
def k0_mult3 : BitVec 32 :=
  let c1_i32 : BitVec 32 := 1#32
  let c4096_i32_6 : BitVec 32 := 4096#32
  let v21 : BitVec 32 := Scalar.muli c1_i32 c4096_i32_6
  v21
def k0_mult4 : BitVec 32 :=
  let c1_i32 : BitVec 32 := 1#32
  let c16_i32_12 : BitVec 32 := 16#32
  let v32 : BitVec 32 := Scalar.muli c1_i32 c16_i32_12
  v32
def k0_mult5 : BitVec 32 :=
  let c2_i32 : BitVec 32 := 2#32
  let c4096_i32_13 : BitVec 32 := 4096#32
  let v39 : BitVec 32 := Scalar.muli c2_i32 c4096_i32_13
  v39
def k0_mult6 : BitVec 32 :=
  let c2_i32 : BitVec 32 := 2#32
  let c16_i32_19 : BitVec 32 := 16#32
  let v50 : BitVec 32 := Scalar.muli c2_i32 c16_i32_19
  v50
def k0_mult7 : BitVec 32 :=
  let c3_i32 : BitVec 32 := 3#32
  let c4096_i32_20 : BitVec 32 := 4096#32
  let v57 : BitVec 32 := Scalar.muli c3_i32 c4096_i32_20
  v57
def k0_mult8 : BitVec 32 :=
  let c3_i32 : BitVec 32 := 3#32
  let c16_i32_26 : BitVec 32 := 16#32
  let v68 : BitVec 32 := Scalar.muli c3_i32 c16_i32_26
  v68
def k0_mult9 : BitVec 32 :=
  let c0_i32_27 : BitVec 32 := 0#32
  let c4096_i32_28 : BitVec 32 := 4096#32
  let v75 : BitVec 32 := Scalar.muli c0_i32_27 c4096_i32_28
  v75
def k0_mult10 : BitVec 32 :=
  let c0_i32_27 : BitVec 32 := 0#32
  let c16_i32_34 : BitVec 32 := 16#32
  let v86 : BitVec 32 := Scalar.muli c0_i32_27 c16_i32_34
  v86
def k0_mult11 : BitVec 32 :=
  let c1_i32_35 : BitVec 32 := 1#32
  let c4096_i32_36 : BitVec 32 := 4096#32
  let v93 : BitVec 32 := Scalar.muli c1_i32_35 c4096_i32_36
  v93
def k0_mult12 : BitVec 32 :=
  let c1_i32_35 : BitVec 32 := 1#32
  let c16_i32_42 : BitVec 32 := 16#32
  let v104 : BitVec 32 := Scalar.muli c1_i32_35 c16_i32_42
  v104
def k0_mult13 : BitVec 32 :=
  let c2_i32_43 : BitVec 32 := 2#32
  let c4096_i32_44 : BitVec 32 := 4096#32
  let v111 : BitVec 32 := Scalar.muli c2_i32_43 c4096_i32_44
  v111
def k0_mult14 : BitVec 32 :=
  let c2_i32_43 : BitVec 32 := 2#32
  let c16_i32_50 : BitVec 32 := 16#32
  let v122 : BitVec 32 := Scalar.muli c2_i32_43 c16_i32_50
  v122
def k0_mult15 : BitVec 32 :=
  let c3_i32_51 : BitVec 32 := 3#32
  let c4096_i32_52 : BitVec 32 := 4096#32
  let v129 : BitVec 32 := Scalar.muli c3_i32_51 c4096_i32_52
  v129
def k0_mult16 : BitVec 32 :=
  let c3_i32_51 : BitVec 32 := 3#32
  let c16_i32_58 : BitVec 32 := 16#32
  let v140 : BitVec 32 := Scalar.muli c3_i32_51 c16_i32_58
  v140
def k0_mult17 : BitVec 32 :=
  let c0_i32_63 : BitVec 32 := 0#32
  let c4096_i32_64 : BitVec 32 := 4096#32
  let v150 : BitVec 32 := Scalar.muli c0_i32_63 c4096_i32_64
  v150
def k0_mult18 : BitVec 32 :=
  let c0_i32_63 : BitVec 32 := 0#32
  let c16_i32_70 : BitVec 32 := 16#32
  let v161 : BitVec 32 := Scalar.muli c0_i32_63 c16_i32_70
  v161
def k0_off3 (c0_i32_63 : BitVec 32) : Fin 2 → Nat :=
  let c1_i32_60 : BitVec 32 := 1#32
  let v163 : Index := Scalar.indexCast c1_i32_60
  let c16_i32_70 : BitVec 32 := 16#32
  let v161 : BitVec 32 := Scalar.muli c0_i32_63 c16_i32_70
  let v162 : BitVec 32 := v161
  let v164 : Index := Scalar.indexCast v162
  ![1, v164.toNat]
def k0_mult19 : BitVec 32 :=
  let c1_i32_71 : BitVec 32 := 1#32
  let c4096_i32_72 : BitVec 32 := 4096#32
  let v168 : BitVec 32 := Scalar.muli c1_i32_71 c4096_i32_72
  v168
def k0_mult20 : BitVec 32 :=
  let c1_i32_71 : BitVec 32 := 1#32
  let c16_i32_78 : BitVec 32 := 16#32
  let v179 : BitVec 32 := Scalar.muli c1_i32_71 c16_i32_78
  v179
def k0_mult21 : BitVec 32 :=
  let c2_i32_79 : BitVec 32 := 2#32
  let c4096_i32_80 : BitVec 32 := 4096#32
  let v186 : BitVec 32 := Scalar.muli c2_i32_79 c4096_i32_80
  v186
def k0_mult22 : BitVec 32 :=
  let c2_i32_79 : BitVec 32 := 2#32
  let c16_i32_86 : BitVec 32 := 16#32
  let v197 : BitVec 32 := Scalar.muli c2_i32_79 c16_i32_86
  v197
def k0_mult23 : BitVec 32 :=
  let c3_i32_87 : BitVec 32 := 3#32
  let c4096_i32_88 : BitVec 32 := 4096#32
  let v204 : BitVec 32 := Scalar.muli c3_i32_87 c4096_i32_88
  v204
def k0_mult24 : BitVec 32 :=
  let c3_i32_87 : BitVec 32 := 3#32
  let c16_i32_94 : BitVec 32 := 16#32
  let v215 : BitVec 32 := Scalar.muli c3_i32_87 c16_i32_94
  v215
def k0_mult25 : BitVec 32 :=
  let c0_i32_96 : BitVec 32 := 0#32
  let c4096_i32_97 : BitVec 32 := 4096#32
  let v222 : BitVec 32 := Scalar.muli c0_i32_96 c4096_i32_97
  v222
def k0_mult26 : BitVec 32 :=
  let c0_i32_96 : BitVec 32 := 0#32
  let c16_i32_103 : BitVec 32 := 16#32
  let v233 : BitVec 32 := Scalar.muli c0_i32_96 c16_i32_103
  v233
def k0_mult27 : BitVec 32 :=
  let c1_i32_104 : BitVec 32 := 1#32
  let c4096_i32_105 : BitVec 32 := 4096#32
  let v240 : BitVec 32 := Scalar.muli c1_i32_104 c4096_i32_105
  v240
def k0_mult28 : BitVec 32 :=
  let c1_i32_104 : BitVec 32 := 1#32
  let c16_i32_111 : BitVec 32 := 16#32
  let v251 : BitVec 32 := Scalar.muli c1_i32_104 c16_i32_111
  v251
def k0_mult29 : BitVec 32 :=
  let c2_i32_112 : BitVec 32 := 2#32
  let c4096_i32_113 : BitVec 32 := 4096#32
  let v258 : BitVec 32 := Scalar.muli c2_i32_112 c4096_i32_113
  v258
def k0_mult30 : BitVec 32 :=
  let c2_i32_112 : BitVec 32 := 2#32
  let c16_i32_119 : BitVec 32 := 16#32
  let v269 : BitVec 32 := Scalar.muli c2_i32_112 c16_i32_119
  v269
def k0_mult31 : BitVec 32 :=
  let c3_i32_120 : BitVec 32 := 3#32
  let c4096_i32_121 : BitVec 32 := 4096#32
  let v276 : BitVec 32 := Scalar.muli c3_i32_120 c4096_i32_121
  v276
def k0_mult32 : BitVec 32 :=
  let c3_i32_120 : BitVec 32 := 3#32
  let c16_i32_127 : BitVec 32 := 16#32
  let v287 : BitVec 32 := Scalar.muli c3_i32_120 c16_i32_127
  v287
def k0_mult33 : BitVec 32 :=
  let c0_i32_132 : BitVec 32 := 0#32
  let c4096_i32_133 : BitVec 32 := 4096#32
  let v297 : BitVec 32 := Scalar.muli c0_i32_132 c4096_i32_133
  v297
def k0_mult34 : BitVec 32 :=
  let c0_i32_132 : BitVec 32 := 0#32
  let c16_i32_139 : BitVec 32 := 16#32
  let v308 : BitVec 32 := Scalar.muli c0_i32_132 c16_i32_139
  v308
def k0_off4 (c0_i32_132 : BitVec 32) : Fin 2 → Nat :=
  let c2_i32_129 : BitVec 32 := 2#32
  let v310 : Index := Scalar.indexCast c2_i32_129
  let c16_i32_139 : BitVec 32 := 16#32
  let v308 : BitVec 32 := Scalar.muli c0_i32_132 c16_i32_139
  let v309 : BitVec 32 := v308
  let v311 : Index := Scalar.indexCast v309
  ![2, v311.toNat]
def k0_mult35 : BitVec 32 :=
  let c1_i32_140 : BitVec 32 := 1#32
  let c4096_i32_141 : BitVec 32 := 4096#32
  let v315 : BitVec 32 := Scalar.muli c1_i32_140 c4096_i32_141
  v315
def k0_mult36 : BitVec 32 :=
  let c1_i32_140 : BitVec 32 := 1#32
  let c16_i32_147 : BitVec 32 := 16#32
  let v326 : BitVec 32 := Scalar.muli c1_i32_140 c16_i32_147
  v326
def k0_mult37 : BitVec 32 :=
  let c2_i32_148 : BitVec 32 := 2#32
  let c4096_i32_149 : BitVec 32 := 4096#32
  let v333 : BitVec 32 := Scalar.muli c2_i32_148 c4096_i32_149
  v333
def k0_mult38 : BitVec 32 :=
  let c2_i32_148 : BitVec 32 := 2#32
  let c16_i32_155 : BitVec 32 := 16#32
  let v344 : BitVec 32 := Scalar.muli c2_i32_148 c16_i32_155
  v344
def k0_mult39 : BitVec 32 :=
  let c3_i32_156 : BitVec 32 := 3#32
  let c4096_i32_157 : BitVec 32 := 4096#32
  let v351 : BitVec 32 := Scalar.muli c3_i32_156 c4096_i32_157
  v351
def k0_mult40 : BitVec 32 :=
  let c3_i32_156 : BitVec 32 := 3#32
  let c16_i32_163 : BitVec 32 := 16#32
  let v362 : BitVec 32 := Scalar.muli c3_i32_156 c16_i32_163
  v362
def k0_mult41 : BitVec 32 :=
  let c0_i32_165 : BitVec 32 := 0#32
  let c4096_i32_166 : BitVec 32 := 4096#32
  let v369 : BitVec 32 := Scalar.muli c0_i32_165 c4096_i32_166
  v369
def k0_mult42 : BitVec 32 :=
  let c0_i32_165 : BitVec 32 := 0#32
  let c16_i32_172 : BitVec 32 := 16#32
  let v380 : BitVec 32 := Scalar.muli c0_i32_165 c16_i32_172
  v380
def k0_mult43 : BitVec 32 :=
  let c1_i32_173 : BitVec 32 := 1#32
  let c4096_i32_174 : BitVec 32 := 4096#32
  let v387 : BitVec 32 := Scalar.muli c1_i32_173 c4096_i32_174
  v387
def k0_mult44 : BitVec 32 :=
  let c1_i32_173 : BitVec 32 := 1#32
  let c16_i32_180 : BitVec 32 := 16#32
  let v398 : BitVec 32 := Scalar.muli c1_i32_173 c16_i32_180
  v398
def k0_mult45 : BitVec 32 :=
  let c2_i32_181 : BitVec 32 := 2#32
  let c4096_i32_182 : BitVec 32 := 4096#32
  let v405 : BitVec 32 := Scalar.muli c2_i32_181 c4096_i32_182
  v405
def k0_mult46 : BitVec 32 :=
  let c2_i32_181 : BitVec 32 := 2#32
  let c16_i32_188 : BitVec 32 := 16#32
  let v416 : BitVec 32 := Scalar.muli c2_i32_181 c16_i32_188
  v416
def k0_mult47 : BitVec 32 :=
  let c3_i32_189 : BitVec 32 := 3#32
  let c4096_i32_190 : BitVec 32 := 4096#32
  let v423 : BitVec 32 := Scalar.muli c3_i32_189 c4096_i32_190
  v423
def k0_mult48 : BitVec 32 :=
  let c3_i32_189 : BitVec 32 := 3#32
  let c16_i32_196 : BitVec 32 := 16#32
  let v434 : BitVec 32 := Scalar.muli c3_i32_189 c16_i32_196
  v434
def k0_mult49 : BitVec 32 :=
  let c0_i32_201 : BitVec 32 := 0#32
  let c4096_i32_202 : BitVec 32 := 4096#32
  let v444 : BitVec 32 := Scalar.muli c0_i32_201 c4096_i32_202
  v444
def k0_mult50 : BitVec 32 :=
  let c0_i32_201 : BitVec 32 := 0#32
  let c16_i32_208 : BitVec 32 := 16#32
  let v455 : BitVec 32 := Scalar.muli c0_i32_201 c16_i32_208
  v455
def k0_off5 (c0_i32_201 : BitVec 32) : Fin 2 → Nat :=
  let c3_i32_198 : BitVec 32 := 3#32
  let v457 : Index := Scalar.indexCast c3_i32_198
  let c16_i32_208 : BitVec 32 := 16#32
  let v455 : BitVec 32 := Scalar.muli c0_i32_201 c16_i32_208
  let v456 : BitVec 32 := v455
  let v458 : Index := Scalar.indexCast v456
  ![3, v458.toNat]
def k0_mult51 : BitVec 32 :=
  let c1_i32_209 : BitVec 32 := 1#32
  let c4096_i32_210 : BitVec 32 := 4096#32
  let v462 : BitVec 32 := Scalar.muli c1_i32_209 c4096_i32_210
  v462
def k0_mult52 : BitVec 32 :=
  let c1_i32_209 : BitVec 32 := 1#32
  let c16_i32_216 : BitVec 32 := 16#32
  let v473 : BitVec 32 := Scalar.muli c1_i32_209 c16_i32_216
  v473
def k0_mult53 : BitVec 32 :=
  let c2_i32_217 : BitVec 32 := 2#32
  let c4096_i32_218 : BitVec 32 := 4096#32
  let v480 : BitVec 32 := Scalar.muli c2_i32_217 c4096_i32_218
  v480
def k0_mult54 : BitVec 32 :=
  let c2_i32_217 : BitVec 32 := 2#32
  let c16_i32_224 : BitVec 32 := 16#32
  let v491 : BitVec 32 := Scalar.muli c2_i32_217 c16_i32_224
  v491
def k0_mult55 : BitVec 32 :=
  let c3_i32_225 : BitVec 32 := 3#32
  let c4096_i32_226 : BitVec 32 := 4096#32
  let v498 : BitVec 32 := Scalar.muli c3_i32_225 c4096_i32_226
  v498
def k0_mult56 : BitVec 32 :=
  let c3_i32_225 : BitVec 32 := 3#32
  let c16_i32_232 : BitVec 32 := 16#32
  let v509 : BitVec 32 := Scalar.muli c3_i32_225 c16_i32_232
  v509
def k0_mult57 : BitVec 32 :=
  let c0_i32_234 : BitVec 32 := 0#32
  let c4096_i32_235 : BitVec 32 := 4096#32
  let v516 : BitVec 32 := Scalar.muli c0_i32_234 c4096_i32_235
  v516
def k0_mult58 : BitVec 32 :=
  let c0_i32_234 : BitVec 32 := 0#32
  let c16_i32_241 : BitVec 32 := 16#32
  let v527 : BitVec 32 := Scalar.muli c0_i32_234 c16_i32_241
  v527
def k0_mult59 : BitVec 32 :=
  let c1_i32_242 : BitVec 32 := 1#32
  let c4096_i32_243 : BitVec 32 := 4096#32
  let v534 : BitVec 32 := Scalar.muli c1_i32_242 c4096_i32_243
  v534
def k0_mult60 : BitVec 32 :=
  let c1_i32_242 : BitVec 32 := 1#32
  let c16_i32_249 : BitVec 32 := 16#32
  let v545 : BitVec 32 := Scalar.muli c1_i32_242 c16_i32_249
  v545
def k0_mult61 : BitVec 32 :=
  let c2_i32_250 : BitVec 32 := 2#32
  let c4096_i32_251 : BitVec 32 := 4096#32
  let v552 : BitVec 32 := Scalar.muli c2_i32_250 c4096_i32_251
  v552
def k0_mult62 : BitVec 32 :=
  let c2_i32_250 : BitVec 32 := 2#32
  let c16_i32_257 : BitVec 32 := 16#32
  let v563 : BitVec 32 := Scalar.muli c2_i32_250 c16_i32_257
  v563
def k0_mult63 : BitVec 32 :=
  let c3_i32_258 : BitVec 32 := 3#32
  let c4096_i32_259 : BitVec 32 := 4096#32
  let v570 : BitVec 32 := Scalar.muli c3_i32_258 c4096_i32_259
  v570
def k0_mult64 : BitVec 32 :=
  let c3_i32_258 : BitVec 32 := 3#32
  let c16_i32_265 : BitVec 32 := 16#32
  let v581 : BitVec 32 := Scalar.muli c3_i32_258 c16_i32_265
  v581
def k0_mult65 : BitVec 32 :=
  let c0_i32_270 : BitVec 32 := 0#32
  let c4096_i32_271 : BitVec 32 := 4096#32
  let v591 : BitVec 32 := Scalar.muli c0_i32_270 c4096_i32_271
  v591
def k0_mult66 : BitVec 32 :=
  let c0_i32_270 : BitVec 32 := 0#32
  let c16_i32_277 : BitVec 32 := 16#32
  let v602 : BitVec 32 := Scalar.muli c0_i32_270 c16_i32_277
  v602
def k0_off6 (c0_i32_270 : BitVec 32) : Fin 2 → Nat :=
  let c4_i32_267 : BitVec 32 := 4#32
  let v604 : Index := Scalar.indexCast c4_i32_267
  let c16_i32_277 : BitVec 32 := 16#32
  let v602 : BitVec 32 := Scalar.muli c0_i32_270 c16_i32_277
  let v603 : BitVec 32 := v602
  let v605 : Index := Scalar.indexCast v603
  ![4, v605.toNat]
def k0_mult67 : BitVec 32 :=
  let c1_i32_278 : BitVec 32 := 1#32
  let c4096_i32_279 : BitVec 32 := 4096#32
  let v609 : BitVec 32 := Scalar.muli c1_i32_278 c4096_i32_279
  v609
def k0_mult68 : BitVec 32 :=
  let c1_i32_278 : BitVec 32 := 1#32
  let c16_i32_285 : BitVec 32 := 16#32
  let v620 : BitVec 32 := Scalar.muli c1_i32_278 c16_i32_285
  v620
def k0_mult69 : BitVec 32 :=
  let c2_i32_286 : BitVec 32 := 2#32
  let c4096_i32_287 : BitVec 32 := 4096#32
  let v627 : BitVec 32 := Scalar.muli c2_i32_286 c4096_i32_287
  v627
def k0_mult70 : BitVec 32 :=
  let c2_i32_286 : BitVec 32 := 2#32
  let c16_i32_293 : BitVec 32 := 16#32
  let v638 : BitVec 32 := Scalar.muli c2_i32_286 c16_i32_293
  v638
def k0_mult71 : BitVec 32 :=
  let c3_i32_294 : BitVec 32 := 3#32
  let c4096_i32_295 : BitVec 32 := 4096#32
  let v645 : BitVec 32 := Scalar.muli c3_i32_294 c4096_i32_295
  v645
def k0_mult72 : BitVec 32 :=
  let c3_i32_294 : BitVec 32 := 3#32
  let c16_i32_301 : BitVec 32 := 16#32
  let v656 : BitVec 32 := Scalar.muli c3_i32_294 c16_i32_301
  v656
def k0_mult73 : BitVec 32 :=
  let c0_i32_303 : BitVec 32 := 0#32
  let c4096_i32_304 : BitVec 32 := 4096#32
  let v663 : BitVec 32 := Scalar.muli c0_i32_303 c4096_i32_304
  v663
def k0_mult74 : BitVec 32 :=
  let c0_i32_303 : BitVec 32 := 0#32
  let c16_i32_310 : BitVec 32 := 16#32
  let v674 : BitVec 32 := Scalar.muli c0_i32_303 c16_i32_310
  v674
def k0_mult75 : BitVec 32 :=
  let c1_i32_311 : BitVec 32 := 1#32
  let c4096_i32_312 : BitVec 32 := 4096#32
  let v681 : BitVec 32 := Scalar.muli c1_i32_311 c4096_i32_312
  v681
def k0_mult76 : BitVec 32 :=
  let c1_i32_311 : BitVec 32 := 1#32
  let c16_i32_318 : BitVec 32 := 16#32
  let v692 : BitVec 32 := Scalar.muli c1_i32_311 c16_i32_318
  v692
def k0_mult77 : BitVec 32 :=
  let c2_i32_319 : BitVec 32 := 2#32
  let c4096_i32_320 : BitVec 32 := 4096#32
  let v699 : BitVec 32 := Scalar.muli c2_i32_319 c4096_i32_320
  v699
def k0_mult78 : BitVec 32 :=
  let c2_i32_319 : BitVec 32 := 2#32
  let c16_i32_326 : BitVec 32 := 16#32
  let v710 : BitVec 32 := Scalar.muli c2_i32_319 c16_i32_326
  v710
def k0_mult79 : BitVec 32 :=
  let c3_i32_327 : BitVec 32 := 3#32
  let c4096_i32_328 : BitVec 32 := 4096#32
  let v717 : BitVec 32 := Scalar.muli c3_i32_327 c4096_i32_328
  v717
def k0_mult80 : BitVec 32 :=
  let c3_i32_327 : BitVec 32 := 3#32
  let c16_i32_334 : BitVec 32 := 16#32
  let v728 : BitVec 32 := Scalar.muli c3_i32_327 c16_i32_334
  v728
def k0_mult81 : BitVec 32 :=
  let c0_i32_338 : BitVec 32 := 0#32
  let c4096_i32_339 : BitVec 32 := 4096#32
  let v738 : BitVec 32 := Scalar.muli c0_i32_338 c4096_i32_339
  v738
def k0_mult82 : BitVec 32 :=
  let c0_i32_338 : BitVec 32 := 0#32
  let c16_i32_345 : BitVec 32 := 16#32
  let v749 : BitVec 32 := Scalar.muli c0_i32_338 c16_i32_345
  v749
def k0_off7 (c0_i32_338 : BitVec 32) : Fin 2 → Nat :=
  let c5_i32 : BitVec 32 := 5#32
  let v751 : Index := Scalar.indexCast c5_i32
  let c16_i32_345 : BitVec 32 := 16#32
  let v749 : BitVec 32 := Scalar.muli c0_i32_338 c16_i32_345
  let v750 : BitVec 32 := v749
  let v752 : Index := Scalar.indexCast v750
  ![5, v752.toNat]
def k0_mult83 : BitVec 32 :=
  let c1_i32_346 : BitVec 32 := 1#32
  let c4096_i32_347 : BitVec 32 := 4096#32
  let v756 : BitVec 32 := Scalar.muli c1_i32_346 c4096_i32_347
  v756
def k0_mult84 : BitVec 32 :=
  let c1_i32_346 : BitVec 32 := 1#32
  let c16_i32_353 : BitVec 32 := 16#32
  let v767 : BitVec 32 := Scalar.muli c1_i32_346 c16_i32_353
  v767
def k0_mult85 : BitVec 32 :=
  let c2_i32_354 : BitVec 32 := 2#32
  let c4096_i32_355 : BitVec 32 := 4096#32
  let v774 : BitVec 32 := Scalar.muli c2_i32_354 c4096_i32_355
  v774
def k0_mult86 : BitVec 32 :=
  let c2_i32_354 : BitVec 32 := 2#32
  let c16_i32_361 : BitVec 32 := 16#32
  let v785 : BitVec 32 := Scalar.muli c2_i32_354 c16_i32_361
  v785
def k0_mult87 : BitVec 32 :=
  let c3_i32_362 : BitVec 32 := 3#32
  let c4096_i32_363 : BitVec 32 := 4096#32
  let v792 : BitVec 32 := Scalar.muli c3_i32_362 c4096_i32_363
  v792
def k0_mult88 : BitVec 32 :=
  let c3_i32_362 : BitVec 32 := 3#32
  let c16_i32_369 : BitVec 32 := 16#32
  let v803 : BitVec 32 := Scalar.muli c3_i32_362 c16_i32_369
  v803
def k0_mult89 : BitVec 32 :=
  let c0_i32_371 : BitVec 32 := 0#32
  let c4096_i32_372 : BitVec 32 := 4096#32
  let v810 : BitVec 32 := Scalar.muli c0_i32_371 c4096_i32_372
  v810
def k0_mult90 : BitVec 32 :=
  let c0_i32_371 : BitVec 32 := 0#32
  let c16_i32_378 : BitVec 32 := 16#32
  let v821 : BitVec 32 := Scalar.muli c0_i32_371 c16_i32_378
  v821
def k0_mult91 : BitVec 32 :=
  let c1_i32_379 : BitVec 32 := 1#32
  let c4096_i32_380 : BitVec 32 := 4096#32
  let v828 : BitVec 32 := Scalar.muli c1_i32_379 c4096_i32_380
  v828
def k0_mult92 : BitVec 32 :=
  let c1_i32_379 : BitVec 32 := 1#32
  let c16_i32_386 : BitVec 32 := 16#32
  let v839 : BitVec 32 := Scalar.muli c1_i32_379 c16_i32_386
  v839
def k0_mult93 : BitVec 32 :=
  let c2_i32_387 : BitVec 32 := 2#32
  let c4096_i32_388 : BitVec 32 := 4096#32
  let v846 : BitVec 32 := Scalar.muli c2_i32_387 c4096_i32_388
  v846
def k0_mult94 : BitVec 32 :=
  let c2_i32_387 : BitVec 32 := 2#32
  let c16_i32_394 : BitVec 32 := 16#32
  let v857 : BitVec 32 := Scalar.muli c2_i32_387 c16_i32_394
  v857
def k0_mult95 : BitVec 32 :=
  let c3_i32_395 : BitVec 32 := 3#32
  let c4096_i32_396 : BitVec 32 := 4096#32
  let v864 : BitVec 32 := Scalar.muli c3_i32_395 c4096_i32_396
  v864
def k0_mult96 : BitVec 32 :=
  let c3_i32_395 : BitVec 32 := 3#32
  let c16_i32_402 : BitVec 32 := 16#32
  let v875 : BitVec 32 := Scalar.muli c3_i32_395 c16_i32_402
  v875
def k0_mult97 : BitVec 32 :=
  let c0_i32_406 : BitVec 32 := 0#32
  let c4096_i32_407 : BitVec 32 := 4096#32
  let v885 : BitVec 32 := Scalar.muli c0_i32_406 c4096_i32_407
  v885
def k0_mult98 : BitVec 32 :=
  let c0_i32_406 : BitVec 32 := 0#32
  let c16_i32_413 : BitVec 32 := 16#32
  let v896 : BitVec 32 := Scalar.muli c0_i32_406 c16_i32_413
  v896
def k0_off8 (c0_i32_406 : BitVec 32) : Fin 2 → Nat :=
  let c6_i32 : BitVec 32 := 6#32
  let v898 : Index := Scalar.indexCast c6_i32
  let c16_i32_413 : BitVec 32 := 16#32
  let v896 : BitVec 32 := Scalar.muli c0_i32_406 c16_i32_413
  let v897 : BitVec 32 := v896
  let v899 : Index := Scalar.indexCast v897
  ![6, v899.toNat]
def k0_mult99 : BitVec 32 :=
  let c1_i32_414 : BitVec 32 := 1#32
  let c4096_i32_415 : BitVec 32 := 4096#32
  let v903 : BitVec 32 := Scalar.muli c1_i32_414 c4096_i32_415
  v903
def k0_mult100 : BitVec 32 :=
  let c1_i32_414 : BitVec 32 := 1#32
  let c16_i32_421 : BitVec 32 := 16#32
  let v914 : BitVec 32 := Scalar.muli c1_i32_414 c16_i32_421
  v914
def k0_mult101 : BitVec 32 :=
  let c2_i32_422 : BitVec 32 := 2#32
  let c4096_i32_423 : BitVec 32 := 4096#32
  let v921 : BitVec 32 := Scalar.muli c2_i32_422 c4096_i32_423
  v921
def k0_mult102 : BitVec 32 :=
  let c2_i32_422 : BitVec 32 := 2#32
  let c16_i32_429 : BitVec 32 := 16#32
  let v932 : BitVec 32 := Scalar.muli c2_i32_422 c16_i32_429
  v932
def k0_mult103 : BitVec 32 :=
  let c3_i32_430 : BitVec 32 := 3#32
  let c4096_i32_431 : BitVec 32 := 4096#32
  let v939 : BitVec 32 := Scalar.muli c3_i32_430 c4096_i32_431
  v939
def k0_mult104 : BitVec 32 :=
  let c3_i32_430 : BitVec 32 := 3#32
  let c16_i32_437 : BitVec 32 := 16#32
  let v950 : BitVec 32 := Scalar.muli c3_i32_430 c16_i32_437
  v950
def k0_mult105 : BitVec 32 :=
  let c0_i32_439 : BitVec 32 := 0#32
  let c4096_i32_440 : BitVec 32 := 4096#32
  let v957 : BitVec 32 := Scalar.muli c0_i32_439 c4096_i32_440
  v957
def k0_mult106 : BitVec 32 :=
  let c0_i32_439 : BitVec 32 := 0#32
  let c16_i32_446 : BitVec 32 := 16#32
  let v968 : BitVec 32 := Scalar.muli c0_i32_439 c16_i32_446
  v968
def k0_mult107 : BitVec 32 :=
  let c1_i32_447 : BitVec 32 := 1#32
  let c4096_i32_448 : BitVec 32 := 4096#32
  let v975 : BitVec 32 := Scalar.muli c1_i32_447 c4096_i32_448
  v975
def k0_mult108 : BitVec 32 :=
  let c1_i32_447 : BitVec 32 := 1#32
  let c16_i32_454 : BitVec 32 := 16#32
  let v986 : BitVec 32 := Scalar.muli c1_i32_447 c16_i32_454
  v986
def k0_mult109 : BitVec 32 :=
  let c2_i32_455 : BitVec 32 := 2#32
  let c4096_i32_456 : BitVec 32 := 4096#32
  let v993 : BitVec 32 := Scalar.muli c2_i32_455 c4096_i32_456
  v993
def k0_mult110 : BitVec 32 :=
  let c2_i32_455 : BitVec 32 := 2#32
  let c16_i32_462 : BitVec 32 := 16#32
  let v1004 : BitVec 32 := Scalar.muli c2_i32_455 c16_i32_462
  v1004
def k0_mult111 : BitVec 32 :=
  let c3_i32_463 : BitVec 32 := 3#32
  let c4096_i32_464 : BitVec 32 := 4096#32
  let v1011 : BitVec 32 := Scalar.muli c3_i32_463 c4096_i32_464
  v1011
def k0_mult112 : BitVec 32 :=
  let c3_i32_463 : BitVec 32 := 3#32
  let c16_i32_470 : BitVec 32 := 16#32
  let v1022 : BitVec 32 := Scalar.muli c3_i32_463 c16_i32_470
  v1022
def k0_mult113 : BitVec 32 :=
  let c0_i32_474 : BitVec 32 := 0#32
  let c4096_i32_475 : BitVec 32 := 4096#32
  let v1032 : BitVec 32 := Scalar.muli c0_i32_474 c4096_i32_475
  v1032
def k0_mult114 : BitVec 32 :=
  let c0_i32_474 : BitVec 32 := 0#32
  let c16_i32_481 : BitVec 32 := 16#32
  let v1043 : BitVec 32 := Scalar.muli c0_i32_474 c16_i32_481
  v1043
def k0_off9 (c0_i32_474 : BitVec 32) : Fin 2 → Nat :=
  let c7_i32 : BitVec 32 := 7#32
  let v1045 : Index := Scalar.indexCast c7_i32
  let c16_i32_481 : BitVec 32 := 16#32
  let v1043 : BitVec 32 := Scalar.muli c0_i32_474 c16_i32_481
  let v1044 : BitVec 32 := v1043
  let v1046 : Index := Scalar.indexCast v1044
  ![7, v1046.toNat]
def k0_mult115 : BitVec 32 :=
  let c1_i32_482 : BitVec 32 := 1#32
  let c4096_i32_483 : BitVec 32 := 4096#32
  let v1050 : BitVec 32 := Scalar.muli c1_i32_482 c4096_i32_483
  v1050
def k0_mult116 : BitVec 32 :=
  let c1_i32_482 : BitVec 32 := 1#32
  let c16_i32_489 : BitVec 32 := 16#32
  let v1061 : BitVec 32 := Scalar.muli c1_i32_482 c16_i32_489
  v1061
def k0_mult117 : BitVec 32 :=
  let c2_i32_490 : BitVec 32 := 2#32
  let c4096_i32_491 : BitVec 32 := 4096#32
  let v1068 : BitVec 32 := Scalar.muli c2_i32_490 c4096_i32_491
  v1068
def k0_mult118 : BitVec 32 :=
  let c2_i32_490 : BitVec 32 := 2#32
  let c16_i32_497 : BitVec 32 := 16#32
  let v1079 : BitVec 32 := Scalar.muli c2_i32_490 c16_i32_497
  v1079
def k0_mult119 : BitVec 32 :=
  let c3_i32_498 : BitVec 32 := 3#32
  let c4096_i32_499 : BitVec 32 := 4096#32
  let v1086 : BitVec 32 := Scalar.muli c3_i32_498 c4096_i32_499
  v1086
def k0_mult120 : BitVec 32 :=
  let c3_i32_498 : BitVec 32 := 3#32
  let c16_i32_505 : BitVec 32 := 16#32
  let v1097 : BitVec 32 := Scalar.muli c3_i32_498 c16_i32_505
  v1097
def k0_mult121 : BitVec 32 :=
  let c0_i32_507 : BitVec 32 := 0#32
  let c4096_i32_508 : BitVec 32 := 4096#32
  let v1104 : BitVec 32 := Scalar.muli c0_i32_507 c4096_i32_508
  v1104
def k0_mult122 : BitVec 32 :=
  let c0_i32_507 : BitVec 32 := 0#32
  let c16_i32_514 : BitVec 32 := 16#32
  let v1115 : BitVec 32 := Scalar.muli c0_i32_507 c16_i32_514
  v1115
def k0_mult123 : BitVec 32 :=
  let c1_i32_515 : BitVec 32 := 1#32
  let c4096_i32_516 : BitVec 32 := 4096#32
  let v1122 : BitVec 32 := Scalar.muli c1_i32_515 c4096_i32_516
  v1122
def k0_mult124 : BitVec 32 :=
  let c1_i32_515 : BitVec 32 := 1#32
  let c16_i32_522 : BitVec 32 := 16#32
  let v1133 : BitVec 32 := Scalar.muli c1_i32_515 c16_i32_522
  v1133
def k0_mult125 : BitVec 32 :=
  let c2_i32_523 : BitVec 32 := 2#32
  let c4096_i32_524 : BitVec 32 := 4096#32
  let v1140 : BitVec 32 := Scalar.muli c2_i32_523 c4096_i32_524
  v1140
def k0_mult126 : BitVec 32 :=
  let c2_i32_523 : BitVec 32 := 2#32
  let c16_i32_530 : BitVec 32 := 16#32
  let v1151 : BitVec 32 := Scalar.muli c2_i32_523 c16_i32_530
  v1151
def k0_mult127 : BitVec 32 :=
  let c3_i32_531 : BitVec 32 := 3#32
  let c4096_i32_532 : BitVec 32 := 4096#32
  let v1158 : BitVec 32 := Scalar.muli c3_i32_531 c4096_i32_532
  v1158
def k0_mult128 : BitVec 32 :=
  let c3_i32_531 : BitVec 32 := 3#32
  let c16_i32_538 : BitVec 32 := 16#32
  let v1169 : BitVec 32 := Scalar.muli c3_i32_531 c16_i32_538
  v1169
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16384x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S64x256x64_S64x256_d2 : S64x256x64.ReducesTo [2] S64x256
  h_S_ : 0 < S_.numel
  bcast_S64x256_S64x256x1_0_1 : S64x256.BroadcastsInDim S64x256x1 (![0, 1] : Fin 2 → Fin S64x256x1.rank)
  bcast_S_S64x256x1 : S_.BroadcastsInDim S64x256x1 (![] : Fin 0 → Fin S64x256x1.rank)
  bcast_S64x256x1_S64x256x64_0_1_2 : S64x256x1.BroadcastsInDim S64x256x64 (![0, 1, 2] : Fin 3 → Fin S64x256x64.rank)
  bitsLt_bf16_f32 : FTy.bits .bf16 < FTy.bits .f32
  shapeCasts_S64x256x64_S16384x64 : S64x256x64.ShapeCasts S16384x64
  inb_S8x256x64_S1x256x64_0_0_0 : ∀ a, (![0, 0, 0] : Fin 3 → Nat) a + S1x256x64.size a ≤ S8x256x64.size a
  h_S1x256x64 : 0 < S1x256x64.numel
  shapeCasts_S1x256x64_S256x64 : S1x256x64.ShapeCasts S256x64
  h_S4096x64 : 0 < S4096x64.numel
  shapeCasts_S4096x64_S4096x64 : S4096x64.ShapeCasts S4096x64
  shapeCasts_S256x4096_S256x16x256 : S256x4096.ShapeCasts S256x16x256
  reduces_S256x16x256_S256x16 : S256x16x256.Reduces [2] S256x16
  reduces_S256x16_S16 : S256x16.Reduces [0] S16
  h_S1x16 : 0 < S1x16.numel
  shapeCasts_S1x16_S16 : S1x16.ShapeCasts S16
  shapeCasts_S16_S1x16 : S16.ShapeCasts S1x16
  inb_S8x256x64_S1x256x64_1_0_0 : ∀ a, (![1, 0, 0] : Fin 3 → Nat) a + S1x256x64.size a ≤ S8x256x64.size a
  inb_S8x256x64_S1x256x64_2_0_0 : ∀ a, (![2, 0, 0] : Fin 3 → Nat) a + S1x256x64.size a ≤ S8x256x64.size a
  inb_S8x256x64_S1x256x64_3_0_0 : ∀ a, (![3, 0, 0] : Fin 3 → Nat) a + S1x256x64.size a ≤ S8x256x64.size a
  inb_S8x256x64_S1x256x64_4_0_0 : ∀ a, (![4, 0, 0] : Fin 3 → Nat) a + S1x256x64.size a ≤ S8x256x64.size a
  inb_S8x256x64_S1x256x64_5_0_0 : ∀ a, (![5, 0, 0] : Fin 3 → Nat) a + S1x256x64.size a ≤ S8x256x64.size a
  inb_S8x256x64_S1x256x64_6_0_0 : ∀ a, (![6, 0, 0] : Fin 3 → Nat) a + S1x256x64.size a ≤ S8x256x64.size a
  inb_S8x256x64_S1x256x64_7_0_0 : ∀ a, (![7, 0, 0] : Fin 3 → Nat) a + S1x256x64.size a ≤ S8x256x64.size a
  bcast_S_S64x64 : S_.BroadcastsInDim S64x64 (![] : Fin 0 → Fin S64x64.rank)
  reducesTo_S64x64_S_d0_1 : S64x64.ReducesTo [0, 1] S_
  bcast_S_S1x1 : S_.BroadcastsInDim S1x1 (![] : Fin 0 → Fin S1x1.rank)
  bcast_S1x1_S64x64_0_1 : S1x1.BroadcastsInDim S64x64 (![0, 1] : Fin 2 → Fin S64x64.rank)
  dot_S256x64_S4096x64_S256x4096_1_1_0_0_n_n_wf : DotDims.WF S256x64 S4096x64 S256x4096 [1] [1] [0] [0] [] []
  hrank0 : 0 < grid0.rank
  k0_mult1_dvd : 4096 ∣ k0_mult1.toNat
  k0_off1_inb : ∀ (r : Fin 4), ∀ a, (k0_off1 (BitVec.ofNat 32 r.val)) a + S4096x64.size a ≤ S16384x64.size a
  k0_mult2_dvd : 16 ∣ k0_mult2.toNat
  k0_off2_inb : ∀ (r : Fin 4), ∀ a, (k0_off2 (BitVec.ofNat 32 r.val)) a + S1x16.size a ≤ S8x64.size a
  k0_mult3_dvd : 4096 ∣ k0_mult3.toNat
  k0_mult4_dvd : 16 ∣ k0_mult4.toNat
  k0_mult5_dvd : 4096 ∣ k0_mult5.toNat
  k0_mult6_dvd : 16 ∣ k0_mult6.toNat
  k0_mult7_dvd : 4096 ∣ k0_mult7.toNat
  k0_mult8_dvd : 16 ∣ k0_mult8.toNat
  k0_mult9_dvd : 4096 ∣ k0_mult9.toNat
  k0_mult10_dvd : 16 ∣ k0_mult10.toNat
  k0_mult11_dvd : 4096 ∣ k0_mult11.toNat
  k0_mult12_dvd : 16 ∣ k0_mult12.toNat
  k0_mult13_dvd : 4096 ∣ k0_mult13.toNat
  k0_mult14_dvd : 16 ∣ k0_mult14.toNat
  k0_mult15_dvd : 4096 ∣ k0_mult15.toNat
  k0_mult16_dvd : 16 ∣ k0_mult16.toNat
  k0_mult17_dvd : 4096 ∣ k0_mult17.toNat
  k0_mult18_dvd : 16 ∣ k0_mult18.toNat
  k0_off3_inb : ∀ (r : Fin 4), ∀ a, (k0_off3 (BitVec.ofNat 32 r.val)) a + S1x16.size a ≤ S8x64.size a
  k0_mult19_dvd : 4096 ∣ k0_mult19.toNat
  k0_mult20_dvd : 16 ∣ k0_mult20.toNat
  k0_mult21_dvd : 4096 ∣ k0_mult21.toNat
  k0_mult22_dvd : 16 ∣ k0_mult22.toNat
  k0_mult23_dvd : 4096 ∣ k0_mult23.toNat
  k0_mult24_dvd : 16 ∣ k0_mult24.toNat
  k0_mult25_dvd : 4096 ∣ k0_mult25.toNat
  k0_mult26_dvd : 16 ∣ k0_mult26.toNat
  k0_mult27_dvd : 4096 ∣ k0_mult27.toNat
  k0_mult28_dvd : 16 ∣ k0_mult28.toNat
  k0_mult29_dvd : 4096 ∣ k0_mult29.toNat
  k0_mult30_dvd : 16 ∣ k0_mult30.toNat
  k0_mult31_dvd : 4096 ∣ k0_mult31.toNat
  k0_mult32_dvd : 16 ∣ k0_mult32.toNat
  k0_mult33_dvd : 4096 ∣ k0_mult33.toNat
  k0_mult34_dvd : 16 ∣ k0_mult34.toNat
  k0_off4_inb : ∀ (r : Fin 4), ∀ a, (k0_off4 (BitVec.ofNat 32 r.val)) a + S1x16.size a ≤ S8x64.size a
  k0_mult35_dvd : 4096 ∣ k0_mult35.toNat
  k0_mult36_dvd : 16 ∣ k0_mult36.toNat
  k0_mult37_dvd : 4096 ∣ k0_mult37.toNat
  k0_mult38_dvd : 16 ∣ k0_mult38.toNat
  k0_mult39_dvd : 4096 ∣ k0_mult39.toNat
  k0_mult40_dvd : 16 ∣ k0_mult40.toNat
  k0_mult41_dvd : 4096 ∣ k0_mult41.toNat
  k0_mult42_dvd : 16 ∣ k0_mult42.toNat
  k0_mult43_dvd : 4096 ∣ k0_mult43.toNat
  k0_mult44_dvd : 16 ∣ k0_mult44.toNat
  k0_mult45_dvd : 4096 ∣ k0_mult45.toNat
  k0_mult46_dvd : 16 ∣ k0_mult46.toNat
  k0_mult47_dvd : 4096 ∣ k0_mult47.toNat
  k0_mult48_dvd : 16 ∣ k0_mult48.toNat
  k0_mult49_dvd : 4096 ∣ k0_mult49.toNat
  k0_mult50_dvd : 16 ∣ k0_mult50.toNat
  k0_off5_inb : ∀ (r : Fin 4), ∀ a, (k0_off5 (BitVec.ofNat 32 r.val)) a + S1x16.size a ≤ S8x64.size a
  k0_mult51_dvd : 4096 ∣ k0_mult51.toNat
  k0_mult52_dvd : 16 ∣ k0_mult52.toNat
  k0_mult53_dvd : 4096 ∣ k0_mult53.toNat
  k0_mult54_dvd : 16 ∣ k0_mult54.toNat
  k0_mult55_dvd : 4096 ∣ k0_mult55.toNat
  k0_mult56_dvd : 16 ∣ k0_mult56.toNat
  k0_mult57_dvd : 4096 ∣ k0_mult57.toNat
  k0_mult58_dvd : 16 ∣ k0_mult58.toNat
  k0_mult59_dvd : 4096 ∣ k0_mult59.toNat
  k0_mult60_dvd : 16 ∣ k0_mult60.toNat
  k0_mult61_dvd : 4096 ∣ k0_mult61.toNat
  k0_mult62_dvd : 16 ∣ k0_mult62.toNat
  k0_mult63_dvd : 4096 ∣ k0_mult63.toNat
  k0_mult64_dvd : 16 ∣ k0_mult64.toNat
  k0_mult65_dvd : 4096 ∣ k0_mult65.toNat
  k0_mult66_dvd : 16 ∣ k0_mult66.toNat
  k0_off6_inb : ∀ (r : Fin 4), ∀ a, (k0_off6 (BitVec.ofNat 32 r.val)) a + S1x16.size a ≤ S8x64.size a
  k0_mult67_dvd : 4096 ∣ k0_mult67.toNat
  k0_mult68_dvd : 16 ∣ k0_mult68.toNat
  k0_mult69_dvd : 4096 ∣ k0_mult69.toNat
  k0_mult70_dvd : 16 ∣ k0_mult70.toNat
  k0_mult71_dvd : 4096 ∣ k0_mult71.toNat
  k0_mult72_dvd : 16 ∣ k0_mult72.toNat
  k0_mult73_dvd : 4096 ∣ k0_mult73.toNat
  k0_mult74_dvd : 16 ∣ k0_mult74.toNat
  k0_mult75_dvd : 4096 ∣ k0_mult75.toNat
  k0_mult76_dvd : 16 ∣ k0_mult76.toNat
  k0_mult77_dvd : 4096 ∣ k0_mult77.toNat
  k0_mult78_dvd : 16 ∣ k0_mult78.toNat
  k0_mult79_dvd : 4096 ∣ k0_mult79.toNat
  k0_mult80_dvd : 16 ∣ k0_mult80.toNat
  k0_mult81_dvd : 4096 ∣ k0_mult81.toNat
  k0_mult82_dvd : 16 ∣ k0_mult82.toNat
  k0_off7_inb : ∀ (r : Fin 4), ∀ a, (k0_off7 (BitVec.ofNat 32 r.val)) a + S1x16.size a ≤ S8x64.size a
  k0_mult83_dvd : 4096 ∣ k0_mult83.toNat
  k0_mult84_dvd : 16 ∣ k0_mult84.toNat
  k0_mult85_dvd : 4096 ∣ k0_mult85.toNat
  k0_mult86_dvd : 16 ∣ k0_mult86.toNat
  k0_mult87_dvd : 4096 ∣ k0_mult87.toNat
  k0_mult88_dvd : 16 ∣ k0_mult88.toNat
  k0_mult89_dvd : 4096 ∣ k0_mult89.toNat
  k0_mult90_dvd : 16 ∣ k0_mult90.toNat
  k0_mult91_dvd : 4096 ∣ k0_mult91.toNat
  k0_mult92_dvd : 16 ∣ k0_mult92.toNat
  k0_mult93_dvd : 4096 ∣ k0_mult93.toNat
  k0_mult94_dvd : 16 ∣ k0_mult94.toNat
  k0_mult95_dvd : 4096 ∣ k0_mult95.toNat
  k0_mult96_dvd : 16 ∣ k0_mult96.toNat
  k0_mult97_dvd : 4096 ∣ k0_mult97.toNat
  k0_mult98_dvd : 16 ∣ k0_mult98.toNat
  k0_off8_inb : ∀ (r : Fin 4), ∀ a, (k0_off8 (BitVec.ofNat 32 r.val)) a + S1x16.size a ≤ S8x64.size a
  k0_mult99_dvd : 4096 ∣ k0_mult99.toNat
  k0_mult100_dvd : 16 ∣ k0_mult100.toNat
  k0_mult101_dvd : 4096 ∣ k0_mult101.toNat
  k0_mult102_dvd : 16 ∣ k0_mult102.toNat
  k0_mult103_dvd : 4096 ∣ k0_mult103.toNat
  k0_mult104_dvd : 16 ∣ k0_mult104.toNat
  k0_mult105_dvd : 4096 ∣ k0_mult105.toNat
  k0_mult106_dvd : 16 ∣ k0_mult106.toNat
  k0_mult107_dvd : 4096 ∣ k0_mult107.toNat
  k0_mult108_dvd : 16 ∣ k0_mult108.toNat
  k0_mult109_dvd : 4096 ∣ k0_mult109.toNat
  k0_mult110_dvd : 16 ∣ k0_mult110.toNat
  k0_mult111_dvd : 4096 ∣ k0_mult111.toNat
  k0_mult112_dvd : 16 ∣ k0_mult112.toNat
  k0_mult113_dvd : 4096 ∣ k0_mult113.toNat
  k0_mult114_dvd : 16 ∣ k0_mult114.toNat
  k0_off9_inb : ∀ (r : Fin 4), ∀ a, (k0_off9 (BitVec.ofNat 32 r.val)) a + S1x16.size a ≤ S8x64.size a
  k0_mult115_dvd : 4096 ∣ k0_mult115.toNat
  k0_mult116_dvd : 16 ∣ k0_mult116.toNat
  k0_mult117_dvd : 4096 ∣ k0_mult117.toNat
  k0_mult118_dvd : 16 ∣ k0_mult118.toNat
  k0_mult119_dvd : 4096 ∣ k0_mult119.toNat
  k0_mult120_dvd : 16 ∣ k0_mult120.toNat
  k0_mult121_dvd : 4096 ∣ k0_mult121.toNat
  k0_mult122_dvd : 16 ∣ k0_mult122.toNat
  k0_mult123_dvd : 4096 ∣ k0_mult123.toNat
  k0_mult124_dvd : 16 ∣ k0_mult124.toNat
  k0_mult125_dvd : 4096 ∣ k0_mult125.toNat
  k0_mult126_dvd : 16 ∣ k0_mult126.toNat
  k0_mult127_dvd : 4096 ∣ k0_mult127.toNat
  k0_mult128_dvd : 16 ∣ k0_mult128.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x64.size a ≤ S64x256x64.size a
  hwx0_0 : ∀ i : grid0.Coords, EltTy.bits .bf16 = 32 ∨ (Rect.block (s := S64x256x64) S8x256x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x64.size a ≤ S16384x64.size a
  hwx0_1 : ∀ i : grid0.Coords, EltTy.bits .bf16 = 32 ∨ (Rect.block (s := S16384x64) S16384x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16384x64.size a ≤ S16384x64.size a
  hwx0_2 : ∀ i : grid0.Coords, EltTy.bits .bf16 = 32 ∨ (Rect.block (s := S16384x64) S16384x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x64.size a ≤ S64x64.size a
  hwx0_3 : ∀ i : grid0.Coords, EltTy.bits .f32 = 32 ∨ (Rect.block (s := S64x64) S8x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x64.size a ≤ S64x64.size a
  hwx0_4 : ∀ i : grid0.Coords, EltTy.bits .f32 = 32 ∨ (Rect.block (s := S64x64) S8x64.size (cc0_transform_4 i) (hinb0_4 i)).WholeWords (EltTy.packing .f32)

variable [Facts₀]

def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf

abbrev win0_0 : Pipeline.Window sig grid0 :=
  Pipeline.Window.ofSpec (Memref.whole main_v10) S8x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S16384x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S16384x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14_0) S8x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_1) S8x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x256x64 : Shape := ⟨3, ![64, 256, 64]⟩
abbrev S_ : Shape := ⟨0, ![]⟩
abbrev S64x256 : Shape := ⟨2, ![64, 256]⟩
abbrev S64x256x1 : Shape := ⟨3, ![64, 256, 1]⟩
abbrev S64x256x64x256 : Shape := ⟨4, ![64, 256, 64, 256]⟩
abbrev S64x64x256x256 : Shape := ⟨4, ![64, 64, 256, 256]⟩
abbrev S64x64x256 : Shape := ⟨3, ![64, 64, 256]⟩
abbrev S64x64 : Shape := ⟨2, ![64, 64]⟩
abbrev S1x1 : Shape := ⟨2, ![1, 1]⟩

abbrev nBuf : Space → Nat
  | .hbm => 99
  | .vmem => 0
  | .smem => 0
  | _ => 0

abbrev bufTy : (tb : Table) → Fin (tcTables nBuf tb) → BufTy
  | .hbm, ⟨0, _⟩ => ⟨S64x256x64, .f32⟩
  | .hbm, ⟨1, _⟩ => ⟨S64x256x64, .f32⟩
  | .hbm, ⟨2, _⟩ => ⟨S64x256x64, .f32⟩
  | .hbm, ⟨3, _⟩ => ⟨S_, .f32⟩
  | .hbm, ⟨4, _⟩ => ⟨S64x256, .f32⟩
  | .hbm, ⟨5, _⟩ => ⟨S64x256x1, .f32⟩
  | .hbm, ⟨6, _⟩ => ⟨S64x256x1, .f32⟩
  | .hbm, ⟨7, _⟩ => ⟨S_, .f32⟩
  | .hbm, ⟨8, _⟩ => ⟨S64x256x1, .f32⟩
  | .hbm, ⟨9, _⟩ => ⟨S64x256x1, .f32⟩
  | .hbm, ⟨10, _⟩ => ⟨S64x256x64, .f32⟩
  | .hbm, ⟨11, _⟩ => ⟨S64x256x64, .f32⟩
  | .hbm, ⟨12, _⟩ => ⟨S64x256x64, .f32⟩
  | .hbm, ⟨13, _⟩ => ⟨S_, .f32⟩
  | .hbm, ⟨14, _⟩ => ⟨S64x256, .f32⟩
  | .hbm, ⟨15, _⟩ => ⟨S64x256x1, .f32⟩
  | .hbm, ⟨16, _⟩ => ⟨S64x256x1, .f32⟩
  | .hbm, ⟨17, _⟩ => ⟨S_, .f32⟩
  | .hbm, ⟨18, _⟩ => ⟨S64x256x1, .f32⟩
  | .hbm, ⟨19, _⟩ => ⟨S64x256x1, .f32⟩
  | .hbm, ⟨20, _⟩ => ⟨S64x256x64, .f32⟩
  | .hbm, ⟨21, _⟩ => ⟨S64x256x64, .f32⟩
  | .hbm, ⟨22, _⟩ => ⟨S64x256x64x256, .f32⟩
  | .hbm, ⟨23, _⟩ => ⟨S64x64x256x256, .f32⟩
  | .hbm, ⟨24, _⟩ => ⟨S_, .f32⟩
  | .hbm, ⟨25, _⟩ => ⟨S64x64x256, .f32⟩
  | .hbm, ⟨26, _⟩ => ⟨S_, .f32⟩
  | .hbm, ⟨27, _⟩ => ⟨S64x64, .f32⟩
  | .hbm, ⟨28, _⟩ => ⟨S_, .f32⟩
  | .hbm, ⟨29, _⟩ => ⟨S64x64, .f32⟩
  | .hbm, ⟨30, _⟩ => ⟨S64x64, .f32⟩
  | .hbm, ⟨31, _⟩ => ⟨S64x256x64x256, .f32⟩
  | .hbm, ⟨32, _⟩ => ⟨S64x64x256x256, .f32⟩
  | .hbm, ⟨33, _⟩ => ⟨S_, .f32⟩
  | .hbm, ⟨34, _⟩ => ⟨S64x64x256, .f32⟩
  | .hbm, ⟨35, _⟩ => ⟨S_, .f32⟩
  | .hbm, ⟨36, _⟩ => ⟨S64x64, .f32⟩
  | .hbm, ⟨37, _⟩ => ⟨S_, .f32⟩
  | .hbm, ⟨38, _⟩ => ⟨S64x64, .f32⟩
  | .hbm, ⟨39, _⟩ => ⟨S64x64, .f32⟩
  | .hbm, ⟨40, _⟩ => ⟨S64x64, .i32⟩
  | .hbm, ⟨41, _⟩ => ⟨S64x64, .i32⟩
  | .hbm, ⟨42, _⟩ => ⟨S_, .i32⟩
  | .hbm, ⟨43, _⟩ => ⟨S64x64, .i32⟩
  | .hbm, ⟨44, _⟩ => ⟨S64x64, .i32⟩
  | .hbm, ⟨45, _⟩ => ⟨S64x64, .i1⟩
  | .hbm, ⟨46, _⟩ => ⟨S64x64, .i1⟩
  | .hbm, ⟨47, _⟩ => ⟨S_, .f32⟩
  | .hbm, ⟨48, _⟩ => ⟨S_, .f32⟩
  | .hbm, ⟨49, _⟩ => ⟨S64x64, .f32⟩
  | .hbm, ⟨50, _⟩ => ⟨S64x64, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S64x64, .f32⟩
  | .hbm, ⟨56, _⟩ => ⟨S64x64, .f32⟩
  | .hbm, ⟨57, _⟩ => ⟨S64x64, .f32⟩
  | .hbm, ⟨58, _⟩ => ⟨S_, .f32⟩
  | .hbm, ⟨59, _⟩ => ⟨S_, .f32⟩
  | .hbm, ⟨60, _⟩ => ⟨S64x64, .f32⟩
  | .hbm, ⟨61, _⟩ => ⟨S64x64, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .i32⟩
  | .hbm, ⟨72, _⟩ => ⟨S_, .f32⟩
  | .hbm, ⟨73, _⟩ => ⟨S_, .f32⟩
  | .hbm, ⟨74, _⟩ => ⟨S1x1, .f32⟩
  | .hbm, ⟨75, _⟩ => ⟨S_, .f32⟩
  | .hbm, ⟨76, _⟩ => ⟨S1x1, .f32⟩
  | .hbm, ⟨77, _⟩ => ⟨S1x1, .f32⟩
  | .hbm, ⟨78, _⟩ => ⟨S64x64, .f32⟩
  | .hbm, ⟨79, _⟩ => ⟨S64x64, .f32⟩
  | .hbm, ⟨80, _⟩ => ⟨S64x64, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .i1⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S64x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_cst_6 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_call2_v0 : Ref sig .tc := ⟨.hbm, 48, rfl⟩
abbrev main_call2_v1 : Ref sig .tc := ⟨.hbm, 49, rfl⟩
abbrev main_v28 : Ref sig .tc := ⟨.hbm, 50, rfl⟩
abbrev main_cst_8 : Ref sig .tc := ⟨.hbm, 51, rfl⟩
abbrev main_v29 : Ref sig .tc := ⟨.hbm, 52, rfl⟩
abbrev main_cst_9 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_10 : Ref sig .tc := ⟨.hbm, 58, rfl⟩
abbrev main_call3_v0 : Ref sig .tc := ⟨.hbm, 59, rfl⟩
abbrev main_call3_v1 : Ref sig .tc := ⟨.hbm, 60, rfl⟩
abbrev main_v34 : Ref sig .tc := ⟨.hbm, 61, rfl⟩
abbrev main_cst_11 : Ref sig .tc := ⟨.hbm, 62, rfl⟩
abbrev main_v35 : Ref sig .tc := ⟨.hbm, 63, rfl⟩
abbrev main_cst_12 : Ref sig .tc := ⟨.hbm, 64, rfl⟩
abbrev main_v36 : Ref sig .tc := ⟨.hbm, 65, rfl⟩
abbrev main_v37 : Ref sig .tc := ⟨.hbm, 66, rfl⟩
abbrev main_cst_13 : Ref sig .tc := ⟨.hbm, 67, rfl⟩
abbrev main_v38 : Ref sig .tc := ⟨.hbm, 68, rfl⟩
abbrev main_cst_14 : Ref sig .tc := ⟨.hbm, 69, rfl⟩
abbrev main_v39 : Ref sig .tc := ⟨.hbm, 70, rfl⟩
abbrev main_c_15 : Ref sig .tc := ⟨.hbm, 71, rfl⟩
abbrev main_call4_call0_cst : Ref sig .tc := ⟨.hbm, 72, rfl⟩
abbrev main_call4_call0_v0 : Ref sig .tc := ⟨.hbm, 73, rfl⟩
abbrev main_call4_call0_v1 : Ref sig .tc := ⟨.hbm, 74, rfl⟩
abbrev main_call4_call0_cst_0 : Ref sig .tc := ⟨.hbm, 75, rfl⟩
abbrev main_call4_call0_v2 : Ref sig .tc := ⟨.hbm, 76, rfl⟩
abbrev main_call4_call0_v3 : Ref sig .tc := ⟨.hbm, 77, rfl⟩
abbrev main_call4_call0_v4 : Ref sig .tc := ⟨.hbm, 78, rfl⟩
abbrev main_call4_call0_v5 : Ref sig .tc := ⟨.hbm, 79, rfl⟩
abbrev main_call4_call0_v6 : Ref sig .tc := ⟨.hbm, 80, rfl⟩
abbrev main_call4_call0_v7 : Ref sig .tc := ⟨.hbm, 81, rfl⟩
abbrev main_call4_call0_cst_1 : Ref sig .tc := ⟨.hbm, 82, rfl⟩
abbrev main_call4_call0_v8 : Ref sig .tc := ⟨.hbm, 83, rfl⟩
abbrev main_call4_call0_cst_2 : Ref sig .tc := ⟨.hbm, 84, rfl⟩
abbrev main_call4_call0_v9 : Ref sig .tc := ⟨.hbm, 85, rfl⟩
abbrev main_call4_call0_v10 : Ref sig .tc := ⟨.hbm, 86, rfl⟩
abbrev main_call4_call0_cst_3 : Ref sig .tc := ⟨.hbm, 87, rfl⟩
abbrev main_call4_call0_v11 : Ref sig .tc := ⟨.hbm, 88, rfl⟩
abbrev main_call4_call0_cst_4 : Ref sig .tc := ⟨.hbm, 89, rfl⟩
abbrev main_call4_call0_call0_v0 : Ref sig .tc := ⟨.hbm, 90, rfl⟩
abbrev main_call4_v0 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_16 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩

abbrev nD : Nat := 1
abbrev τ : Topo := Topo.v7x

variable {F : FTy → Type} [FloatOps F]

class Facts₀ : Prop where
  reducesTo_S64x256x64_S64x256_d2 : S64x256x64.ReducesTo [2] S64x256
  h_S_ : 0 < S_.numel
  bcast_S64x256_S64x256x1_0_1 : S64x256.BroadcastsInDim S64x256x1 (![0, 1] : Fin 2 → Fin S64x256x1.rank)
  bcast_S_S64x256x1 : S_.BroadcastsInDim S64x256x1 (![] : Fin 0 → Fin S64x256x1.rank)
  bcast_S64x256x1_S64x256x64_0_1_2 : S64x256x1.BroadcastsInDim S64x256x64 (![0, 1, 2] : Fin 3 → Fin S64x256x64.rank)
  transposes_S64x256x64x256_S64x64x256x256_2_0_3_1 : S64x256x64x256.Transposes [2, 0, 3, 1] S64x64x256x256
  reducesTo_S64x64x256x256_S64x64x256_d3 : S64x64x256x256.ReducesTo [3] S64x64x256
  reducesTo_S64x64x256_S64x64_d2 : S64x64x256.ReducesTo [2] S64x64
  bcast_S_S64x64 : S_.BroadcastsInDim S64x64 (![] : Fin 0 → Fin S64x64.rank)
  reducesTo_S64x64_S_d0_1 : S64x64.ReducesTo [0, 1] S_
  bcast_S_S1x1 : S_.BroadcastsInDim S1x1 (![] : Fin 0 → Fin S1x1.rank)
  bcast_S1x1_S64x64_0_1 : S1x1.BroadcastsInDim S64x64 (![0, 1] : Fin 2 → Fin S64x64.rank)
  dot_S64x256x64_S64x256x64_S64x256x64x256_2_2_01_01_n_n_wf : DotDims.WF S64x256x64 S64x256x64 S64x256x64x256 [2] [2] [0, 1] [0, 1] [] []

variable [Facts₀]

def dot_S64x256x64_S64x256x64_S64x256x64x256_2_2_01_01_n_n : DotDims S64x256x64 S64x256x64 S64x256x64x256 where
  lhsContracting := [2]
  rhsContracting := [2]
  lhsNonContracting := [0, 1]
  rhsNonContracting := [0, 1]
  lhsBatch := []
  rhsBatch := []
  wf := dot_S64x256x64_S64x256x64_S64x256x64x256_2_2_01_01_n_n_wf

class Facts : Prop extends Facts₀ where

variable [Facts]
-- ==== Proof.Shared.lean ====
/-
  The reference's host operations, grouped into the three functions it is made of, each written as the
  program writes it: `normalize` (an image stack divided, patch by patch, by the patch's norm plus a
  small constant), `hostSim` (the patch similarity as the host computes it: a contraction over the 64
  entries giving every pair of patches of every pair of images, a transpose bringing the two image axes
  first, a maximum over the second image's patches, a sum over the first image's, a division by 256) and
  `separability` (from the two similarity tables to the one number returned: mean and spread of the
  first table off its diagonal, mean and spread of the second, their normalised difference, negated).
  The kernel's program applies the same `normalize` before its call and the same `separability` after
  it; only the middle differs, and `separability` is never opened.
-/
import proofs.«136283_j24739011625309_1_alg».proof.ReferenceIdeal
import Idealize.ShloMosaic.PureOps.Ideal

noncomputable section

namespace Cert.Shared

open Idealize.ShloMosaic Cert.ReferenceIdeal Cert.ReferenceIdeal.Facts₀

variable [Cert.ReferenceIdeal.Facts]

/-- A stack of 64 images of 256 patches of 64 entries. -/
abbrev Stack : Type := FVec Ideal S64x256x64 .f32
/-- A 64 × 64 table. -/
abbrev Table : Type := FVec Ideal S64x64 .f32

/-- Each patch divided by its norm plus the small constant: `x / (sqrt (sum of squares) + eps)`. -/
def normalize (x : Stack) : Stack :=
  Host.divf x
    (broadcastInDim S64x256x64 ![0, 1, 2] bcast_S64x256x1_S64x256x64_0_1_2
      (addf
        (Host.sqrt (broadcastInDim S64x256x1 ![0, 1] bcast_S64x256_S64x256x1_0_1
          (Host.reduceAdd (mulf x x) (constant (F := Ideal) S_ .f32 0x00000000#32) reducesTo_S64x256x64_S64x256_d2 h_S_)))
        (broadcastInDim S64x256x1 ![] bcast_S_S64x256x1 (constant (F := Ideal) S_ .f32 0x322BCC77#32))))

/-- The host's patch similarity of `l` (whose images index the result's COLUMNS) and `r` (the rows). -/
def hostSim (l r : Stack) : Table :=
  Host.divf
    (Host.reduceAdd
      (Host.reduce FloatOps.maximumf
        (transpose S64x64x256x256 [2, 0, 3, 1]
          (Host.dotGeneral dot_S64x256x64_S64x256x64_S64x256x64x256_2_2_01_01_n_n none l r)
          transposes_S64x256x64x256_S64x64x256x256_2_0_3_1)
        (constant (F := Ideal) S_ .f32 0xFF800000#32) reducesTo_S64x64x256x256_S64x64x256_d3 h_S_)
      (constant (F := Ideal) S_ .f32 0x00000000#32) reducesTo_S64x64x256_S64x64_d2 h_S_)
    (broadcastInDim S64x64 ![] bcast_S_S64x64 (constant (F := Ideal) S_ .f32 0x43800000#32))

/-- The off-diagonal mask: row number differs from column number. -/
def offDiag : IVec S64x64 1 :=
  noti (cmpi .eq (addi (iotaInDim S64x64 32 0) (broadcastInDim S64x64 ![] bcast_S_S64x64 (constantI S_ 32 0#32)))
    (iotaInDim S64x64 32 1))

/-- `where mask x 0`: the table with its diagonal zeroed. -/
def maskOff (x : Table) : Table :=
  select offDiag x (broadcastInDim S64x64 ![] bcast_S_S64x64 (id (constant (F := Ideal) S_ .f32 0x00000000#32)))

/-- The mean of the first table off its diagonal (sum over 4032). -/
def muOff (nn : Table) : FVec Ideal S_ .f32 :=
  Host.divf (Host.reduceAdd (maskOff nn) (constant (F := Ideal) S_ .f32 0x00000000#32) reducesTo_S64x64_S_d0_1 h_S_)
    (constant (F := Ideal) S_ .f32 0x457C0000#32)

/-- The spread of the first table off its diagonal: root of the masked squared deviations over 4031. -/
def sigmaOff (nn : Table) : FVec Ideal S_ .f32 :=
  Host.sqrt (Host.divf
    (Host.reduceAdd
      (maskOff (mulf (subf nn (broadcastInDim S64x64 ![] bcast_S_S64x64 (muOff nn)))
                     (subf nn (broadcastInDim S64x64 ![] bcast_S_S64x64 (muOff nn)))))
      (constant (F := Ideal) S_ .f32 0x00000000#32) reducesTo_S64x64_S_d0_1 h_S_)
    (constant (F := Ideal) S_ .f32 0x457BF000#32))

/-- The mean of the second table (sum over 4096). -/
def muAll (nd : Table) : FVec Ideal S_ .f32 :=
  Host.divf (Host.reduceAdd nd (constant (F := Ideal) S_ .f32 0x00000000#32) reducesTo_S64x64_S_d0_1 h_S_)
    (constant (F := Ideal) S_ .f32 0x45800000#32)

/-- The deviations of the second table from its mean, as the variance routine forms them. -/
def devAll (nd : Table) : Table :=
  subf nd (broadcastInDim S64x64 ![0, 1] bcast_S1x1_S64x64_0_1
    (Host.divf
      (broadcastInDim S1x1 ![] bcast_S_S1x1
        (Host.reduceAdd nd (constant (F := Ideal) S_ .f32 0x00000000#32) reducesTo_S64x64_S_d0_1 h_S_))
      (broadcastInDim S1x1 ![] bcast_S_S1x1 (constant (F := Ideal) S_ .f32 0x45800000#32))))

/-- The count the variance divides by: 4096 minus the one degree of freedom. -/
def dofAll : FVec Ideal S_ .f32 :=
  subf (constant (F := Ideal) S_ .f32 0x45800000#32) (sitofp .f32 (constantI S_ 32 1#32))

/-- The spread of the second table: root of the variance routine's guarded quotient. -/
def sigmaAll (nd : Table) : FVec Ideal S_ .f32 :=
  Host.sqrt (select (cmpf .ogt dofAll (constant (F := Ideal) S_ .f32 0x00000000#32))
    (Host.divf (Host.reduceAdd (mulf (devAll nd) (devAll nd)) (constant (F := Ideal) S_ .f32 0x00000000#32)
      reducesTo_S64x64_S_d0_1 h_S_) dofAll)
    (id (constant (F := Ideal) S_ .f32 0x7FC00000#32)))

/-- From the two tables to the number returned. -/
def separability (nn nd : Table) : FVec Ideal S_ .f32 :=
  Host.negf (Host.divf (subf (muOff nn) (muAll nd))
    (addf (addf (sigmaOff nn) (sigmaAll nd)) (constant (F := Ideal) S_ .f32 0x322BCC77#32)))

end Cert.Shared

end
-- ==== Proof.Spec.lean ====
/-
  The mathematics both programs compute, stated once over plain index functions.

  For two stacks of 64 images, each image 256 patches of 64 numbers, the PATCH SIMILARITY of image `i` of
  the first stack and image `j` of the second is: for every patch `p` of the first image take the largest
  inner product with a patch `q` of the second (a fold of `max` from the value the programs start it from),
  add these 256 maxima, divide by the literal the programs divide by. Nothing here orders a sum, so
  both programs' ways of adding up the 64 products, and of walking the patches, meet in it.
-/
import Idealize.ShloMosaic.Lib.ValueIdx
import Idealize.ShloMosaic.PureOps.Ideal.Laws

noncomputable section

open scoped BigOperators

namespace Cert.Spec

open Idealize.ShloMosaic Idealize.ShloMosaic.ValueIdx

/-- A stack of 64 images of 256 patches of 64 entries, at the ideal values. -/
abbrev Stack : Type := (⟨3, ![64, 256, 64]⟩ : Shape).Idx → EReal
/-- A 64 × 64 table of similarities. -/
abbrev Table : Type := (⟨2, ![64, 64]⟩ : Shape).Idx → EReal

/-- The value a maximum is folded from: the f32 pattern of minus infinity, kept as the programs write it. -/
abbrev negInf : EReal := Ideal.ofBits .f32 0xFF800000#32
/-- The divisor of the mean over the 256 patches, kept as the programs write it. -/
abbrev patches : EReal := Ideal.ofBits .f32 0x43800000#32

/-- The inner product of patch `p` of image `i` of `a` with patch `q` of image `j` of `b`. -/
def patchDot (a b : Stack) (i j : Fin 64) (p q : Fin 256) : EReal :=
  ∑ d : Fin 64, a (ix3 i p d) * b (ix3 j q d)

/-- The largest inner product of patch `p` of image `i` of `a` with any patch of image `j` of `b`. -/
def bestMatch (a b : Stack) (i j : Fin 64) (p : Fin 256) : EReal :=
  (Finset.univ : Finset (Fin 256)).fold max negInf (fun q => patchDot a b i j p q)

/-- The similarity of image `i` of `a` and image `j` of `b`: the mean of the best matches. -/
def simAt (a b : Stack) (i j : Fin 64) : EReal :=
  Ideal.div (∑ p : Fin 256, bestMatch a b i j p) patches

/-- The table of all similarities. -/
def sim (a b : Stack) : Table := fun y => simAt a b (y 0) (y 1)

theorem sim_apply (a b : Stack) (i j : Fin 64) : sim a b (ix2 i j) = simAt a b i j := rfl

end Cert.Spec

end
-- ==== Proof.BlockSpec.lean ====
/-
  What ONE grid point of the kernel computes, stated over plain index functions: the point holds 8
  images of the first stack (a block of 8 × 256 × 64) and a whole second stack laid out flat, patch
  `q` of image `j` on row `256 j + q` of a 16384 × 64 matrix; its block of the result, 8 × 64, holds at
  `(r, j)` the patch similarity of the block's image `r` and the flat stack's image `j`.
-/
import proofs.«136283_j24739011625309_1_alg».proof.Proof.Spec

noncomputable section

open scoped BigOperators

namespace Cert.Spec

open Idealize.ShloMosaic Idealize.ShloMosaic.ValueIdx

/-- Eight images of 256 patches of 64 entries. -/
abbrev Block : Type := (⟨3, ![8, 256, 64]⟩ : Shape).Idx → EReal
/-- A stack laid out flat: 64 · 256 rows of 64 entries. -/
abbrev Flat : Type := (⟨2, ![16384, 64]⟩ : Shape).Idx → EReal
/-- One grid point's block of a similarity table. -/
abbrev BlockTable : Type := (⟨2, ![8, 64]⟩ : Shape).Idx → EReal

/-- The flat row of patch `q` of image `j`. -/
def flatRow (j : Fin 64) (q : Fin 256) : Fin 16384 := ⟨256 * j.val + q.val, by omega⟩

theorem flatRow_val (j : Fin 64) (q : Fin 256) : (flatRow j q).val = 256 * j.val + q.val := rfl

/-- The inner product of patch `p` of the block's image `r` with patch `q` of the flat stack's image `j`. -/
def blockDot (x : Block) (f : Flat) (r : Fin 8) (j : Fin 64) (p q : Fin 256) : EReal :=
  ∑ d : Fin 64, x (ix3 r p d) * f (ix2 (flatRow j q) d)

/-- The similarity of the block's image `r` and the flat stack's image `j`. -/
def blockSimAt (x : Block) (f : Flat) (r : Fin 8) (j : Fin 64) : EReal :=
  Ideal.div (∑ p : Fin 256, (Finset.univ : Finset (Fin 256)).fold max negInf (fun q => blockDot x f r j p q)) patches

/-- One grid point's block of the similarity table. -/
def blockSim (x : Block) (f : Flat) : BlockTable := fun y => blockSimAt x f (y 0) (y 1)

theorem blockSim_apply (x : Block) (f : Flat) (r : Fin 8) (j : Fin 64) : blockSim x f (ix2 r j) = blockSimAt x f r j := rfl

end Cert.Spec

end
-- ==== Proof.KernelTail.lean ====
/-
  The kernel program's host operations after its call, read back: from whatever the two result arrays
  of the call hold, they compute the same `separability` as the reference's last operations: the same
  operations in the same order on the same literals, so the two terms agree by unfolding.
-/
import proofs.«136283_j24739011625309_1_alg».proof.Proof.Gen.KernelIdeal.Launch
import proofs.«136283_j24739011625309_1_alg».proof.Proof.Gen.ReferenceIdeal
import proofs.«136283_j24739011625309_1_alg».proof.Proof.Shared
import Idealize.ShloMosaic.Lib.StableHlo.Run

noncomputable section

namespace Cert.KernelIdeal.Tail

open Idealize.ShloMosaic Idealize.ShloMosaic.StableHlo Cert.KernelIdeal Cert.KernelIdeal.Gen

attribute [local irreducible] Host.reduceAdd Host.reduce Host.divf Host.sqrt Host.negf broadcastInDim iotaInDim in
set_option maxRecDepth 16384 in
set_option maxHeartbeats 2000000 in
/-- After the seven stretches of host operations that follow the call, the returned buffer holds
    `separability` of the call's two result arrays, whatever the valuation they are run from. -/
theorem tail_value (W : Valuation τ sig (Elt Ideal)) :
    StableHlo.after (List.flatten [hostOps1 (F := Ideal), hostOps1_1, hostOps1_2, hostOps1_3, hostOps1_4, hostOps1_5, hostOps1_6]) W
        (Proc.devRef .tc main_v38)
      = Cert.Shared.separability (W (Proc.devRef .tc main_v14_0)) (W (Proc.devRef .tc main_v14_1)) := by
  simp only [hostOps1, hostOps1_1, hostOps1_2, hostOps1_3, hostOps1_4, hostOps1_5, hostOps1_6, List.flatten_cons,
    List.flatten_nil, List.append_nil, List.cons_append, List.nil_append]
  after_results_simp
  rfl

end Cert.KernelIdeal.Tail

end
-- ==== Proof.KernelValue.lean ====
/-
  The kernel program's value at the level of whole arrays.

  Before its call the program normalizes both stacks exactly as the reference does, narrows them to bf16
  (no change at the ideal values) and lays each out flat, 64 · 256 rows of 64. The call walks 8 grid
  points; point `t` holds images `8 t … 8 t + 7` of the first stack and both flat stacks whole, and
  writes rows `8 t … 8 t + 7` of the two result tables. So the first table ends holding the patch
  similarity of the normalized first stack with itself, the second its similarity with the normalized
  second stack; the operations after the call turn the two tables into the returned number.
-/
import proofs.«136283_j24739011625309_1_alg».proof.Proof.Gen.KernelIdeal.Frame
import proofs.«136283_j24739011625309_1_alg».proof.Proof.Gen.ReferenceIdeal
import proofs.«136283_j24739011625309_1_alg».proof.Proof.Shared
import proofs.«136283_j24739011625309_1_alg».proof.Proof.BlockSpec
import proofs.«136283_j24739011625309_1_alg».proof.Proof.KernelTail
import Idealize.ShloMosaic.Lib.ValueIdx
import Idealize.ShloMosaic.Lib.Pipeline.Value
import Idealize.ShloMosaic.Lib.StableHlo.Run

set_option maxRecDepth 16384

noncomputable section

open scoped BigOperators

namespace Cert.KernelIdeal.KValue

open Idealize.ShloMosaic Idealize.ShloMosaic.TcCoe Idealize.ShloMosaic.ValueIdx Idealize.ShloMosaic.StableHlo
open Idealize.SL.Sem
open Cert.KernelIdeal Cert.KernelIdeal.Gen

/-! ## The three arrays the call reads, as the region finds them -/

attribute [local irreducible] Host.reduceAdd Host.divf Host.sqrt broadcastInDim in
set_option maxHeartbeats 1000000 in
/-- The first operand of the call: the first stack normalized (narrowing to bf16 changes nothing at the ideal values). -/
theorem head_v10 (W : Valuation τ sig (Elt Ideal)) :
    StableHlo.after (List.flatten [hostOps0 (F := Ideal), hostOps0_1, hostOps0_2, hostOps0_3]) W (Proc.devRef .tc main_v10)
      = Cert.Shared.normalize (W (Proc.devRef .tc main_arg0)) := by
  simp only [hostOps0, hostOps0_1, hostOps0_2, hostOps0_3, List.flatten_cons, List.flatten_nil, List.append_nil,
    List.cons_append, List.nil_append]
  after_results_simp
  rfl

attribute [local irreducible] Host.reduceAdd Host.divf Host.sqrt broadcastInDim in
set_option maxHeartbeats 1000000 in
/-- The second operand: the same stack laid out flat. -/
theorem head_v12 (W : Valuation τ sig (Elt Ideal)) :
    StableHlo.after (List.flatten [hostOps0 (F := Ideal), hostOps0_1, hostOps0_2, hostOps0_3]) W (Proc.devRef .tc main_v12)
      = fun i => shapeCast S16384x64 (Cert.Shared.normalize (W (Proc.devRef .tc main_arg0))) shapeCasts_S64x256x64_S16384x64 i := by
  simp only [hostOps0, hostOps0_1, hostOps0_2, hostOps0_3, List.flatten_cons, List.flatten_nil, List.append_nil,
    List.cons_append, List.nil_append]
  after_results_simp
  rfl

attribute [local irreducible] Host.reduceAdd Host.divf Host.sqrt broadcastInDim in
set_option maxHeartbeats 1000000 in
/-- The third operand: the second stack normalized and laid out flat. -/
theorem head_v13 (W : Valuation τ sig (Elt Ideal)) :
    StableHlo.after (List.flatten [hostOps0 (F := Ideal), hostOps0_1, hostOps0_2, hostOps0_3]) W (Proc.devRef .tc main_v13)
      = fun i => shapeCast S16384x64 (Cert.Shared.normalize (W (Proc.devRef .tc main_arg1))) shapeCasts_S64x256x64_S16384x64 i := by
  simp only [hostOps0, hostOps0_1, hostOps0_2, hostOps0_3, List.flatten_cons, List.flatten_nil, List.append_nil,
    List.cons_append, List.nil_append]
  after_results_simp
  rfl

/-- A stack laid out flat, read at patch `q` of image `j`: row `256 j + q` of the flat matrix. -/
theorem flat_apply (x : FVec Ideal S64x256x64 .bf16) (j : Fin 64) (q : Fin 256) (d : Fin 64) :
    shapeCast S16384x64 x shapeCasts_S64x256x64_S16384x64 (ix2 (Cert.Spec.flatRow j q) d) = x (ix3 j q d) := by
  refine shapeCast_apply _ _ _ _ ?_
  rw [Shape.rowMajor_val_two, Shape.rowMajor_val_three]
  show (j.val * 256 + q.val) * 64 + d.val = (256 * j.val + q.val) * 64 + d.val
  omega

/-! ## From one grid point's block to the whole tables -/

section Arrays

variable (m : (ℓ : Loc nD τ sig) → Buf (Elt Ideal) ℓ) (ρ : Dev nD → PrngReg)

/-- The first stack, normalized: what every operand of the call is made of. -/
abbrev nrm (c : Dev nD) : Cert.Spec.Stack := Cert.Shared.normalize (m ((c : Thread nD τ).loc main_arg0))
/-- The second stack, normalized. -/
abbrev drm (c : Dev nD) : Cert.Spec.Stack := Cert.Shared.normalize (m ((c : Thread nD τ).loc main_arg1))

theorem V_v10 (c : Dev nD) : (V m c main_v10 : S64x256x64.Idx → EReal) = nrm m c := by
  show StableHlo.after (List.flatten [hostOps0 (F := Ideal), hostOps0_1, hostOps0_2, hostOps0_3]) (fun b => m (c, b)) (Proc.devRef .tc main_v10) = _
  exact head_v10 _

theorem V_v12 (c : Dev nD) : (V m c main_v12 : S16384x64.Idx → EReal)
    = fun i => shapeCast S16384x64 (nrm m c) shapeCasts_S64x256x64_S16384x64 i := by
  show StableHlo.after (List.flatten [hostOps0 (F := Ideal), hostOps0_1, hostOps0_2, hostOps0_3]) (fun b => m (c, b)) (Proc.devRef .tc main_v12) = _
  exact head_v12 _

theorem V_v13 (c : Dev nD) : (V m c main_v13 : S16384x64.Idx → EReal)
    = fun i => shapeCast S16384x64 (drm m c) shapeCasts_S64x256x64_S16384x64 i := by
  show StableHlo.after (List.flatten [hostOps0 (F := Ideal), hostOps0_1, hostOps0_2, hostOps0_3]) (fun b => m (c, b)) (Proc.devRef .tc main_v13) = _
  exact head_v13 _

/-- The printed index maps over the grid: point `t` takes block `t` of the first operand and of both results along the
    image axis, and block 0 of everything else. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The block of the first operand at point `t`: images `8 t … 8 t + 7` of the normalized first stack. -/
theorem blk0_apply (c : Dev nD) (t : Fin cfg0.N) (r : Fin 8) (p : Fin 256) (d : Fin 64) (i : Fin 64) (hi : i.val = 8 * t.val + r.val) :
    (iblk m c 0 t : S8x256x64.Idx → EReal) (ix3 r p d) = nrm m c (ix3 i p d) := by
  obtain ⟨e0, e1, e2, -⟩ := idx_facts t
  show (V m c main_v10 : S64x256x64.Idx → EReal) (((cfg0.win 0).blk t).view.emb (ix3 r p d)) = _
  rw [V_v10]
  refine congrArg (nrm m c) ?_
  funext a; apply Fin.ext
  match a with
  | ⟨0, _⟩ => show win0_0.index t (0 : Fin 3) * 8 + 1 * r.val = i.val; omega
  | ⟨1, _⟩ => show win0_0.index t (1 : Fin 3) * 256 + 1 * p.val = p.val; omega
  | ⟨2, _⟩ => show win0_0.index t (2 : Fin 3) * 64 + 1 * d.val = d.val; omega

/-- The block of the second operand at any point: the whole flat first stack, so row `256 j + q` is patch `q` of image `j`. -/
theorem blk1_apply (c : Dev nD) (t : Fin cfg0.N) (j : Fin 64) (q : Fin 256) (d : Fin 64) :
    (iblk m c 1 t : S16384x64.Idx → EReal) (ix2 (Cert.Spec.flatRow j q) d) = nrm m c (ix3 j q d) := by
  obtain ⟨-, -, -, e0, e1, -⟩ := idx_facts t
  show (V m c main_v12 : S16384x64.Idx → EReal) (((cfg0.win 1).blk t).view.emb (ix2 (Cert.Spec.flatRow j q) d)) = _
  rw [V_v12]
  refine Eq.trans (congrArg _ ?_) (flat_apply (nrm m c) j q d)
  funext a; apply Fin.ext
  match a with
  | ⟨0, _⟩ => show win0_1.index t (0 : Fin 2) * 16384 + 1 * (Cert.Spec.flatRow j q).val = (Cert.Spec.flatRow j q).val; omega
  | ⟨1, _⟩ => show win0_1.index t (1 : Fin 2) * 64 + 1 * d.val = d.val; omega

/-- The block of the third operand at any point: the whole flat second stack. -/
theorem blk2_apply (c : Dev nD) (t : Fin cfg0.N) (j : Fin 64) (q : Fin 256) (d : Fin 64) :
    (iblk m c 2 t : S16384x64.Idx → EReal) (ix2 (Cert.Spec.flatRow j q) d) = drm m c (ix3 j q d) := by
  obtain ⟨-, -, -, -, -, e0, e1, -⟩ := idx_facts t
  show (V m c main_v13 : S16384x64.Idx → EReal) (((cfg0.win 2).blk t).view.emb (ix2 (Cert.Spec.flatRow j q) d)) = _
  rw [V_v13]
  refine Eq.trans (congrArg _ ?_) (flat_apply (drm m c) j q d)
  funext a; apply Fin.ext
  match a with
  | ⟨0, _⟩ => show win0_2.index t (0 : Fin 2) * 16384 + 1 * (Cert.Spec.flatRow j q).val = (Cert.Spec.flatRow j q).val; omega
  | ⟨1, _⟩ => show win0_2.index t (1 : Fin 2) * 64 + 1 * d.val = d.val; omega

/-- One point's block of a similarity table is the rows `8 t … 8 t + 7` of the whole table, when the point's block of
    the first operand is those images of `a` and its flat operand is `b` laid out flat. -/
theorem blockSim_eq_sim (x : Cert.Spec.Block) (f : Cert.Spec.Flat) (a b : Cert.Spec.Stack) (t : ℕ) (ht : t < 8)
    (hx : ∀ (r : Fin 8) (p : Fin 256) (d : Fin 64) (i : Fin 64), i.val = 8 * t + r.val → x (ix3 r p d) = a (ix3 i p d))
    (hf : ∀ (j : Fin 64) (q : Fin 256) (d : Fin 64), f (ix2 (Cert.Spec.flatRow j q) d) = b (ix3 j q d))
    (r : Fin 8) (j : Fin 64) (i : Fin 64) (hi : i.val = 8 * t + r.val) :
    Cert.Spec.blockSimAt x f r j = Cert.Spec.simAt a b i j := by
  unfold Cert.Spec.blockSimAt Cert.Spec.simAt Cert.Spec.bestMatch Cert.Spec.blockDot Cert.Spec.patchDot
  refine congrArg (Ideal.div · Cert.Spec.patches) (Finset.sum_congr rfl fun p _ => ?_)
  refine congrArg (fun g => (Finset.univ : Finset (Fin 256)).fold max Cert.Spec.negInf g) (funext fun q => ?_)
  exact Finset.sum_congr rfl fun d _ => by rw [hx r p d i hi, hf j q d]

end Arrays

/-! ## The two result tables after the call -/

section Tables

variable (m : (ℓ : Loc nD τ sig) → Buf (Elt Ideal) ℓ) (ρ : Dev nD → PrngReg)

/-- WHAT POINT `t` WRITES BACK to result 1: rows `8 t … 8 t + 7` of the similarity table of the normalized first stack
    and itself. -/
theorem flushed3 (H3 : ∀ (c : Dev nD) (i : grid0.Coords) (arg1 : Memref sig .tc .vmem S8x256x64 .bf16) (harg1 : arg1.IsWhole) (arg2 : Memref sig .tc .vmem S16384x64 .bf16) (harg2 : arg2.IsWhole) (arg3 : Memref sig .tc .vmem S16384x64 .bf16) (harg3 : arg3.IsWhole) (arg4 : Memref sig .tc .vmem S8x64 .f32) (harg4 : arg4.IsWhole) (arg5 : Memref sig .tc .vmem S8x64 .f32) (harg5 : arg5.IsWhole) (x0 : Vec Ideal S8x256x64 .bf16) (x1 : Vec Ideal S16384x64 .bf16) (x2 : Vec Ideal S16384x64 .bf16), out0_A_3 (F := Ideal) c i arg1 harg1 arg2 harg2 arg3 harg3 arg4 harg4 arg5 harg5 x0 x1 x2 = Cert.Spec.blockSim x0 x1) (c : Dev nD) (t : Fin cfg0.N) :
    (dats m 0 c).flushed 3 t = ((cfg0.win 3).blk t).view.read (Elt Ideal) (Cert.Spec.sim (nrm m c) (nrm m c)) := by
  have hN : t.val < 8 := by have h := t.isLt; have e : cfg0.N = 8 := N_0; omega
  show (cfg0.win 3).cut (grid0.coords t) ((dats m 0 c).after 3 t) = _
  rw [after0_3]
  unfold outsAt0
  dsimp only
  rw [H3]
  funext j
  obtain ⟨r, jj, rfl⟩ : ∃ (r : Fin 8) (jj : Fin 64), j = ix2 r jj := ⟨j 0, j 1, eq_ix2 j⟩
  obtain ⟨-, -, -, -, -, -, -, e30, e31, e40, e41⟩ := idx_facts t
  have hidx : ((cfg0.win 3).blk t).view.emb (ix2 r jj) = ix2 (⟨8 * t.val + r.val, by omega⟩ : Fin 64) jj := by
    funext a; apply Fin.ext
    match a with
    | ⟨0, _⟩ => show win0_3.index t (0 : Fin 2) * 8 + 1 * r.val = 8 * t.val + r.val; omega
    | ⟨1, _⟩ => show win0_3.index t (1 : Fin 2) * 64 + 1 * jj.val = jj.val; omega
  show Cert.Spec.blockSim (iblk m c 0 t) (iblk m c 1 t) (ix2 r jj)
      = Cert.Spec.sim (nrm m c) (nrm m c) (((cfg0.win 3).blk t).view.emb (ix2 r jj))
  rw [hidx, Cert.Spec.sim_apply, Cert.Spec.blockSim_apply]
  exact blockSim_eq_sim _ _ _ _ t.val hN (fun r p d i hi => blk0_apply m c t r p d i hi)
    (fun j q d => blk1_apply m c t j q d) r jj _ rfl

/-- Every row of the table is in some point's block, so result 1 ends holding the whole table. -/
theorem final3 (H3 : ∀ (c : Dev nD) (i : grid0.Coords) (arg1 : Memref sig .tc .vmem S8x256x64 .bf16) (harg1 : arg1.IsWhole) (arg2 : Memref sig .tc .vmem S16384x64 .bf16) (harg2 : arg2.IsWhole) (arg3 : Memref sig .tc .vmem S16384x64 .bf16) (harg3 : arg3.IsWhole) (arg4 : Memref sig .tc .vmem S8x64 .f32) (harg4 : arg4.IsWhole) (arg5 : Memref sig .tc .vmem S8x64 .f32) (harg5 : arg5.IsWhole) (x0 : Vec Ideal S8x256x64 .bf16) (x1 : Vec Ideal S16384x64 .bf16) (x2 : Vec Ideal S16384x64 .bf16), out0_A_3 (F := Ideal) c i arg1 harg1 arg2 harg2 arg3 harg3 arg4 harg4 arg5 harg5 x0 x1 x2 = Cert.Spec.blockSim x0 x1) (c : Dev nD) :
    (dats m 0 c).arrAt 3 cfg0.N = Cert.Spec.sim (nrm m c) (nrm m c) :=
  (dats m 0 c).arrAt_eq_of_cover 3 (Cert.Spec.sim (nrm m c) (nrm m c)) (fun t _ => flushed3 m H3 c t) fun i => by
    have h0 : (i 0 : Nat) < 64 := (i 0).isLt
    have h1 : (i 1 : Nat) < 64 := (i 1).isLt
    have hlt : (i 0 : Nat) / 8 < cfg0.N := by rw [show cfg0.N = 8 from N_0]; omega
    obtain ⟨-, -, -, -, -, -, -, e30, e31, e40, e41⟩ := idx_facts ⟨(i 0 : Nat) / 8, hlt⟩
    refine ⟨⟨(i 0 : Nat) / 8, hlt⟩, flush0_3 _, ?_⟩
    show i ∈ ((View.whole main_v14_0).slice (win0_3.rect ⟨(i 0 : Nat) / 8, hlt⟩)).set
    rw [View.set_slice_whole, Rect.mem_set_unit]
    intro a
    match a with
    | ⟨0, _⟩ =>
      show win0_3.index ⟨(i 0 : Nat) / 8, hlt⟩ (0 : Fin 2) * 8 ≤ (i 0 : Nat) ∧ (i 0 : Nat) < win0_3.index ⟨(i 0 : Nat) / 8, hlt⟩ (0 : Fin 2) * 8 + 8
      simp only at e30; omega
    | ⟨1, _⟩ =>
      show win0_3.index ⟨(i 0 : Nat) / 8, hlt⟩ (1 : Fin 2) * 64 ≤ (i 1 : Nat) ∧ (i 1 : Nat) < win0_3.index ⟨(i 0 : Nat) / 8, hlt⟩ (1 : Fin 2) * 64 + 64
      omega

/-- WHAT POINT `t` WRITES BACK to result 2: rows `8 t … 8 t + 7` of the similarity table of the normalized first stack
    and the normalized second stack. -/
theorem flushed4 (H4 : ∀ (c : Dev nD) (i : grid0.Coords) (arg1 : Memref sig .tc .vmem S8x256x64 .bf16) (harg1 : arg1.IsWhole) (arg2 : Memref sig .tc .vmem S16384x64 .bf16) (harg2 : arg2.IsWhole) (arg3 : Memref sig .tc .vmem S16384x64 .bf16) (harg3 : arg3.IsWhole) (arg4 : Memref sig .tc .vmem S8x64 .f32) (harg4 : arg4.IsWhole) (arg5 : Memref sig .tc .vmem S8x64 .f32) (harg5 : arg5.IsWhole) (x0 : Vec Ideal S8x256x64 .bf16) (x1 : Vec Ideal S16384x64 .bf16) (x2 : Vec Ideal S16384x64 .bf16), out0_A_4 (F := Ideal) c i arg1 harg1 arg2 harg2 arg3 harg3 arg4 harg4 arg5 harg5 x0 x1 x2 = Cert.Spec.blockSim x0 x2) (c : Dev nD) (t : Fin cfg0.N) :
    (dats m 0 c).flushed 4 t = ((cfg0.win 4).blk t).view.read (Elt Ideal) (Cert.Spec.sim (nrm m c) (drm m c)) := by
  have hN : t.val < 8 := by have h := t.isLt; have e : cfg0.N = 8 := N_0; omega
  show (cfg0.win 4).cut (grid0.coords t) ((dats m 0 c).after 4 t) = _
  rw [after0_4]
  unfold outsAt0
  dsimp only
  rw [H4]
  funext j
  obtain ⟨r, jj, rfl⟩ : ∃ (r : Fin 8) (jj : Fin 64), j = ix2 r jj := ⟨j 0, j 1, eq_ix2 j⟩
  obtain ⟨-, -, -, -, -, -, -, e30, e31, e40, e41⟩ := idx_facts t
  have hidx : ((cfg0.win 4).blk t).view.emb (ix2 r jj) = ix2 (⟨8 * t.val + r.val, by omega⟩ : Fin 64) jj := by
    funext a; apply Fin.ext
    match a with
    | ⟨0, _⟩ => show win0_4.index t (0 : Fin 2) * 8 + 1 * r.val = 8 * t.val + r.val; omega
    | ⟨1, _⟩ => show win0_4.index t (1 : Fin 2) * 64 + 1 * jj.val = jj.val; omega
  show Cert.Spec.blockSim (iblk m c 0 t) (iblk m c 2 t) (ix2 r jj)
      = Cert.Spec.sim (nrm m c) (drm m c) (((cfg0.win 4).blk t).view.emb (ix2 r jj))
  rw [hidx, Cert.Spec.sim_apply, Cert.Spec.blockSim_apply]
  exact blockSim_eq_sim _ _ _ _ t.val hN (fun r p d i hi => blk0_apply m c t r p d i hi)
    (fun j q d => blk2_apply m c t j q d) r jj _ rfl

/-- Every row of the table is in some point's block, so result 2 ends holding the whole table. -/
theorem final4 (H4 : ∀ (c : Dev nD) (i : grid0.Coords) (arg1 : Memref sig .tc .vmem S8x256x64 .bf16) (harg1 : arg1.IsWhole) (arg2 : Memref sig .tc .vmem S16384x64 .bf16) (harg2 : arg2.IsWhole) (arg3 : Memref sig .tc .vmem S16384x64 .bf16) (harg3 : arg3.IsWhole) (arg4 : Memref sig .tc .vmem S8x64 .f32) (harg4 : arg4.IsWhole) (arg5 : Memref sig .tc .vmem S8x64 .f32) (harg5 : arg5.IsWhole) (x0 : Vec Ideal S8x256x64 .bf16) (x1 : Vec Ideal S16384x64 .bf16) (x2 : Vec Ideal S16384x64 .bf16), out0_A_4 (F := Ideal) c i arg1 harg1 arg2 harg2 arg3 harg3 arg4 harg4 arg5 harg5 x0 x1 x2 = Cert.Spec.blockSim x0 x2) (c : Dev nD) :
    (dats m 0 c).arrAt 4 cfg0.N = Cert.Spec.sim (nrm m c) (drm m c) :=
  (dats m 0 c).arrAt_eq_of_cover 4 (Cert.Spec.sim (nrm m c) (drm m c)) (fun t _ => flushed4 m H4 c t) fun i => by
    have h0 : (i 0 : Nat) < 64 := (i 0).isLt
    have h1 : (i 1 : Nat) < 64 := (i 1).isLt
    have hlt : (i 0 : Nat) / 8 < cfg0.N := by rw [show cfg0.N = 8 from N_0]; omega
    obtain ⟨-, -, -, -, -, -, -, e30, e31, e40, e41⟩ := idx_facts ⟨(i 0 : Nat) / 8, hlt⟩
    refine ⟨⟨(i 0 : Nat) / 8, hlt⟩, flush0_4 _, ?_⟩
    show i ∈ ((View.whole main_v14_1).slice (win0_4.rect ⟨(i 0 : Nat) / 8, hlt⟩)).set
    rw [View.set_slice_whole, Rect.mem_set_unit]
    intro a
    match a with
    | ⟨0, _⟩ =>
      show win0_4.index ⟨(i 0 : Nat) / 8, hlt⟩ (0 : Fin 2) * 8 ≤ (i 0 : Nat) ∧ (i 0 : Nat) < win0_4.index ⟨(i 0 : Nat) / 8, hlt⟩ (0 : Fin 2) * 8 + 8
      simp only at e40; omega
    | ⟨1, _⟩ =>
      show win0_4.index ⟨(i 0 : Nat) / 8, hlt⟩ (1 : Fin 2) * 64 ≤ (i 1 : Nat) ∧ (i 1 : Nat) < win0_4.index ⟨(i 0 : Nat) / 8, hlt⟩ (1 : Fin 2) * 64 + 64
      omega

/-! ## The run, read -/

/-- The returned buffer after the operations that follow the call. -/
theorem tail_v38 (H3 : ∀ (c : Dev nD) (i : grid0.Coords) (arg1 : Memref sig .tc .vmem S8x256x64 .bf16) (harg1 : arg1.IsWhole) (arg2 : Memref sig .tc .vmem S16384x64 .bf16) (harg2 : arg2.IsWhole) (arg3 : Memref sig .tc .vmem S16384x64 .bf16) (harg3 : arg3.IsWhole) (arg4 : Memref sig .tc .vmem S8x64 .f32) (harg4 : arg4.IsWhole) (arg5 : Memref sig .tc .vmem S8x64 .f32) (harg5 : arg5.IsWhole) (x0 : Vec Ideal S8x256x64 .bf16) (x1 : Vec Ideal S16384x64 .bf16) (x2 : Vec Ideal S16384x64 .bf16), out0_A_3 (F := Ideal) c i arg1 harg1 arg2 harg2 arg3 harg3 arg4 harg4 arg5 harg5 x0 x1 x2 = Cert.Spec.blockSim x0 x1) (H4 : ∀ (c : Dev nD) (i : grid0.Coords) (arg1 : Memref sig .tc .vmem S8x256x64 .bf16) (harg1 : arg1.IsWhole) (arg2 : Memref sig .tc .vmem S16384x64 .bf16) (harg2 : arg2.IsWhole) (arg3 : Memref sig .tc .vmem S16384x64 .bf16) (harg3 : arg3.IsWhole) (arg4 : Memref sig .tc .vmem S8x64 .f32) (harg4 : arg4.IsWhole) (arg5 : Memref sig .tc .vmem S8x64 .f32) (harg5 : arg5.IsWhole) (x0 : Vec Ideal S8x256x64 .bf16) (x1 : Vec Ideal S16384x64 .bf16) (x2 : Vec Ideal S16384x64 .bf16), out0_A_4 (F := Ideal) c i arg1 harg1 arg2 harg2 arg3 harg3 arg4 harg4 arg5 harg5 x0 x1 x2 = Cert.Spec.blockSim x0 x2) (c : Dev nD) :
    Pipeline.afterTail₀ cfgs (dats m) 0 (V0 m) [hostOps1, hostOps1_1, hostOps1_2, hostOps1_3, hostOps1_4, hostOps1_5, hostOps1_6] c main_v38
      = Cert.Shared.separability (Cert.Spec.sim (nrm m c) (nrm m c)) (Cert.Spec.sim (nrm m c) (drm m c)) := by
  unfold Pipeline.afterTail₀
  rw [Cert.KernelIdeal.Tail.tail_value]
  have e3 := (Pipeline.withArrays_arr spec0 launch0.win.arr_inj c (V0 m c) (fun w => (dats m 0 c).arrAt w cfg0.N) 3).trans (final3 m H3 c)
  have e4 := (Pipeline.withArrays_arr spec0 launch0.win.arr_inj c (V0 m c) (fun w => (dats m 0 c).arrAt w cfg0.N) 4).trans (final4 m H4 c)
  exact congrArg₂ Cert.Shared.separability e3 e4

/-- Every weakly fair execution of the kernel's program ends with the returned buffer at `separability` of the two
    similarity tables of the normalized stacks, and the arguments as launched. -/
theorem run (H3 : ∀ (c : Dev nD) (i : grid0.Coords) (arg1 : Memref sig .tc .vmem S8x256x64 .bf16) (harg1 : arg1.IsWhole) (arg2 : Memref sig .tc .vmem S16384x64 .bf16) (harg2 : arg2.IsWhole) (arg3 : Memref sig .tc .vmem S16384x64 .bf16) (harg3 : arg3.IsWhole) (arg4 : Memref sig .tc .vmem S8x64 .f32) (harg4 : arg4.IsWhole) (arg5 : Memref sig .tc .vmem S8x64 .f32) (harg5 : arg5.IsWhole) (x0 : Vec Ideal S8x256x64 .bf16) (x1 : Vec Ideal S16384x64 .bf16) (x2 : Vec Ideal S16384x64 .bf16), out0_A_3 (F := Ideal) c i arg1 harg1 arg2 harg2 arg3 harg3 arg4 harg4 arg5 harg5 x0 x1 x2 = Cert.Spec.blockSim x0 x1) (H4 : ∀ (c : Dev nD) (i : grid0.Coords) (arg1 : Memref sig .tc .vmem S8x256x64 .bf16) (harg1 : arg1.IsWhole) (arg2 : Memref sig .tc .vmem S16384x64 .bf16) (harg2 : arg2.IsWhole) (arg3 : Memref sig .tc .vmem S16384x64 .bf16) (harg3 : arg3.IsWhole) (arg4 : Memref sig .tc .vmem S8x64 .f32) (harg4 : arg4.IsWhole) (arg5 : Memref sig .tc .vmem S8x64 .f32) (harg5 : arg5.IsWhole) (x0 : Vec Ideal S8x256x64 .bf16) (x1 : Vec Ideal S16384x64 .bf16) (x2 : Vec Ideal S16384x64 .bf16), out0_A_4 (F := Ideal) c i arg1 harg1 arg2 harg2 arg3 harg3 arg4 harg4 arg5 harg5 x0 x1 x2 = Cert.Spec.blockSim x0 x2) :
    θ_run defs (onTc (τ := τ) (main (F := Ideal))) ⟨m, fun _ => 0, ρ⟩ (fun r => ∀ c : Dev nD,
      r.2.mem ((c.tc : Thread nD τ).loc main_v38)
        = Cert.Shared.separability (Cert.Spec.sim (nrm m c) (nrm m c)) (Cert.Spec.sim (nrm m c) (drm m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v38 (Pipeline.mem_restRefs_of main_v38 (by decide) (by decide))).trans (tail_v38 m H3 H4 c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Tables

end Cert.KernelIdeal.KValue

end
-- ==== Proof.Chunk.lean ====
/-
  The kernel's arithmetic on ONE chunk, as one function: a block of 256 patches `a` (one image) against
  4096 rows `b` of the flat stack (sixteen images of 256 patches): all 256 × 4096 inner products over
  the 64 entries, regrouped as 256 × 16 × 256 (patch, image, patch), the maximum over the last axis,
  the sum over the first, divided by 256: sixteen numbers, laid out as one row. Every store of the
  kernel's body stores this function of one image of its block and one quarter of a flat stack.
-/
import proofs.«136283_j24739011625309_1_alg».proof.Proof.Gen.KernelIdeal
import Idealize.ShloMosaic.PureOps.Ideal

noncomputable section

namespace Cert.KernelIdeal.Chunk

open Idealize.ShloMosaic Cert.KernelIdeal Cert.KernelIdeal.Gen

variable {F : FTy → Type} [FloatOps F]

/-- Sixteen similarities: image `a` against the sixteen images held in the 4096 rows `b`. -/
def chunk (a : FVec F S256x64 .bf16) (b : FVec F S4096x64 .bf16) : FVec F S1x16 .f32 :=
  shapeCast S1x16
    (divf
      (multiReduction .add [0] S16
        (multiReduction .maximumf [2] S256x16
          (shapeCast S256x16x256
            (matmul dot_S256x64_S4096x64_S256x4096_1_1_0_0_n_n none a b (constant S256x4096 .f32 0x00000000#32))
            shapeCasts_S256x4096_S256x16x256)
          0xFF800000#32 reduces_S256x16x256_S256x16 (.inl rfl) rfl)
        0x00000000#32 reduces_S256x16_S16 (.inl rfl) rfl)
      (broadcast S16 (Scalar.ofBits .f32 0x43800000#32)))
    shapeCasts_S16_S1x16

/-- Row `256 jj + q` of a chunk: patch `q` of the chunk's image `jj`. -/
def chunkRow (jj : Fin 16) (q : Fin 256) : Fin 4096 := ⟨256 * jj.val + q.val, by omega⟩

theorem chunkRow_val (jj : Fin 16) (q : Fin 256) : (chunkRow jj q).val = 256 * jj.val + q.val := rfl

end Cert.KernelIdeal.Chunk

end
-- ==== Proof.PieceDefs.lean ====
/-
  The two values every store of the kernel's body is computed from, as the body reads them: image `r`
  of the point's block of the first stack (one 1 × 256 × 64 slab of the block, read as a 256 × 64
  matrix) and the quarter of a flat stack that starts at row `o` (4096 rows: sixteen images).
-/
import proofs.«136283_j24739011625309_1_alg».proof.Proof.Chunk
import Idealize.ShloMosaic.Lib.Pipeline.Frame

noncomputable section

namespace Cert.KernelIdeal.Pieces

open Idealize.ShloMosaic Cert.KernelIdeal Cert.KernelIdeal.Gen

variable {F : FTy → Type} [FloatOps F]

/-- Image `r` of the block held in the whole staging memref `a` at the contents that read `x`. -/
def img (a : Memref sig .tc .vmem S8x256x64 .bf16) (ha : a.IsWhole) (x : Vec F S8x256x64 .bf16) (r : ℕ)
    (h : ∀ i, (![r, 0, 0] : Fin 3 → ℕ) i + (![1, 256, 64] : Fin 3 → ℕ) i ≤ S8x256x64.size i) : FVec F S256x64 .bf16 :=
  shapeCast S256x64
    (View.readAt (Elt F) a.view (Rect.unit (s := S8x256x64) ![r, 0, 0] ![1, 256, 64] h).toLoadRect (ha.unread x))
    shapeCasts_S1x256x64_S256x64

/-- The 4096 rows from row `o` on of the flat stack held in the whole staging memref `b` at the contents that read `x`. -/
def quarter (b : Memref sig .tc .vmem S16384x64 .bf16) (hb : b.IsWhole) (x : Vec F S16384x64 .bf16) (o : ℕ)
    (h : ∀ i, (![o, 0] : Fin 2 → ℕ) i + (![4096, 64] : Fin 2 → ℕ) i ≤ S16384x64.size i) : FVec F S4096x64 .bf16 :=
  shapeCast S4096x64
    (View.readAt (Elt F) b.view (Rect.unit (s := S16384x64) ![o, 0] ![4096, 64] h).toLoadRect (hb.unread x))
    shapeCasts_S4096x64_S4096x64

end Cert.KernelIdeal.Pieces

end
-- ==== Proof.ChunkValue.lean ====
/-
  The chunk function read at an index. Of a block of 256 patches `a` and 4096 rows `b` (sixteen images of
  256 patches) the chunk's entry for image `jj` is: for every patch `p` of the block, the largest inner product
  (over the 64 entries) with a patch `q` of image `jj`, a fold of `max` from minus infinity; the sum of these
  256 maxima; divided by 256. Each stage of the chain is read at an index by a lemma of its own: the product at
  (patch, row), the regrouping of the 4096 columns as (image, patch), the maximum over the last axis, the sum
  over the first, and the division and the cast to one row.
-/
import proofs.«136283_j24739011625309_1_alg».proof.Proof.Chunk
import proofs.«136283_j24739011625309_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Chunk

open Idealize.ShloMosaic Idealize.ShloMosaic.ValueIdx Cert.KernelIdeal Cert.KernelIdeal.Gen

/-! ## The product: which entries of the operands an output entry multiplies -/

/-- The left operand's kept axis reads the output row. -/
theorem lhs_axis0 (j : S256x4096.Idx) (k : dot_S256x64_S4096x64_S256x4096_1_1_0_0_n_n.contr.Idx) :
    (dot_S256x64_S4096x64_S256x4096_1_1_0_0_n_n.lhsIdx j k 0).val = (j 0).val := by
  unfold DotDims.lhsIdx
  rw [dif_neg (show ¬(0 : Fin S256x64.rank) ∈ dot_S256x64_S4096x64_S256x4096_1_1_0_0_n_n.lhsBatch by decide),
    dif_pos (show (0 : Fin S256x64.rank) ∈ dot_S256x64_S4096x64_S256x4096_1_1_0_0_n_n.lhsNonContracting by decide)]
  rfl

/-- The left operand's contracted axis reads the contraction position. -/
theorem lhs_axis1 (j : S256x4096.Idx) (k : dot_S256x64_S4096x64_S256x4096_1_1_0_0_n_n.contr.Idx) :
    (dot_S256x64_S4096x64_S256x4096_1_1_0_0_n_n.lhsIdx j k 1).val = (k ⟨0, by decide⟩).val :=
  DotDims.lhsIdx_val_of_single _ rfl j k

/-- The right operand's kept axis reads the output column. -/
theorem rhs_axis0 (j : S256x4096.Idx) (k : dot_S256x64_S4096x64_S256x4096_1_1_0_0_n_n.contr.Idx) :
    (dot_S256x64_S4096x64_S256x4096_1_1_0_0_n_n.rhsIdx j k 0).val = (j 1).val := by
  unfold DotDims.rhsIdx
  rw [dif_neg (show ¬(0 : Fin S4096x64.rank) ∈ dot_S256x64_S4096x64_S256x4096_1_1_0_0_n_n.rhsBatch by decide),
    dif_pos (show (0 : Fin S4096x64.rank) ∈ dot_S256x64_S4096x64_S256x4096_1_1_0_0_n_n.rhsNonContracting by decide)]
  rfl

/-- The right operand's contracted axis reads the contraction position. -/
theorem rhs_axis1 (j : S256x4096.Idx) (k : dot_S256x64_S4096x64_S256x4096_1_1_0_0_n_n.contr.Idx) :
    (dot_S256x64_S4096x64_S256x4096_1_1_0_0_n_n.rhsIdx j k 1).val = (k ⟨0, by decide⟩).val :=
  DotDims.rhsIdx_val_of_single _ rfl j k

/-- The product of a block of patches with the rows of a stack, read at (patch, row): the inner product over the 64 entries. -/
theorem product_apply (a : FVec Ideal S256x64 .bf16) (b : FVec Ideal S4096x64 .bf16) (p : Fin 256) (c : Fin 4096) :
    matmul dot_S256x64_S4096x64_S256x4096_1_1_0_0_n_n none a b (constant (F := Ideal) S256x4096 .f32 0x00000000#32) (ix2 p c)
      = ∑ d : Fin 64, a (ix2 p d) * b (ix2 c d) := by
  refine (Ideal.matmul_constant_zero_apply dot_S256x64_S4096x64_S256x4096_1_1_0_0_n_n none a b (ix2 p c)).trans ?_
  rw [← Equiv.sum_comp (contrEquiv1 dot_S256x64_S4096x64_S256x4096_1_1_0_0_n_n 64 rfl rfl).symm]
  refine Finset.sum_congr rfl fun d _ => ?_
  have hk := contrEquiv1_symm_val dot_S256x64_S4096x64_S256x4096_1_1_0_0_n_n 64 rfl rfl d
  have hl : dot_S256x64_S4096x64_S256x4096_1_1_0_0_n_n.lhsIdx (ix2 p c)
      ((contrEquiv1 dot_S256x64_S4096x64_S256x4096_1_1_0_0_n_n 64 rfl rfl).symm d) = ix2 p d := by
    funext ax; apply Fin.ext
    match ax with
    | ⟨0, _⟩ => exact lhs_axis0 _ _
    | ⟨1, _⟩ => exact (lhs_axis1 _ _).trans hk
  have hr : dot_S256x64_S4096x64_S256x4096_1_1_0_0_n_n.rhsIdx (ix2 p c)
      ((contrEquiv1 dot_S256x64_S4096x64_S256x4096_1_1_0_0_n_n 64 rfl rfl).symm d) = ix2 c d := by
    funext ax; apply Fin.ext
    match ax with
    | ⟨0, _⟩ => exact rhs_axis0 _ _
    | ⟨1, _⟩ => exact (rhs_axis1 _ _).trans hk
  rw [hl, hr]

/-! ## The regrouping and the two reductions -/

/-- The 4096 columns regrouped as sixteen images of 256 patches: entry (patch, image, patch) is column
    256·image + patch of the same row. -/
theorem regroup_apply (x : FVec Ideal S256x4096 .f32) (p : Fin 256) (jj : Fin 16) (q : Fin 256) :
    shapeCast S256x16x256 x shapeCasts_S256x4096_S256x16x256 (ix3 p jj q) = x (ix2 p (chunkRow jj q)) :=
  shapeCast_apply x shapeCasts_S256x4096_S256x16x256 (ix3 p jj q) (ix2 p (chunkRow jj q)) (by
    rw [Shape.rowMajor_val_two, Shape.rowMajor_val_three]
    show p.val * 4096 + (256 * jj.val + q.val) = (p.val * 16 + jj.val) * 256 + q.val
    omega)

/-- The maximum over the last axis, read at (patch, image): the fold of max from minus infinity over the image's patches. -/
theorem best_apply (y : FVec Ideal S256x16x256 .f32) (p : Fin 256) (jj : Fin 16) :
    multiReduction (F := Ideal) .maximumf [2] S256x16 y 0xFF800000#32 reduces_S256x16x256_S256x16 (.inl rfl) rfl (ix2 p jj)
      = (Finset.univ : Finset (Fin 256)).fold max Cert.Spec.negInf (fun q : Fin 256 => y (ix3 p jj q)) := by
  refine (Ideal.multiReduction_maximumf_single y 0xFF800000#32 reduces_S256x16x256_S256x16 (.inl rfl) rfl (ix2 p jj)).trans ?_
  show (Finset.univ : Finset (Fin 256)).fold max Cert.Spec.negInf (y ∘ reduces_S256x16x256_S256x16.lift (ix2 p jj)) = _
  refine congrArg (fun f : Fin 256 → EReal => (Finset.univ : Finset (Fin 256)).fold max Cert.Spec.negInf f) (funext fun q => ?_)
  show y (reduces_S256x16x256_S256x16.lift (ix2 p jj) q) = y (ix3 p jj q)
  refine congrArg y (funext fun c => Fin.ext ?_)
  match c with
  | ⟨0, _⟩ => rfl
  | ⟨1, _⟩ => rfl
  | ⟨2, _⟩ => rfl

/-- The sum over the first axis, read at an image: the sum over the block's 256 patches. -/
theorem total_apply (z : FVec Ideal S256x16 .f32) (jj : Fin 16) :
    multiReduction (F := Ideal) .add [0] S16 z 0x00000000#32 reduces_S256x16_S16 (.inl rfl) rfl (ix1 jj)
      = ∑ p : Fin 256, z (ix2 p jj) := by
  refine (Ideal.multiReduction_add_single z 0x00000000#32 reduces_S256x16_S16 (.inl rfl) rfl (ix1 jj)).trans ?_
  show ∑ p : Fin 256, z (reduces_S256x16_S16.lift (ix1 jj) p) = _
  refine Finset.sum_congr rfl fun p _ => ?_
  refine congrArg z (funext fun c => Fin.ext ?_)
  match c with
  | ⟨0, _⟩ => rfl
  | ⟨1, _⟩ => rfl

/-! ## The chain -/

/-- The chunk's entry for image `jj`: the mean over the block's patches of the best inner product with a patch of
    image `jj`. The unit coordinate `u` of the one row plays no part. -/
theorem chunk_apply (a : FVec Ideal S256x64 .bf16) (b : FVec Ideal S4096x64 .bf16) (u : Fin 1) (jj : Fin 16) :
    chunk (F := Ideal) a b (ix2 u jj)
      = Ideal.div (∑ p : Fin 256, (Finset.univ : Finset (Fin 256)).fold max Cert.Spec.negInf
            (fun q : Fin 256 => ∑ d : Fin 64, a (ix2 p d) * b (ix2 (chunkRow jj q) d))) Cert.Spec.patches := by
  unfold chunk
  refine (shapeCast_a_1a_apply _ shapeCasts_S16_S1x16 u jj).trans ?_
  refine (divf_apply _ _ (ix1 jj)).trans ?_
  show Ideal.div _ Cert.Spec.patches = Ideal.div _ Cert.Spec.patches
  refine congrArg (fun s : EReal => Ideal.div s Cert.Spec.patches) ?_
  refine (total_apply _ jj).trans ?_
  refine Finset.sum_congr rfl fun p _ => ?_
  refine (best_apply _ p jj).trans ?_
  refine congrArg (fun f : Fin 256 → EReal => (Finset.univ : Finset (Fin 256)).fold max Cert.Spec.negInf f)
    (funext fun q => ?_)
  refine (regroup_apply _ p jj q).trans ?_
  exact product_apply a b p (chunkRow jj q)

end Cert.KernelIdeal.Chunk

end
-- ==== Proof.PieceValue.lean ====
/-
  One store of the kernel's body, read at an index: the sixteen numbers computed from image `r` of the
  point's block and quarter `k` of a flat stack are, at local column `jj`, the block similarity of image
  `r` and the flat stack's image `16 k + jj`: the entry of the point's block of the table that the store's
  rectangle (row `r`, columns `16 k … 16 k + 15`) puts it at.

  Three steps. The image read at (patch, entry) is the block at (r, patch, entry): the slab's offset is
  (r, 0, 0), its strides are one, and the cast that drops the slab's unit axis keeps the two remaining
  coordinates. The quarter read at (row, entry) is the flat stack at (4096 k + row, entry). And row
  `256 jj + q` of quarter `k` is flat row `4096 k + 256 jj + q = 256 (16 k + jj) + q`: patch `q` of the
  flat stack's image `16 k + jj`. So the chunk's formula over the image and the quarter is, term by term,
  the block similarity's formula at (r, 16 k + jj), and (r, 16 k + jj) is where the store's rectangle
  puts local index (0, jj).
-/
import proofs.«136283_j24739011625309_1_alg».proof.Proof.PieceDefs
import proofs.«136283_j24739011625309_1_alg».proof.Proof.BlockSpec
import proofs.«136283_j24739011625309_1_alg».proof.Proof.ChunkValue
import Idealize.ShloMosaic.Lib.WholeRead
import Idealize.ShloMosaic.Lib.ValueIdx
import Idealize.ShloMosaic.Lib.ValueLayout
import Idealize.ShloMosaic.Lib.Pipeline.Value

noncomputable section

open scoped BigOperators

namespace Cert.KernelIdeal.Pieces

open Idealize.ShloMosaic Idealize.ShloMosaic.ValueIdx Cert.KernelIdeal Cert.KernelIdeal.Gen Cert.KernelIdeal.Chunk

/-- Image `r` of the block, read at (patch, entry), is the block at (r, patch, entry). -/
theorem img_apply (a : Memref sig .tc .vmem S8x256x64 .bf16) (ha : a.IsWhole) (x : Vec Ideal S8x256x64 .bf16)
    (r : ℕ) (hr : r < 8)
    (h1 : ∀ i, (![r, 0, 0] : Fin 3 → ℕ) i + (![1, 256, 64] : Fin 3 → ℕ) i ≤ S8x256x64.size i)
    (p : Fin 256) (d : Fin 64) :
    img a ha x r h1 (ix2 p d) = x (ix3 (⟨r, hr⟩ : Fin 8) p d) := by
  unfold img
  refine (shapeCast_1ab_ab_apply _ shapeCasts_S1x256x64_S256x64 p d).trans ?_
  refine (ha.readAt_unread x _ _).trans ?_
  refine congrArg x ?_
  funext c
  apply Fin.ext
  match c with
  | ⟨0, _⟩ => show r + 1 * 0 = r; omega
  | ⟨1, _⟩ => show 0 + 1 * p.val = p.val; omega
  | ⟨2, _⟩ => show 0 + 1 * d.val = d.val; omega

/-- The quarter from row `o` on, read at (row, entry), is the flat stack at (o + row, entry). -/
theorem quarter_apply (b : Memref sig .tc .vmem S16384x64 .bf16) (hb : b.IsWhole) (f : Vec Ideal S16384x64 .bf16)
    (o : ℕ)
    (h2 : ∀ i, (![o, 0] : Fin 2 → ℕ) i + (![4096, 64] : Fin 2 → ℕ) i ≤ S16384x64.size i)
    (c : Fin 4096) (d : Fin 64) (ho : o + c.val < 16384) :
    quarter b hb f o h2 (ix2 c d) = f (ix2 (⟨o + c.val, ho⟩ : Fin 16384) d) := by
  unfold quarter
  refine (congrFun (shapeCast_self (s := S4096x64) _ shapeCasts_S4096x64_S4096x64) (ix2 c d)).trans ?_
  refine (hb.readAt_unread f _ _).trans ?_
  refine congrArg f ?_
  funext e
  apply Fin.ext
  match e with
  | ⟨0, _⟩ => show o + 1 * c.val = o + c.val; omega
  | ⟨1, _⟩ => show 0 + 1 * d.val = d.val; omega

/-- Row `256 jj + q` of quarter `k` is patch `q` of the flat stack's image `16 k + jj`:
`4096 k + (256 jj + q) = 256 (16 k + jj) + q`. -/
theorem quarter_chunkRow (b : Memref sig .tc .vmem S16384x64 .bf16) (hb : b.IsWhole) (f : Vec Ideal S16384x64 .bf16)
    (k : ℕ) (hk : k < 4)
    (h2 : ∀ i, (![4096 * k, 0] : Fin 2 → ℕ) i + (![4096, 64] : Fin 2 → ℕ) i ≤ S16384x64.size i)
    (jj : Fin 16) (q : Fin 256) (d : Fin 64) (J : Fin 64) (hJ : J.val = 16 * k + jj.val) :
    quarter b hb f (4096 * k) h2 (ix2 (chunkRow jj q) d) = f (ix2 (Cert.Spec.flatRow J q) d) := by
  have hq := q.isLt
  have hjj := jj.isLt
  refine (quarter_apply b hb f (4096 * k) h2 (chunkRow jj q) d (by rw [chunkRow_val]; omega)).trans ?_
  refine congrArg (fun t : Fin 16384 => f (ix2 t d)) ?_
  apply Fin.ext
  show 4096 * k + (256 * jj.val + q.val) = 256 * J.val + q.val
  rw [hJ]
  omega

/-- The chunk's formula over image `r` and quarter `k`, at local column `jj`, is the block similarity at
(r, 16 k + jj): the two formulas agree term by term. -/
theorem formula_at (a : Memref sig .tc .vmem S8x256x64 .bf16) (ha : a.IsWhole) (b : Memref sig .tc .vmem S16384x64 .bf16) (hb : b.IsWhole)
    (x : Vec Ideal S8x256x64 .bf16) (f : Vec Ideal S16384x64 .bf16) (r k : ℕ) (hr : r < 8) (hk : k < 4)
    (h1 : ∀ i, (![r, 0, 0] : Fin 3 → ℕ) i + (![1, 256, 64] : Fin 3 → ℕ) i ≤ S8x256x64.size i)
    (h2 : ∀ i, (![4096 * k, 0] : Fin 2 → ℕ) i + (![4096, 64] : Fin 2 → ℕ) i ≤ S16384x64.size i)
    (jj : Fin 16) (R : Fin 8) (J : Fin 64) (hR : R.val = r) (hJ : J.val = 16 * k + jj.val) :
    Ideal.div (∑ p : Fin 256, (Finset.univ : Finset (Fin 256)).fold max Cert.Spec.negInf
        (fun q : Fin 256 => ∑ d : Fin 64,
          img a ha x r h1 (ix2 p d) * quarter b hb f (4096 * k) h2 (ix2 (chunkRow jj q) d))) Cert.Spec.patches
      = Cert.Spec.blockSimAt x f R J := by
  have eR : (⟨r, hr⟩ : Fin 8) = R := Fin.ext hR.symm
  unfold Cert.Spec.blockSimAt Cert.Spec.blockDot
  refine congrArg (fun t => Ideal.div t Cert.Spec.patches) ?_
  refine Finset.sum_congr rfl fun p _ => ?_
  refine congrArg (fun g : Fin 256 → EReal => Finset.fold max Cert.Spec.negInf g Finset.univ) (funext fun q => ?_)
  refine Finset.sum_congr rfl fun d _ => ?_
  rw [img_apply a ha x r hr h1 p d, quarter_chunkRow b hb f k hk h2 jj q d J hJ, eR]

/-- The same with the table's entry written as the store's rectangle places local index `y`: its offset
(r, 16 k) plus the local coordinates, the first of which is 0. -/
theorem piece_formula (a : Memref sig .tc .vmem S8x256x64 .bf16) (ha : a.IsWhole) (b : Memref sig .tc .vmem S16384x64 .bf16) (hb : b.IsWhole)
    (x : Vec Ideal S8x256x64 .bf16) (f : Vec Ideal S16384x64 .bf16) (r k : ℕ) (hr : r < 8) (hk : k < 4)
    (h1 : ∀ i, (![r, 0, 0] : Fin 3 → ℕ) i + (![1, 256, 64] : Fin 3 → ℕ) i ≤ S8x256x64.size i)
    (h2 : ∀ i, (![4096 * k, 0] : Fin 2 → ℕ) i + (![4096, 64] : Fin 2 → ℕ) i ≤ S16384x64.size i)
    (h3 : ∀ i, (![r, 16 * k] : Fin 2 → ℕ) i + (![1, 16] : Fin 2 → ℕ) i ≤ S8x64.size i)
    (y : (Rect.unit (s := S8x64) ![r, 16 * k] ![1, 16] h3).shape.Idx) (jj : Fin 16) (hjj : jj.val = (y 1).val) :
    Ideal.div (∑ p : Fin 256, (Finset.univ : Finset (Fin 256)).fold max Cert.Spec.negInf
        (fun q : Fin 256 => ∑ d : Fin 64,
          img a ha x r h1 (ix2 p d) * quarter b hb f (4096 * k) h2 (ix2 (chunkRow jj q) d))) Cert.Spec.patches
      = Cert.Spec.blockSim x f ((Rect.unit (s := S8x64) ![r, 16 * k] ![1, 16] h3).emb y) := by
  have h0 : (y 0).val < 1 := (y 0).isLt
  refine formula_at a ha b hb x f r k hr hk h1 h2 jj
    ((Rect.unit (s := S8x64) ![r, 16 * k] ![1, 16] h3).emb y 0)
    ((Rect.unit (s := S8x64) ![r, 16 * k] ![1, 16] h3).emb y 1) ?_ ?_
  · show r + 1 * (y 0).val = r
    omega
  · show 16 * k + 1 * (y 1).val = 16 * k + jj.val
    omega

theorem piece_value (a : Memref sig .tc .vmem S8x256x64 .bf16) (ha : a.IsWhole) (b : Memref sig .tc .vmem S16384x64 .bf16) (hb : b.IsWhole)
    (x : Vec Ideal S8x256x64 .bf16) (f : Vec Ideal S16384x64 .bf16) (r k : ℕ) (hr : r < 8) (hk : k < 4)
    (h1 : ∀ i, (![r, 0, 0] : Fin 3 → ℕ) i + (![1, 256, 64] : Fin 3 → ℕ) i ≤ S8x256x64.size i)
    (h2 : ∀ i, (![4096 * k, 0] : Fin 2 → ℕ) i + (![4096, 64] : Fin 2 → ℕ) i ≤ S16384x64.size i)
    (h3 : ∀ i, (![r, 16 * k] : Fin 2 → ℕ) i + (![1, 16] : Fin 2 → ℕ) i ≤ S8x64.size i)
    (y : (Rect.unit (s := S8x64) ![r, 16 * k] ![1, 16] h3).shape.Idx) :
    chunk (F := Ideal) (img a ha x r h1) (quarter b hb f (4096 * k) h2) y
      = Cert.Spec.blockSim x f ((Rect.unit (s := S8x64) ![r, 16 * k] ![1, 16] h3).emb y) := by
  have e : y = ix2 (n0 := 1) (n1 := 16) (y 0) (y 1) := eq_ix2 (n0 := 1) (n1 := 16) y
  refine (congrArg (chunk (F := Ideal) (img a ha x r h1) (quarter b hb f (4096 * k) h2)) e).trans ?_
  refine (chunk_apply (img a ha x r h1) (quarter b hb f (4096 * k) h2) (y 0) (y 1)).trans ?_
  exact piece_formula a ha b hb x f r k hr hk h1 h2 h3 y (y 1) rfl

end Cert.KernelIdeal.Pieces

end
-- ==== Proof.Out3.lean ====
/-
  Output 3 of the kernel at one grid point. The body fills the 8 × 64 staging block by thirty-two
  stores: store (r, k), for r = 0 … 7 and k = 0 … 3, writes row r, columns 16 k … 16 k + 15, and what it
  writes is the chunk function of image r of the point's block and quarter k of the flat stack. Each
  such store holds the block similarities of image r with the flat stack's images 16 k … 16 k + 15, so
  the stores together leave the point's block of the similarity table.
-/
import proofs.«136283_j24739011625309_1_alg».proof.Proof.Gen.KernelIdeal.Frame
import proofs.«136283_j24739011625309_1_alg».proof.Proof.PieceValue
import Idealize.ShloMosaic.Lib.Pipeline.Value

set_option maxRecDepth 16384

noncomputable section

namespace Cert.KernelIdeal.Out3

open Idealize.ShloMosaic Idealize.ShloMosaic.Tactic Cert.KernelIdeal Cert.KernelIdeal.Gen Cert.KernelIdeal.Chunk Cert.KernelIdeal.Pieces

/-- A store's piece agrees with the block of the similarity table as soon as its payload is the chunk
    function of image `r` of the block and quarter `k` of the flat stack: the piece sits on row `r`,
    columns `16 k … 16 k + 15`, which is where the table holds those sixteen similarities. -/
theorem piece_ok (arg1 : Memref sig .tc .vmem S8x256x64 .bf16) (harg1 : arg1.IsWhole) (arg2 : Memref sig .tc .vmem S16384x64 .bf16) (harg2 : arg2.IsWhole)
    (x0 : Vec Ideal S8x256x64 .bf16) (x1 : Vec Ideal S16384x64 .bf16) (r k : ℕ) (hr : r < 8) (hk : k < 4)
    (h1 : ∀ i, (![r, 0, 0] : Fin 3 → ℕ) i + (![1, 256, 64] : Fin 3 → ℕ) i ≤ S8x256x64.size i)
    (h2 : ∀ i, (![4096 * k, 0] : Fin 2 → ℕ) i + (![4096, 64] : Fin 2 → ℕ) i ≤ S16384x64.size i)
    (h3 : ∀ i, (![r, 16 * k] : Fin 2 → ℕ) i + (![1, 16] : Fin 2 → ℕ) i ≤ S8x64.size i)
    (pay : (Rect.unit (s := S8x64) ![r, 16 * k] ![1, 16] h3).shape.Idx → Elt Ideal .f32)
    (hpay : pay = chunk (F := Ideal) (img arg1 harg1 x0 r h1) (quarter arg2 harg2 x1 (4096 * k) h2)) :
    ∀ x, (⟨Rect.unit (s := S8x64) ![r, 16 * k] ![1, 16] h3, pay⟩ : View.Piece (Elt Ideal) S8x64 .f32).2 x
      = Cert.Spec.blockSim x0 x1
          ((⟨Rect.unit (s := S8x64) ![r, 16 * k] ![1, 16] h3, pay⟩ : View.Piece (Elt Ideal) S8x64 .f32).1.emb x) := by
  subst hpay
  intro x
  exact piece_value arg1 harg1 arg2 harg2 x0 x1 r k hr hk h1 h2 h3 x

/-- What the body leaves in output 3's staging buffer is the point's block of the similarity table: the
    thirty-two stores tile the 8 × 64 block (row `r`, sixteen columns from `16 k`), and each stores the
    chunk function of image `r` and quarter `k`. -/
theorem out3_eq (c : Dev nD) (i : grid0.Coords) (arg1 : Memref sig .tc .vmem S8x256x64 .bf16) (harg1 : arg1.IsWhole) (arg2 : Memref sig .tc .vmem S16384x64 .bf16) (harg2 : arg2.IsWhole) (arg3 : Memref sig .tc .vmem S16384x64 .bf16) (harg3 : arg3.IsWhole) (arg4 : Memref sig .tc .vmem S8x64 .f32) (harg4 : arg4.IsWhole) (arg5 : Memref sig .tc .vmem S8x64 .f32) (harg5 : arg5.IsWhole)
    (x0 : Vec Ideal S8x256x64 .bf16) (x1 : Vec Ideal S16384x64 .bf16) (x2 : Vec Ideal S16384x64 .bf16) :
    out0_A_3 (F := Ideal) c i arg1 harg1 arg2 harg2 arg3 harg3 arg4 harg4 arg5 harg5 x0 x1 x2 = Cert.Spec.blockSim x0 x1 := by
  funext y
  unfold out0_A_3
  refine (congrFun (View.read_writes_eq_canon _ _ _ (cover0_A_3 c i arg1 harg1 arg2 harg2 arg3 harg3 arg4 harg4 arg5 harg5 x0 x1 x2)) y).trans ?_
  refine View.canon_apply_of_pieces (Cert.Spec.blockSim x0 x1) _ ?_ y (cover0_A_3 c i arg1 harg1 arg2 harg2 arg3 harg3 arg4 harg4 arg5 harg5 x0 x1 x2 y)
  unfold kernelRun0_A
  dsimp only
  refine List.forall_mem_cons.2 ⟨piece_ok arg1 harg1 arg2 harg2 x0 x1 7 3 (by decide) (by decide) (by decide) (by decide) (by decide) _ (by rfl), ?_⟩
  refine List.forall_mem_cons.2 ⟨piece_ok arg1 harg1 arg2 harg2 x0 x1 7 2 (by decide) (by decide) (by decide) (by decide) (by decide) _ (by rfl), ?_⟩
  refine List.forall_mem_cons.2 ⟨piece_ok arg1 harg1 arg2 harg2 x0 x1 7 1 (by decide) (by decide) (by decide) (by decide) (by decide) _ (by rfl), ?_⟩
  refine List.forall_mem_cons.2 ⟨piece_ok arg1 harg1 arg2 harg2 x0 x1 7 0 (by decide) (by decide) (by decide) (by decide) (by decide) _ (by rfl), ?_⟩
  refine List.forall_mem_cons.2 ⟨piece_ok arg1 harg1 arg2 harg2 x0 x1 6 3 (by decide) (by decide) (by decide) (by decide) (by decide) _ (by rfl), ?_⟩
  refine List.forall_mem_cons.2 ⟨piece_ok arg1 harg1 arg2 harg2 x0 x1 6 2 (by decide) (by decide) (by decide) (by decide) (by decide) _ (by rfl), ?_⟩
  refine List.forall_mem_cons.2 ⟨piece_ok arg1 harg1 arg2 harg2 x0 x1 6 1 (by decide) (by decide) (by decide) (by decide) (by decide) _ (by rfl), ?_⟩
  refine List.forall_mem_cons.2 ⟨piece_ok arg1 harg1 arg2 harg2 x0 x1 6 0 (by decide) (by decide) (by decide) (by decide) (by decide) _ (by rfl), ?_⟩
  refine List.forall_mem_cons.2 ⟨piece_ok arg1 harg1 arg2 harg2 x0 x1 5 3 (by decide) (by decide) (by decide) (by decide) (by decide) _ (by rfl), ?_⟩
  refine List.forall_mem_cons.2 ⟨piece_ok arg1 harg1 arg2 harg2 x0 x1 5 2 (by decide) (by decide) (by decide) (by decide) (by decide) _ (by rfl), ?_⟩
  refine List.forall_mem_cons.2 ⟨piece_ok arg1 harg1 arg2 harg2 x0 x1 5 1 (by decide) (by decide) (by decide) (by decide) (by decide) _ (by rfl), ?_⟩
  refine List.forall_mem_cons.2 ⟨piece_ok arg1 harg1 arg2 harg2 x0 x1 5 0 (by decide) (by decide) (by decide) (by decide) (by decide) _ (by rfl), ?_⟩
  refine List.forall_mem_cons.2 ⟨piece_ok arg1 harg1 arg2 harg2 x0 x1 4 3 (by decide) (by decide) (by decide) (by decide) (by decide) _ (by rfl), ?_⟩
  refine List.forall_mem_cons.2 ⟨piece_ok arg1 harg1 arg2 harg2 x0 x1 4 2 (by decide) (by decide) (by decide) (by decide) (by decide) _ (by rfl), ?_⟩
  refine List.forall_mem_cons.2 ⟨piece_ok arg1 harg1 arg2 harg2 x0 x1 4 1 (by decide) (by decide) (by decide) (by decide) (by decide) _ (by rfl), ?_⟩
  refine List.forall_mem_cons.2 ⟨piece_ok arg1 harg1 arg2 harg2 x0 x1 4 0 (by decide) (by decide) (by decide) (by decide) (by decide) _ (by rfl), ?_⟩
  refine List.forall_mem_cons.2 ⟨piece_ok arg1 harg1 arg2 harg2 x0 x1 3 3 (by decide) (by decide) (by decide) (by decide) (by decide) _ (by rfl), ?_⟩
  refine List.forall_mem_cons.2 ⟨piece_ok arg1 harg1 arg2 harg2 x0 x1 3 2 (by decide) (by decide) (by decide) (by decide) (by decide) _ (by rfl), ?_⟩
  refine List.forall_mem_cons.2 ⟨piece_ok arg1 harg1 arg2 harg2 x0 x1 3 1 (by decide) (by decide) (by decide) (by decide) (by decide) _ (by rfl), ?_⟩
  refine List.forall_mem_cons.2 ⟨piece_ok arg1 harg1 arg2 harg2 x0 x1 3 0 (by decide) (by decide) (by decide) (by decide) (by decide) _ (by rfl), ?_⟩
  refine List.forall_mem_cons.2 ⟨piece_ok arg1 harg1 arg2 harg2 x0 x1 2 3 (by decide) (by decide) (by decide) (by decide) (by decide) _ (by rfl), ?_⟩
  refine List.forall_mem_cons.2 ⟨piece_ok arg1 harg1 arg2 harg2 x0 x1 2 2 (by decide) (by decide) (by decide) (by decide) (by decide) _ (by rfl), ?_⟩
  refine List.forall_mem_cons.2 ⟨piece_ok arg1 harg1 arg2 harg2 x0 x1 2 1 (by decide) (by decide) (by decide) (by decide) (by decide) _ (by rfl), ?_⟩
  refine List.forall_mem_cons.2 ⟨piece_ok arg1 harg1 arg2 harg2 x0 x1 2 0 (by decide) (by decide) (by decide) (by decide) (by decide) _ (by rfl), ?_⟩
  refine List.forall_mem_cons.2 ⟨piece_ok arg1 harg1 arg2 harg2 x0 x1 1 3 (by decide) (by decide) (by decide) (by decide) (by decide) _ (by rfl), ?_⟩
  refine List.forall_mem_cons.2 ⟨piece_ok arg1 harg1 arg2 harg2 x0 x1 1 2 (by decide) (by decide) (by decide) (by decide) (by decide) _ (by rfl), ?_⟩
  refine List.forall_mem_cons.2 ⟨piece_ok arg1 harg1 arg2 harg2 x0 x1 1 1 (by decide) (by decide) (by decide) (by decide) (by decide) _ (by rfl), ?_⟩
  refine List.forall_mem_cons.2 ⟨piece_ok arg1 harg1 arg2 harg2 x0 x1 1 0 (by decide) (by decide) (by decide) (by decide) (by decide) _ (by rfl), ?_⟩
  refine List.forall_mem_cons.2 ⟨piece_ok arg1 harg1 arg2 harg2 x0 x1 0 3 (by decide) (by decide) (by decide) (by decide) (by decide) _ (by rfl), ?_⟩
  refine List.forall_mem_cons.2 ⟨piece_ok arg1 harg1 arg2 harg2 x0 x1 0 2 (by decide) (by decide) (by decide) (by decide) (by decide) _ (by rfl), ?_⟩
  refine List.forall_mem_cons.2 ⟨piece_ok arg1 harg1 arg2 harg2 x0 x1 0 1 (by decide) (by decide) (by decide) (by decide) (by decide) _ (by rfl), ?_⟩
  refine List.forall_mem_cons.2 ⟨piece_ok arg1 harg1 arg2 harg2 x0 x1 0 0 (by decide) (by decide) (by decide) (by decide) (by decide) _ (by rfl), ?_⟩
  exact fun p hp => absurd hp List.not_mem_nil

end Cert.KernelIdeal.Out3

end
-- ==== Proof.Out4.lean ====
/-
  What the kernel's body leaves in the buffer of output 4 at a grid point: the point's block of the
  similarity table of the block's eight images (first input) against the sixty-four images of the flat
  stack in the third input.

  The body writes the 8 × 64 block as 32 stores, one per image `r` of the block and quarter `k` of the
  flat stack, at row `r`, columns `16 k … 16 k + 15`. Each stored value is the chunk function of image
  `r` and quarter `k`; each chunk is the matching tile of the block table (`piece_value`); the 32 tiles
  cover the block, so the buffer read back is the block table at every index.
-/
import proofs.«136283_j24739011625309_1_alg».proof.Proof.Gen.KernelIdeal.Frame
import proofs.«136283_j24739011625309_1_alg».proof.Proof.PieceValue
import Idealize.ShloMosaic.Lib.Pipeline.Value

set_option maxRecDepth 16384

noncomputable section

namespace Cert.KernelIdeal.Out4

open Idealize.ShloMosaic Idealize.ShloMosaic.Tactic Cert.KernelIdeal Cert.KernelIdeal.Gen Cert.KernelIdeal.Chunk Cert.KernelIdeal.Pieces

section Payloads

/-! ### The 32 stored values

For each image `r` (0 … 7) and quarter `k` (0 … 3) the value stored at row `r`, columns
`16 k … 16 k + 15` is `chunk` of image `r` of the block and the 4096 rows from row `4096 k` of the flat
stack. The stores spell their operands differently (an image, a quarter, or an intermediate product or
reduction may be shared between the stores that use it), but every spelling is the same composition of
the same operations on the same two loads, so each equation holds by definition, at any number model. -/

variable {F : FTy → Type} [FloatOps F]
variable (c : Dev nD) (arg1 : Memref sig .tc .vmem S8x256x64 .bf16) (harg1 : arg1.IsWhole)
  (arg3 : Memref sig .tc .vmem S16384x64 .bf16) (harg3 : arg3.IsWhole)
  (x0 : Vec F S8x256x64 .bf16) (x2 : Vec F S16384x64 .bf16)

/-- Row `7`, columns `48 … 63`: image `7` against quarter `3`. -/
theorem pay_7_3 (h1 : ∀ i, (![7, 0, 0] : Fin 3 → ℕ) i + (![1, 256, 64] : Fin 3 → ℕ) i ≤ S8x256x64.size i) (h2 : ∀ i, (![4096 * 3, 0] : Fin 2 → ℕ) i + (![4096, 64] : Fin 2 → ℕ) i ≤ S16384x64.size i) :
    k0_pay1 (kernelRun0_A.sl.r_27 c arg1 harg1 x0) (View.readAt (Elt F) arg3.view (Rect.unit (s := S16384x64) ![12288, 0] ![4096, 64] h2).toLoadRect (harg3.unread x2))
      = chunk (img arg1 harg1 x0 7 h1) (quarter arg3 harg3 x2 (4096 * 3) h2) := rfl

/-- Row `7`, columns `32 … 47`: image `7` against quarter `2`. -/
theorem pay_7_2 (h1 : ∀ i, (![7, 0, 0] : Fin 3 → ℕ) i + (![1, 256, 64] : Fin 3 → ℕ) i ≤ S8x256x64.size i) (h2 : ∀ i, (![4096 * 2, 0] : Fin 2 → ℕ) i + (![4096, 64] : Fin 2 → ℕ) i ≤ S16384x64.size i) :
    k0_pay92 (kernelRun0_A.sl.r_27 c arg1 harg1 x0) (View.readAt (Elt F) arg3.view (Rect.unit (s := S16384x64) ![8192, 0] ![4096, 64] h2).toLoadRect (harg3.unread x2))
      = chunk (img arg1 harg1 x0 7 h1) (quarter arg3 harg3 x2 (4096 * 2) h2) := rfl

/-- Row `7`, columns `16 … 31`: image `7` against quarter `1`. -/
theorem pay_7_1 (h1 : ∀ i, (![7, 0, 0] : Fin 3 → ℕ) i + (![1, 256, 64] : Fin 3 → ℕ) i ≤ S8x256x64.size i) (h2 : ∀ i, (![4096 * 1, 0] : Fin 2 → ℕ) i + (![4096, 64] : Fin 2 → ℕ) i ≤ S16384x64.size i) :
    k0_pay91 (kernelRun0_A.sl.r_27 c arg1 harg1 x0) (View.readAt (Elt F) arg3.view (Rect.unit (s := S16384x64) ![4096, 0] ![4096, 64] h2).toLoadRect (harg3.unread x2))
      = chunk (img arg1 harg1 x0 7 h1) (quarter arg3 harg3 x2 (4096 * 1) h2) := rfl

/-- Row `7`, columns `0 … 15`: image `7` against quarter `0`. -/
theorem pay_7_0 (h1 : ∀ i, (![7, 0, 0] : Fin 3 → ℕ) i + (![1, 256, 64] : Fin 3 → ℕ) i ≤ S8x256x64.size i) (h2 : ∀ i, (![4096 * 0, 0] : Fin 2 → ℕ) i + (![4096, 64] : Fin 2 → ℕ) i ≤ S16384x64.size i) :
    k0_pay90 (kernelRun0_A.sl.r_27 c arg1 harg1 x0) (View.readAt (Elt F) arg3.view (Rect.unit (s := S16384x64) ![0, 0] ![4096, 64] h2).toLoadRect (harg3.unread x2))
      = chunk (img arg1 harg1 x0 7 h1) (quarter arg3 harg3 x2 (4096 * 0) h2) := rfl

/-- Row `6`, columns `48 … 63`: image `6` against quarter `3`. -/
theorem pay_6_3 (h1 : ∀ i, (![6, 0, 0] : Fin 3 → ℕ) i + (![1, 256, 64] : Fin 3 → ℕ) i ≤ S8x256x64.size i) (h2 : ∀ i, (![4096 * 3, 0] : Fin 2 → ℕ) i + (![4096, 64] : Fin 2 → ℕ) i ≤ S16384x64.size i) :
    k0_pay82 (kernelRun0_A.sl.r_26 c arg1 harg1 arg3 harg3 x0 x2)
      = chunk (img arg1 harg1 x0 6 h1) (quarter arg3 harg3 x2 (4096 * 3) h2) := rfl

/-- Row `6`, columns `32 … 47`: image `6` against quarter `2`. -/
theorem pay_6_2 (h1 : ∀ i, (![6, 0, 0] : Fin 3 → ℕ) i + (![1, 256, 64] : Fin 3 → ℕ) i ≤ S8x256x64.size i) (h2 : ∀ i, (![4096 * 2, 0] : Fin 2 → ℕ) i + (![4096, 64] : Fin 2 → ℕ) i ≤ S16384x64.size i) :
    k0_pay80 (kernelRun0_A.sl.r_23 c arg1 harg1 x0) (View.readAt (Elt F) arg3.view (Rect.unit (s := S16384x64) ![8192, 0] ![4096, 64] h2).toLoadRect (harg3.unread x2))
      = chunk (img arg1 harg1 x0 6 h1) (quarter arg3 harg3 x2 (4096 * 2) h2) := rfl

/-- Row `6`, columns `16 … 31`: image `6` against quarter `1`. -/
theorem pay_6_1 (h1 : ∀ i, (![6, 0, 0] : Fin 3 → ℕ) i + (![1, 256, 64] : Fin 3 → ℕ) i ≤ S8x256x64.size i) (h2 : ∀ i, (![4096 * 1, 0] : Fin 2 → ℕ) i + (![4096, 64] : Fin 2 → ℕ) i ≤ S16384x64.size i) :
    k0_pay79 (kernelRun0_A.sl.r_25 c arg1 harg1 arg3 harg3 x0 x2)
      = chunk (img arg1 harg1 x0 6 h1) (quarter arg3 harg3 x2 (4096 * 1) h2) := rfl

/-- Row `6`, columns `0 … 15`: image `6` against quarter `0`. -/
theorem pay_6_0 (h1 : ∀ i, (![6, 0, 0] : Fin 3 → ℕ) i + (![1, 256, 64] : Fin 3 → ℕ) i ≤ S8x256x64.size i) (h2 : ∀ i, (![4096 * 0, 0] : Fin 2 → ℕ) i + (![4096, 64] : Fin 2 → ℕ) i ≤ S16384x64.size i) :
    k0_pay77 (kernelRun0_A.sl.r_23 c arg1 harg1 x0) (View.readAt (Elt F) arg3.view (Rect.unit (s := S16384x64) ![0, 0] ![4096, 64] h2).toLoadRect (harg3.unread x2))
      = chunk (img arg1 harg1 x0 6 h1) (quarter arg3 harg3 x2 (4096 * 0) h2) := rfl

/-- Row `5`, columns `48 … 63`: image `5` against quarter `3`. -/
theorem pay_5_3 (h1 : ∀ i, (![5, 0, 0] : Fin 3 → ℕ) i + (![1, 256, 64] : Fin 3 → ℕ) i ≤ S8x256x64.size i) (h2 : ∀ i, (![4096 * 3, 0] : Fin 2 → ℕ) i + (![4096, 64] : Fin 2 → ℕ) i ≤ S16384x64.size i) :
    k0_pay70 (kernelRun0_A.sl.r_19 c arg1 harg1 x0) (View.readAt (Elt F) arg3.view (Rect.unit (s := S16384x64) ![12288, 0] ![4096, 64] h2).toLoadRect (harg3.unread x2))
      = chunk (img arg1 harg1 x0 5 h1) (quarter arg3 harg3 x2 (4096 * 3) h2) := rfl

/-- Row `5`, columns `32 … 47`: image `5` against quarter `2`. -/
theorem pay_5_2 (h1 : ∀ i, (![5, 0, 0] : Fin 3 → ℕ) i + (![1, 256, 64] : Fin 3 → ℕ) i ≤ S8x256x64.size i) (h2 : ∀ i, (![4096 * 2, 0] : Fin 2 → ℕ) i + (![4096, 64] : Fin 2 → ℕ) i ≤ S16384x64.size i) :
    k0_pay69 (kernelRun0_A.sl.r_19 c arg1 harg1 x0) (View.readAt (Elt F) arg3.view (Rect.unit (s := S16384x64) ![8192, 0] ![4096, 64] h2).toLoadRect (harg3.unread x2))
      = chunk (img arg1 harg1 x0 5 h1) (quarter arg3 harg3 x2 (4096 * 2) h2) := rfl

/-- Row `5`, columns `16 … 31`: image `5` against quarter `1`. -/
theorem pay_5_1 (h1 : ∀ i, (![5, 0, 0] : Fin 3 → ℕ) i + (![1, 256, 64] : Fin 3 → ℕ) i ≤ S8x256x64.size i) (h2 : ∀ i, (![4096 * 1, 0] : Fin 2 → ℕ) i + (![4096, 64] : Fin 2 → ℕ) i ≤ S16384x64.size i) :
    k0_pay68 (kernelRun0_A.sl.r_19 c arg1 harg1 x0) (View.readAt (Elt F) arg3.view (Rect.unit (s := S16384x64) ![4096, 0] ![4096, 64] h2).toLoadRect (harg3.unread x2))
      = chunk (img arg1 harg1 x0 5 h1) (quarter arg3 harg3 x2 (4096 * 1) h2) := rfl

/-- Row `5`, columns `0 … 15`: image `5` against quarter `0`. -/
theorem pay_5_0 (h1 : ∀ i, (![5, 0, 0] : Fin 3 → ℕ) i + (![1, 256, 64] : Fin 3 → ℕ) i ≤ S8x256x64.size i) (h2 : ∀ i, (![4096 * 0, 0] : Fin 2 → ℕ) i + (![4096, 64] : Fin 2 → ℕ) i ≤ S16384x64.size i) :
    k0_pay67 (kernelRun0_A.sl.r_22 c arg1 harg1 arg3 harg3 x0 x2)
      = chunk (img arg1 harg1 x0 5 h1) (quarter arg3 harg3 x2 (4096 * 0) h2) := rfl

/-- Row `4`, columns `48 … 63`: image `4` against quarter `3`. -/
theorem pay_4_3 (h1 : ∀ i, (![4, 0, 0] : Fin 3 → ℕ) i + (![1, 256, 64] : Fin 3 → ℕ) i ≤ S8x256x64.size i) (h2 : ∀ i, (![4096 * 3, 0] : Fin 2 → ℕ) i + (![4096, 64] : Fin 2 → ℕ) i ≤ S16384x64.size i) :
    k0_pay58 (kernelRun0_A.sl.r_16 c arg1 harg1 x0) (View.readAt (Elt F) arg3.view (Rect.unit (s := S16384x64) ![12288, 0] ![4096, 64] h2).toLoadRect (harg3.unread x2))
      = chunk (img arg1 harg1 x0 4 h1) (quarter arg3 harg3 x2 (4096 * 3) h2) := rfl

/-- Row `4`, columns `32 … 47`: image `4` against quarter `2`. -/
theorem pay_4_2 (h1 : ∀ i, (![4, 0, 0] : Fin 3 → ℕ) i + (![1, 256, 64] : Fin 3 → ℕ) i ≤ S8x256x64.size i) (h2 : ∀ i, (![4096 * 2, 0] : Fin 2 → ℕ) i + (![4096, 64] : Fin 2 → ℕ) i ≤ S16384x64.size i) :
    k0_pay57 (kernelRun0_A.sl.r_18 c arg1 harg1 arg3 harg3 x0 x2)
      = chunk (img arg1 harg1 x0 4 h1) (quarter arg3 harg3 x2 (4096 * 2) h2) := rfl

/-- Row `4`, columns `16 … 31`: image `4` against quarter `1`. -/
theorem pay_4_1 (h1 : ∀ i, (![4, 0, 0] : Fin 3 → ℕ) i + (![1, 256, 64] : Fin 3 → ℕ) i ≤ S8x256x64.size i) (h2 : ∀ i, (![4096 * 1, 0] : Fin 2 → ℕ) i + (![4096, 64] : Fin 2 → ℕ) i ≤ S16384x64.size i) :
    k0_pay55 (kernelRun0_A.sl.r_16 c arg1 harg1 x0) (View.readAt (Elt F) arg3.view (Rect.unit (s := S16384x64) ![4096, 0] ![4096, 64] h2).toLoadRect (harg3.unread x2))
      = chunk (img arg1 harg1 x0 4 h1) (quarter arg3 harg3 x2 (4096 * 1) h2) := rfl

/-- Row `4`, columns `0 … 15`: image `4` against quarter `0`. -/
theorem pay_4_0 (h1 : ∀ i, (![4, 0, 0] : Fin 3 → ℕ) i + (![1, 256, 64] : Fin 3 → ℕ) i ≤ S8x256x64.size i) (h2 : ∀ i, (![4096 * 0, 0] : Fin 2 → ℕ) i + (![4096, 64] : Fin 2 → ℕ) i ≤ S16384x64.size i) :
    k0_pay54 (kernelRun0_A.sl.r_16 c arg1 harg1 x0) (kernelRun0_A.sl.r_17 c arg3 harg3 x2)
      = chunk (img arg1 harg1 x0 4 h1) (quarter arg3 harg3 x2 (4096 * 0) h2) := rfl

/-- Row `3`, columns `48 … 63`: image `3` against quarter `3`. -/
theorem pay_3_3 (h1 : ∀ i, (![3, 0, 0] : Fin 3 → ℕ) i + (![1, 256, 64] : Fin 3 → ℕ) i ≤ S8x256x64.size i) (h2 : ∀ i, (![4096 * 3, 0] : Fin 2 → ℕ) i + (![4096, 64] : Fin 2 → ℕ) i ≤ S16384x64.size i) :
    k0_pay47 (kernelRun0_A.sl.r_12 c arg1 harg1 x0) (View.readAt (Elt F) arg3.view (Rect.unit (s := S16384x64) ![12288, 0] ![4096, 64] h2).toLoadRect (harg3.unread x2))
      = chunk (img arg1 harg1 x0 3 h1) (quarter arg3 harg3 x2 (4096 * 3) h2) := rfl

/-- Row `3`, columns `32 … 47`: image `3` against quarter `2`. -/
theorem pay_3_2 (h1 : ∀ i, (![3, 0, 0] : Fin 3 → ℕ) i + (![1, 256, 64] : Fin 3 → ℕ) i ≤ S8x256x64.size i) (h2 : ∀ i, (![4096 * 2, 0] : Fin 2 → ℕ) i + (![4096, 64] : Fin 2 → ℕ) i ≤ S16384x64.size i) :
    k0_pay46 (kernelRun0_A.sl.r_12 c arg1 harg1 x0) (View.readAt (Elt F) arg3.view (Rect.unit (s := S16384x64) ![8192, 0] ![4096, 64] h2).toLoadRect (harg3.unread x2))
      = chunk (img arg1 harg1 x0 3 h1) (quarter arg3 harg3 x2 (4096 * 2) h2) := rfl

/-- Row `3`, columns `16 … 31`: image `3` against quarter `1`. -/
theorem pay_3_1 (h1 : ∀ i, (![3, 0, 0] : Fin 3 → ℕ) i + (![1, 256, 64] : Fin 3 → ℕ) i ≤ S8x256x64.size i) (h2 : ∀ i, (![4096 * 1, 0] : Fin 2 → ℕ) i + (![4096, 64] : Fin 2 → ℕ) i ≤ S16384x64.size i) :
    k0_pay45 (kernelRun0_A.sl.r_15 c arg1 harg1 arg3 harg3 x0 x2)
      = chunk (img arg1 harg1 x0 3 h1) (quarter arg3 harg3 x2 (4096 * 1) h2) := rfl

/-- Row `3`, columns `0 … 15`: image `3` against quarter `0`. -/
theorem pay_3_0 (h1 : ∀ i, (![3, 0, 0] : Fin 3 → ℕ) i + (![1, 256, 64] : Fin 3 → ℕ) i ≤ S8x256x64.size i) (h2 : ∀ i, (![4096 * 0, 0] : Fin 2 → ℕ) i + (![4096, 64] : Fin 2 → ℕ) i ≤ S16384x64.size i) :
    k0_pay43 (kernelRun0_A.sl.r_12 c arg1 harg1 x0) (View.readAt (Elt F) arg3.view (Rect.unit (s := S16384x64) ![0, 0] ![4096, 64] h2).toLoadRect (harg3.unread x2))
      = chunk (img arg1 harg1 x0 3 h1) (quarter arg3 harg3 x2 (4096 * 0) h2) := rfl

/-- Row `2`, columns `48 … 63`: image `2` against quarter `3`. -/
theorem pay_2_3 (h1 : ∀ i, (![2, 0, 0] : Fin 3 → ℕ) i + (![1, 256, 64] : Fin 3 → ℕ) i ≤ S8x256x64.size i) (h2 : ∀ i, (![4096 * 3, 0] : Fin 2 → ℕ) i + (![4096, 64] : Fin 2 → ℕ) i ≤ S16384x64.size i) :
    k0_pay35 (kernelRun0_A.sl.r_11 c arg1 harg1 arg3 harg3 x0 x2)
      = chunk (img arg1 harg1 x0 2 h1) (quarter arg3 harg3 x2 (4096 * 3) h2) := rfl

/-- Row `2`, columns `32 … 47`: image `2` against quarter `2`. -/
theorem pay_2_2 (h1 : ∀ i, (![2, 0, 0] : Fin 3 → ℕ) i + (![1, 256, 64] : Fin 3 → ℕ) i ≤ S8x256x64.size i) (h2 : ∀ i, (![4096 * 2, 0] : Fin 2 → ℕ) i + (![4096, 64] : Fin 2 → ℕ) i ≤ S16384x64.size i) :
    k0_pay33 (kernelRun0_A.sl.r_8 c arg1 harg1 x0) (View.readAt (Elt F) arg3.view (Rect.unit (s := S16384x64) ![8192, 0] ![4096, 64] h2).toLoadRect (harg3.unread x2))
      = chunk (img arg1 harg1 x0 2 h1) (quarter arg3 harg3 x2 (4096 * 2) h2) := rfl

/-- Row `2`, columns `16 … 31`: image `2` against quarter `1`. -/
theorem pay_2_1 (h1 : ∀ i, (![2, 0, 0] : Fin 3 → ℕ) i + (![1, 256, 64] : Fin 3 → ℕ) i ≤ S8x256x64.size i) (h2 : ∀ i, (![4096 * 1, 0] : Fin 2 → ℕ) i + (![4096, 64] : Fin 2 → ℕ) i ≤ S16384x64.size i) :
    k0_pay32 (kernelRun0_A.sl.r_8 c arg1 harg1 x0) (kernelRun0_A.sl.r_10 c arg3 harg3 x2) kernelRun0_A.sl.cst_66
      = chunk (img arg1 harg1 x0 2 h1) (quarter arg3 harg3 x2 (4096 * 1) h2) := rfl

/-- Row `2`, columns `0 … 15`: image `2` against quarter `0`. -/
theorem pay_2_0 (h1 : ∀ i, (![2, 0, 0] : Fin 3 → ℕ) i + (![1, 256, 64] : Fin 3 → ℕ) i ≤ S8x256x64.size i) (h2 : ∀ i, (![4096 * 0, 0] : Fin 2 → ℕ) i + (![4096, 64] : Fin 2 → ℕ) i ≤ S16384x64.size i) :
    k0_pay30 (kernelRun0_A.sl.r_8 c arg1 harg1 x0) (View.readAt (Elt F) arg3.view (Rect.unit (s := S16384x64) ![0, 0] ![4096, 64] h2).toLoadRect (harg3.unread x2))
      = chunk (img arg1 harg1 x0 2 h1) (quarter arg3 harg3 x2 (4096 * 0) h2) := rfl

/-- Row `1`, columns `48 … 63`: image `1` against quarter `3`. -/
theorem pay_1_3 (h1 : ∀ i, (![1, 0, 0] : Fin 3 → ℕ) i + (![1, 256, 64] : Fin 3 → ℕ) i ≤ S8x256x64.size i) (h2 : ∀ i, (![4096 * 3, 0] : Fin 2 → ℕ) i + (![4096, 64] : Fin 2 → ℕ) i ≤ S16384x64.size i) :
    k0_pay23 (kernelRun0_A.sl.r_3 c arg1 harg1 x0) (View.readAt (Elt F) arg3.view (Rect.unit (s := S16384x64) ![12288, 0] ![4096, 64] h2).toLoadRect (harg3.unread x2))
      = chunk (img arg1 harg1 x0 1 h1) (quarter arg3 harg3 x2 (4096 * 3) h2) := rfl

/-- Row `1`, columns `32 … 47`: image `1` against quarter `2`. -/
theorem pay_1_2 (h1 : ∀ i, (![1, 0, 0] : Fin 3 → ℕ) i + (![1, 256, 64] : Fin 3 → ℕ) i ≤ S8x256x64.size i) (h2 : ∀ i, (![4096 * 2, 0] : Fin 2 → ℕ) i + (![4096, 64] : Fin 2 → ℕ) i ≤ S16384x64.size i) :
    kernelRun0_A.sl.r_7 c arg1 harg1 arg3 harg3 x0 x2
      = chunk (img arg1 harg1 x0 1 h1) (quarter arg3 harg3 x2 (4096 * 2) h2) := rfl

/-- Row `1`, columns `16 … 31`: image `1` against quarter `1`. -/
theorem pay_1_1 (h1 : ∀ i, (![1, 0, 0] : Fin 3 → ℕ) i + (![1, 256, 64] : Fin 3 → ℕ) i ≤ S8x256x64.size i) (h2 : ∀ i, (![4096 * 1, 0] : Fin 2 → ℕ) i + (![4096, 64] : Fin 2 → ℕ) i ≤ S16384x64.size i) :
    k0_pay21 (kernelRun0_A.sl.r_3 c arg1 harg1 x0) (View.readAt (Elt F) arg3.view (Rect.unit (s := S16384x64) ![4096, 0] ![4096, 64] h2).toLoadRect (harg3.unread x2))
      = chunk (img arg1 harg1 x0 1 h1) (quarter arg3 harg3 x2 (4096 * 1) h2) := rfl

/-- Row `1`, columns `0 … 15`: image `1` against quarter `0`. -/
theorem pay_1_0 (h1 : ∀ i, (![1, 0, 0] : Fin 3 → ℕ) i + (![1, 256, 64] : Fin 3 → ℕ) i ≤ S8x256x64.size i) (h2 : ∀ i, (![4096 * 0, 0] : Fin 2 → ℕ) i + (![4096, 64] : Fin 2 → ℕ) i ≤ S16384x64.size i) :
    k0_pay20 (kernelRun0_A.sl.r_6 c arg1 harg1 arg3 harg3 x0 x2)
      = chunk (img arg1 harg1 x0 1 h1) (quarter arg3 harg3 x2 (4096 * 0) h2) := rfl

/-- Row `0`, columns `48 … 63`: image `0` against quarter `3`. -/
theorem pay_0_3 (h1 : ∀ i, (![0, 0, 0] : Fin 3 → ℕ) i + (![1, 256, 64] : Fin 3 → ℕ) i ≤ S8x256x64.size i) (h2 : ∀ i, (![4096 * 3, 0] : Fin 2 → ℕ) i + (![4096, 64] : Fin 2 → ℕ) i ≤ S16384x64.size i) :
    k0_pay11 (kernelRun0_A.sl.r c arg1 harg1 x0) (View.readAt (Elt F) arg3.view (Rect.unit (s := S16384x64) ![12288, 0] ![4096, 64] h2).toLoadRect (harg3.unread x2))
      = chunk (img arg1 harg1 x0 0 h1) (quarter arg3 harg3 x2 (4096 * 3) h2) := rfl

/-- Row `0`, columns `32 … 47`: image `0` against quarter `2`. -/
theorem pay_0_2 (h1 : ∀ i, (![0, 0, 0] : Fin 3 → ℕ) i + (![1, 256, 64] : Fin 3 → ℕ) i ≤ S8x256x64.size i) (h2 : ∀ i, (![4096 * 2, 0] : Fin 2 → ℕ) i + (![4096, 64] : Fin 2 → ℕ) i ≤ S16384x64.size i) :
    k0_pay10 (kernelRun0_A.sl.r_2 c arg1 harg1 arg3 harg3 x0 x2)
      = chunk (img arg1 harg1 x0 0 h1) (quarter arg3 harg3 x2 (4096 * 2) h2) := rfl

/-- Row `0`, columns `16 … 31`: image `0` against quarter `1`. -/
theorem pay_0_1 (h1 : ∀ i, (![0, 0, 0] : Fin 3 → ℕ) i + (![1, 256, 64] : Fin 3 → ℕ) i ≤ S8x256x64.size i) (h2 : ∀ i, (![4096 * 1, 0] : Fin 2 → ℕ) i + (![4096, 64] : Fin 2 → ℕ) i ≤ S16384x64.size i) :
    k0_pay8 (kernelRun0_A.sl.r c arg1 harg1 x0) (View.readAt (Elt F) arg3.view (Rect.unit (s := S16384x64) ![4096, 0] ![4096, 64] h2).toLoadRect (harg3.unread x2))
      = chunk (img arg1 harg1 x0 0 h1) (quarter arg3 harg3 x2 (4096 * 1) h2) := rfl

/-- Row `0`, columns `0 … 15`: image `0` against quarter `0`. -/
theorem pay_0_0 (h1 : ∀ i, (![0, 0, 0] : Fin 3 → ℕ) i + (![1, 256, 64] : Fin 3 → ℕ) i ≤ S8x256x64.size i) (h2 : ∀ i, (![4096 * 0, 0] : Fin 2 → ℕ) i + (![4096, 64] : Fin 2 → ℕ) i ≤ S16384x64.size i) :
    k0_pay7 (kernelRun0_A.sl.r c arg1 harg1 x0) (View.readAt (Elt F) arg3.view (Rect.unit (s := S16384x64) ![0, 0] ![4096, 64] h2).toLoadRect (harg3.unread x2))
      = chunk (img arg1 harg1 x0 0 h1) (quarter arg3 harg3 x2 (4096 * 0) h2) := rfl

end Payloads

/-! ### The buffer read back -/

/-- The buffer of output 4 after the body, read back, is the block table of the point's block of the
    first stack against the flat stack held in `arg3`: the 32 stored tiles cover the 8 × 64 block
    (`cover0_A_4`), and each tile is the tile of that one table its rectangle names. -/
theorem out4_eq (c : Dev nD) (i : grid0.Coords) (arg1 : Memref sig .tc .vmem S8x256x64 .bf16) (harg1 : arg1.IsWhole) (arg2 : Memref sig .tc .vmem S16384x64 .bf16) (harg2 : arg2.IsWhole) (arg3 : Memref sig .tc .vmem S16384x64 .bf16) (harg3 : arg3.IsWhole) (arg4 : Memref sig .tc .vmem S8x64 .f32) (harg4 : arg4.IsWhole) (arg5 : Memref sig .tc .vmem S8x64 .f32) (harg5 : arg5.IsWhole)
    (x0 : Vec Ideal S8x256x64 .bf16) (x1 : Vec Ideal S16384x64 .bf16) (x2 : Vec Ideal S16384x64 .bf16) :
    out0_A_4 (F := Ideal) c i arg1 harg1 arg2 harg2 arg3 harg3 arg4 harg4 arg5 harg5 x0 x1 x2 = Cert.Spec.blockSim x0 x2 := by
  funext y
  unfold out0_A_4
  refine (congrFun (View.read_writes_eq_canon _ _ _ (cover0_A_4 c i arg1 harg1 arg2 harg2 arg3 harg3 arg4 harg4 arg5 harg5 x0 x1 x2)) y).trans ?_
  refine View.canon_apply_of_pieces (Cert.Spec.blockSim x0 x2) _ ?_ y (cover0_A_4 c i arg1 harg1 arg2 harg2 arg3 harg3 arg4 harg4 arg5 harg5 x0 x1 x2 y)
  unfold kernelRun0_A
  dsimp only
  intro p hp
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · intro x
    exact (congrFun (pay_7_3 c arg1 harg1 arg3 harg3 x0 x2 (by decide) (by decide)) x).trans
      (piece_value arg1 harg1 arg3 harg3 x0 x2 7 3 (by decide) (by decide) (by decide) (by decide) (by decide) x)
  · intro x
    exact (congrFun (pay_7_2 c arg1 harg1 arg3 harg3 x0 x2 (by decide) (by decide)) x).trans
      (piece_value arg1 harg1 arg3 harg3 x0 x2 7 2 (by decide) (by decide) (by decide) (by decide) (by decide) x)
  · intro x
    exact (congrFun (pay_7_1 c arg1 harg1 arg3 harg3 x0 x2 (by decide) (by decide)) x).trans
      (piece_value arg1 harg1 arg3 harg3 x0 x2 7 1 (by decide) (by decide) (by decide) (by decide) (by decide) x)
  · intro x
    exact (congrFun (pay_7_0 c arg1 harg1 arg3 harg3 x0 x2 (by decide) (by decide)) x).trans
      (piece_value arg1 harg1 arg3 harg3 x0 x2 7 0 (by decide) (by decide) (by decide) (by decide) (by decide) x)
  · intro x
    exact (congrFun (pay_6_3 c arg1 harg1 arg3 harg3 x0 x2 (by decide) (by decide)) x).trans
      (piece_value arg1 harg1 arg3 harg3 x0 x2 6 3 (by decide) (by decide) (by decide) (by decide) (by decide) x)
  · intro x
    exact (congrFun (pay_6_2 c arg1 harg1 arg3 harg3 x0 x2 (by decide) (by decide)) x).trans
      (piece_value arg1 harg1 arg3 harg3 x0 x2 6 2 (by decide) (by decide) (by decide) (by decide) (by decide) x)
  · intro x
    exact (congrFun (pay_6_1 c arg1 harg1 arg3 harg3 x0 x2 (by decide) (by decide)) x).trans
      (piece_value arg1 harg1 arg3 harg3 x0 x2 6 1 (by decide) (by decide) (by decide) (by decide) (by decide) x)
  · intro x
    exact (congrFun (pay_6_0 c arg1 harg1 arg3 harg3 x0 x2 (by decide) (by decide)) x).trans
      (piece_value arg1 harg1 arg3 harg3 x0 x2 6 0 (by decide) (by decide) (by decide) (by decide) (by decide) x)
  · intro x
    exact (congrFun (pay_5_3 c arg1 harg1 arg3 harg3 x0 x2 (by decide) (by decide)) x).trans
      (piece_value arg1 harg1 arg3 harg3 x0 x2 5 3 (by decide) (by decide) (by decide) (by decide) (by decide) x)
  · intro x
    exact (congrFun (pay_5_2 c arg1 harg1 arg3 harg3 x0 x2 (by decide) (by decide)) x).trans
      (piece_value arg1 harg1 arg3 harg3 x0 x2 5 2 (by decide) (by decide) (by decide) (by decide) (by decide) x)
  · intro x
    exact (congrFun (pay_5_1 c arg1 harg1 arg3 harg3 x0 x2 (by decide) (by decide)) x).trans
      (piece_value arg1 harg1 arg3 harg3 x0 x2 5 1 (by decide) (by decide) (by decide) (by decide) (by decide) x)
  · intro x
    exact (congrFun (pay_5_0 c arg1 harg1 arg3 harg3 x0 x2 (by decide) (by decide)) x).trans
      (piece_value arg1 harg1 arg3 harg3 x0 x2 5 0 (by decide) (by decide) (by decide) (by decide) (by decide) x)
  · intro x
    exact (congrFun (pay_4_3 c arg1 harg1 arg3 harg3 x0 x2 (by decide) (by decide)) x).trans
      (piece_value arg1 harg1 arg3 harg3 x0 x2 4 3 (by decide) (by decide) (by decide) (by decide) (by decide) x)
  · intro x
    exact (congrFun (pay_4_2 c arg1 harg1 arg3 harg3 x0 x2 (by decide) (by decide)) x).trans
      (piece_value arg1 harg1 arg3 harg3 x0 x2 4 2 (by decide) (by decide) (by decide) (by decide) (by decide) x)
  · intro x
    exact (congrFun (pay_4_1 c arg1 harg1 arg3 harg3 x0 x2 (by decide) (by decide)) x).trans
      (piece_value arg1 harg1 arg3 harg3 x0 x2 4 1 (by decide) (by decide) (by decide) (by decide) (by decide) x)
  · intro x
    exact (congrFun (pay_4_0 c arg1 harg1 arg3 harg3 x0 x2 (by decide) (by decide)) x).trans
      (piece_value arg1 harg1 arg3 harg3 x0 x2 4 0 (by decide) (by decide) (by decide) (by decide) (by decide) x)
  · intro x
    exact (congrFun (pay_3_3 c arg1 harg1 arg3 harg3 x0 x2 (by decide) (by decide)) x).trans
      (piece_value arg1 harg1 arg3 harg3 x0 x2 3 3 (by decide) (by decide) (by decide) (by decide) (by decide) x)
  · intro x
    exact (congrFun (pay_3_2 c arg1 harg1 arg3 harg3 x0 x2 (by decide) (by decide)) x).trans
      (piece_value arg1 harg1 arg3 harg3 x0 x2 3 2 (by decide) (by decide) (by decide) (by decide) (by decide) x)
  · intro x
    exact (congrFun (pay_3_1 c arg1 harg1 arg3 harg3 x0 x2 (by decide) (by decide)) x).trans
      (piece_value arg1 harg1 arg3 harg3 x0 x2 3 1 (by decide) (by decide) (by decide) (by decide) (by decide) x)
  · intro x
    exact (congrFun (pay_3_0 c arg1 harg1 arg3 harg3 x0 x2 (by decide) (by decide)) x).trans
      (piece_value arg1 harg1 arg3 harg3 x0 x2 3 0 (by decide) (by decide) (by decide) (by decide) (by decide) x)
  · intro x
    exact (congrFun (pay_2_3 c arg1 harg1 arg3 harg3 x0 x2 (by decide) (by decide)) x).trans
      (piece_value arg1 harg1 arg3 harg3 x0 x2 2 3 (by decide) (by decide) (by decide) (by decide) (by decide) x)
  · intro x
    exact (congrFun (pay_2_2 c arg1 harg1 arg3 harg3 x0 x2 (by decide) (by decide)) x).trans
      (piece_value arg1 harg1 arg3 harg3 x0 x2 2 2 (by decide) (by decide) (by decide) (by decide) (by decide) x)
  · intro x
    exact (congrFun (pay_2_1 c arg1 harg1 arg3 harg3 x0 x2 (by decide) (by decide)) x).trans
      (piece_value arg1 harg1 arg3 harg3 x0 x2 2 1 (by decide) (by decide) (by decide) (by decide) (by decide) x)
  · intro x
    exact (congrFun (pay_2_0 c arg1 harg1 arg3 harg3 x0 x2 (by decide) (by decide)) x).trans
      (piece_value arg1 harg1 arg3 harg3 x0 x2 2 0 (by decide) (by decide) (by decide) (by decide) (by decide) x)
  · intro x
    exact (congrFun (pay_1_3 c arg1 harg1 arg3 harg3 x0 x2 (by decide) (by decide)) x).trans
      (piece_value arg1 harg1 arg3 harg3 x0 x2 1 3 (by decide) (by decide) (by decide) (by decide) (by decide) x)
  · intro x
    exact (congrFun (pay_1_2 c arg1 harg1 arg3 harg3 x0 x2 (by decide) (by decide)) x).trans
      (piece_value arg1 harg1 arg3 harg3 x0 x2 1 2 (by decide) (by decide) (by decide) (by decide) (by decide) x)
  · intro x
    exact (congrFun (pay_1_1 c arg1 harg1 arg3 harg3 x0 x2 (by decide) (by decide)) x).trans
      (piece_value arg1 harg1 arg3 harg3 x0 x2 1 1 (by decide) (by decide) (by decide) (by decide) (by decide) x)
  · intro x
    exact (congrFun (pay_1_0 c arg1 harg1 arg3 harg3 x0 x2 (by decide) (by decide)) x).trans
      (piece_value arg1 harg1 arg3 harg3 x0 x2 1 0 (by decide) (by decide) (by decide) (by decide) (by decide) x)
  · intro x
    exact (congrFun (pay_0_3 c arg1 harg1 arg3 harg3 x0 x2 (by decide) (by decide)) x).trans
      (piece_value arg1 harg1 arg3 harg3 x0 x2 0 3 (by decide) (by decide) (by decide) (by decide) (by decide) x)
  · intro x
    exact (congrFun (pay_0_2 c arg1 harg1 arg3 harg3 x0 x2 (by decide) (by decide)) x).trans
      (piece_value arg1 harg1 arg3 harg3 x0 x2 0 2 (by decide) (by decide) (by decide) (by decide) (by decide) x)
  · intro x
    exact (congrFun (pay_0_1 c arg1 harg1 arg3 harg3 x0 x2 (by decide) (by decide)) x).trans
      (piece_value arg1 harg1 arg3 harg3 x0 x2 0 1 (by decide) (by decide) (by decide) (by decide) (by decide) x)
  · intro x
    exact (congrFun (pay_0_0 c arg1 harg1 arg3 harg3 x0 x2 (by decide) (by decide)) x).trans
      (piece_value arg1 harg1 arg3 harg3 x0 x2 0 0 (by decide) (by decide) (by decide) (by decide) (by decide) x)

end Cert.KernelIdeal.Out4

end
-- ==== Proof.RefRun.lean ====
/-
  The run of the reference program. @main is a straight line of 97 host operations once its calls
  are read as their bodies (the norm routine twice, the masked select twice, the standard deviation, which calls the
  variance, which calls a guarded select). The line is cut into four stretches: the two stacks normalised and their
  two similarity tables; the mask and the first table's masked mean and spread with the second table's mean; the second
  table's spread and the means' difference; the final quotient. Each stretch's fold is read at the few buffers the next
  one takes over, and the four equations in a row give the result buffer as the shared definitions' composition
  `separability (hostSim (normalize a) (normalize a)) (hostSim (normalize b) (normalize a))` of the argument stacks
  `a`, `b`, the arguments themselves unchanged.
-/
import proofs.«136283_j24739011625309_1_alg».proof.Proof.Gen.ReferenceIdeal
import proofs.«136283_j24739011625309_1_alg».proof.Proof.Shared
import Idealize.ShloMosaic.Lib.StableHlo.Run
import Idealize.ShloMosaic.Lib.Pipeline.Frame

noncomputable section

namespace Cert.ReferenceIdeal.HandRun

open Idealize.ShloMosaic Idealize.SL.Sem Cert.ReferenceIdeal
open Cert.ReferenceIdeal.Facts₀ Idealize.ShloMosaic.StableHlo Idealize.ShloMosaic.TcCoe

/-! ## The line, in four stretches -/

section Lines

variable {F : FTy → Type} [FloatOps F]

/-- The first stretch, 38 operations: each argument stack normalised (the norm routine's five operations inline over its call's buffers, then the small constant added and the quotient), then the two similarity tables (contraction, transpose, maximum, sum, quotient by 256). -/
abbrev opsA : List (HloOp τ sig (Elt F)) :=
  [ TRef.binary (.of main_arg0 : TRef sig ⟨S64x256x64, .f32⟩) (.of main_arg0 : TRef sig ⟨S64x256x64, .f32⟩) main_call0.v0 mulf,
    TRef.nullary main_call0.cst (constant S_ .f32 0x00000000#32),
    TRef.binary main_call0.v0 main_call0.cst main_call0.v1 (fun x v => Host.reduceAdd x v reducesTo_S64x256x64_S64x256_d2 h_S_),
    TRef.unary main_call0.v1 main_call0.v2 (broadcastInDim S64x256x1 ![0, 1] bcast_S64x256_S64x256x1_0_1),
    TRef.unary main_call0.v2 main_call0.v3 Host.sqrt,
    nullary main_cst (constant S_ .f32 0x322BCC77#32),
    unary main_cst main_v1 (broadcastInDim S64x256x1 ![] bcast_S_S64x256x1 : (⟨S_, .f32⟩ : BufTy).Contents (Elt F) → (⟨S64x256x1, .f32⟩ : BufTy).Contents (Elt F)),
    binary main_v0 main_v1 main_v2 (addf : (⟨S64x256x1, .f32⟩ : BufTy).Contents (Elt F) → (⟨S64x256x1, .f32⟩ : BufTy).Contents (Elt F) → (⟨S64x256x1, .f32⟩ : BufTy).Contents (Elt F)),
    unary main_v2 main_v3 (broadcastInDim S64x256x64 ![0, 1, 2] bcast_S64x256x1_S64x256x64_0_1_2 : (⟨S64x256x1, .f32⟩ : BufTy).Contents (Elt F) → (⟨S64x256x64, .f32⟩ : BufTy).Contents (Elt F)),
    binary main_arg0 main_v3 main_v4 (Host.divf : (⟨S64x256x64, .f32⟩ : BufTy).Contents (Elt F) → (⟨S64x256x64, .f32⟩ : BufTy).Contents (Elt F) → (⟨S64x256x64, .f32⟩ : BufTy).Contents (Elt F)),
    TRef.binary (.of main_arg1 : TRef sig ⟨S64x256x64, .f32⟩) (.of main_arg1 : TRef sig ⟨S64x256x64, .f32⟩) main_call1.v0 mulf,
    TRef.nullary main_call1.cst (constant S_ .f32 0x00000000#32),
    TRef.binary main_call1.v0 main_call1.cst main_call1.v1 (fun x v => Host.reduceAdd x v reducesTo_S64x256x64_S64x256_d2 h_S_),
    TRef.unary main_call1.v1 main_call1.v2 (broadcastInDim S64x256x1 ![0, 1] bcast_S64x256_S64x256x1_0_1),
    TRef.unary main_call1.v2 main_call1.v3 Host.sqrt,
    nullary main_cst_0 (constant S_ .f32 0x322BCC77#32),
    unary main_cst_0 main_v6 (broadcastInDim S64x256x1 ![] bcast_S_S64x256x1 : (⟨S_, .f32⟩ : BufTy).Contents (Elt F) → (⟨S64x256x1, .f32⟩ : BufTy).Contents (Elt F)),
    binary main_v5 main_v6 main_v7 (addf : (⟨S64x256x1, .f32⟩ : BufTy).Contents (Elt F) → (⟨S64x256x1, .f32⟩ : BufTy).Contents (Elt F) → (⟨S64x256x1, .f32⟩ : BufTy).Contents (Elt F)),
    unary main_v7 main_v8 (broadcastInDim S64x256x64 ![0, 1, 2] bcast_S64x256x1_S64x256x64_0_1_2 : (⟨S64x256x1, .f32⟩ : BufTy).Contents (Elt F) → (⟨S64x256x64, .f32⟩ : BufTy).Contents (Elt F)),
    binary main_arg1 main_v8 main_v9 (Host.divf : (⟨S64x256x64, .f32⟩ : BufTy).Contents (Elt F) → (⟨S64x256x64, .f32⟩ : BufTy).Contents (Elt F) → (⟨S64x256x64, .f32⟩ : BufTy).Contents (Elt F)),
    binary main_v4 main_v4 main_v10 ((fun l r => Host.dotGeneral dot_S64x256x64_S64x256x64_S64x256x64x256_2_2_01_01_n_n none l r) : (⟨S64x256x64, .f32⟩ : BufTy).Contents (Elt F) → (⟨S64x256x64, .f32⟩ : BufTy).Contents (Elt F) → (⟨S64x256x64x256, .f32⟩ : BufTy).Contents (Elt F)),
    unary main_v10 main_v11 ((transpose S64x64x256x256 [2, 0, 3, 1] · transposes_S64x256x64x256_S64x64x256x256_2_0_3_1) : (⟨S64x256x64x256, .f32⟩ : BufTy).Contents (Elt F) → (⟨S64x64x256x256, .f32⟩ : BufTy).Contents (Elt F)),
    nullary main_cst_1 (constant S_ .f32 0xFF800000#32),
    binary main_v11 main_cst_1 main_v12 ((fun x v => Host.reduce FloatOps.maximumf x v reducesTo_S64x64x256x256_S64x64x256_d3 h_S_) : (⟨S64x64x256x256, .f32⟩ : BufTy).Contents (Elt F) → (⟨S_, .f32⟩ : BufTy).Contents (Elt F) → (⟨S64x64x256, .f32⟩ : BufTy).Contents (Elt F)),
    nullary main_cst_2 (constant S_ .f32 0x00000000#32),
    binary main_v12 main_cst_2 main_v13 ((fun x v => Host.reduceAdd x v reducesTo_S64x64x256_S64x64_d2 h_S_) : (⟨S64x64x256, .f32⟩ : BufTy).Contents (Elt F) → (⟨S_, .f32⟩ : BufTy).Contents (Elt F) → (⟨S64x64, .f32⟩ : BufTy).Contents (Elt F)),
    nullary main_cst_3 (constant S_ .f32 0x43800000#32),
    unary main_cst_3 main_v14 (broadcastInDim S64x64 ![] bcast_S_S64x64 : (⟨S_, .f32⟩ : BufTy).Contents (Elt F) → (⟨S64x64, .f32⟩ : BufTy).Contents (Elt F)),
    binary main_v13 main_v14 main_v15 (Host.divf : (⟨S64x64, .f32⟩ : BufTy).Contents (Elt F) → (⟨S64x64, .f32⟩ : BufTy).Contents (Elt F) → (⟨S64x64, .f32⟩ : BufTy).Contents (Elt F)),
    binary main_v9 main_v4 main_v16 ((fun l r => Host.dotGeneral dot_S64x256x64_S64x256x64_S64x256x64x256_2_2_01_01_n_n none l r) : (⟨S64x256x64, .f32⟩ : BufTy).Contents (Elt F) → (⟨S64x256x64, .f32⟩ : BufTy).Contents (Elt F) → (⟨S64x256x64x256, .f32⟩ : BufTy).Contents (Elt F)),
    unary main_v16 main_v17 ((transpose S64x64x256x256 [2, 0, 3, 1] · transposes_S64x256x64x256_S64x64x256x256_2_0_3_1) : (⟨S64x256x64x256, .f32⟩ : BufTy).Contents (Elt F) → (⟨S64x64x256x256, .f32⟩ : BufTy).Contents (Elt F)),
    nullary main_cst_4 (constant S_ .f32 0xFF800000#32),
    binary main_v17 main_cst_4 main_v18 ((fun x v => Host.reduce FloatOps.maximumf x v reducesTo_S64x64x256x256_S64x64x256_d3 h_S_) : (⟨S64x64x256x256, .f32⟩ : BufTy).Contents (Elt F) → (⟨S_, .f32⟩ : BufTy).Contents (Elt F) → (⟨S64x64x256, .f32⟩ : BufTy).Contents (Elt F)),
    nullary main_cst_5 (constant S_ .f32 0x00000000#32),
    binary main_v18 main_cst_5 main_v19 ((fun x v => Host.reduceAdd x v reducesTo_S64x64x256_S64x64_d2 h_S_) : (⟨S64x64x256, .f32⟩ : BufTy).Contents (Elt F) → (⟨S_, .f32⟩ : BufTy).Contents (Elt F) → (⟨S64x64, .f32⟩ : BufTy).Contents (Elt F)),
    nullary main_cst_6 (constant S_ .f32 0x43800000#32),
    unary main_cst_6 main_v20 (broadcastInDim S64x64 ![] bcast_S_S64x64 : (⟨S_, .f32⟩ : BufTy).Contents (Elt F) → (⟨S64x64, .f32⟩ : BufTy).Contents (Elt F)),
    binary main_v19 main_v20 main_v21 (Host.divf : (⟨S64x64, .f32⟩ : BufTy).Contents (Elt F) → (⟨S64x64, .f32⟩ : BufTy).Contents (Elt F) → (⟨S64x64, .f32⟩ : BufTy).Contents (Elt F)) ]

/-- The second stretch, 31 operations: the off-diagonal mask, the first table's masked mean (the select routine's three operations inline), its masked spread, and the second table's mean. -/
abbrev opsB : List (HloOp τ sig (Elt F)) :=
  [ nullary main_v22 (iotaInDim S64x64 32 0),
    nullary main_v23 (iotaInDim S64x64 32 1),
    nullary main_c (constantI S_ 32 0#32),
    unary main_c main_v24 (broadcastInDim S64x64 ![] bcast_S_S64x64 : (⟨S_, .i32⟩ : BufTy).Contents (Elt F) → (⟨S64x64, .i32⟩ : BufTy).Contents (Elt F)),
    binary main_v22 main_v24 main_v25 (addi : (⟨S64x64, .i32⟩ : BufTy).Contents (Elt F) → (⟨S64x64, .i32⟩ : BufTy).Contents (Elt F) → (⟨S64x64, .i32⟩ : BufTy).Contents (Elt F)),
    binary main_v25 main_v23 main_v26 (cmpi .eq : (⟨S64x64, .i32⟩ : BufTy).Contents (Elt F) → (⟨S64x64, .i32⟩ : BufTy).Contents (Elt F) → (⟨S64x64, .i1⟩ : BufTy).Contents (Elt F)),
    unary main_v26 main_v27 (noti : (⟨S64x64, .i1⟩ : BufTy).Contents (Elt F) → (⟨S64x64, .i1⟩ : BufTy).Contents (Elt F)),
    nullary main_cst_7 (constant S_ .f32 0x00000000#32),
    TRef.unary (.of main_cst_7 : TRef sig ⟨S_, .f32⟩) main_call2.v0 id,
    TRef.unary main_call2.v0 main_call2.v1 (broadcastInDim S64x64 ![] bcast_S_S64x64),
    TRef.ternary (.of main_v27 : TRef sig ⟨S64x64, .i1⟩) (.of main_v15 : TRef sig ⟨S64x64, .f32⟩) main_call2.v1 main_call2.v2 select,
    nullary main_cst_8 (constant S_ .f32 0x00000000#32),
    binary main_v28 main_cst_8 main_v29 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_9 (constant S_ .f32 0x457C0000#32),
    binary main_v29 main_cst_9 main_v30 (Host.divf : (⟨S_, .f32⟩ : BufTy).Contents (Elt F) → (⟨S_, .f32⟩ : BufTy).Contents (Elt F) → (⟨S_, .f32⟩ : BufTy).Contents (Elt F)),
    unary main_v30 main_v31 (broadcastInDim S64x64 ![] bcast_S_S64x64 : (⟨S_, .f32⟩ : BufTy).Contents (Elt F) → (⟨S64x64, .f32⟩ : BufTy).Contents (Elt F)),
    binary main_v15 main_v31 main_v32 (subf : (⟨S64x64, .f32⟩ : BufTy).Contents (Elt F) → (⟨S64x64, .f32⟩ : BufTy).Contents (Elt F) → (⟨S64x64, .f32⟩ : BufTy).Contents (Elt F)),
    binary main_v32 main_v32 main_v33 (mulf : (⟨S64x64, .f32⟩ : BufTy).Contents (Elt F) → (⟨S64x64, .f32⟩ : BufTy).Contents (Elt F) → (⟨S64x64, .f32⟩ : BufTy).Contents (Elt F)),
    nullary main_cst_10 (constant S_ .f32 0x00000000#32),
    TRef.unary (.of main_cst_10 : TRef sig ⟨S_, .f32⟩) main_call3.v0 id,
    TRef.unary main_call3.v0 main_call3.v1 (broadcastInDim S64x64 ![] bcast_S_S64x64),
    TRef.ternary (.of main_v27 : TRef sig ⟨S64x64, .i1⟩) (.of main_v33 : TRef sig ⟨S64x64, .f32⟩) main_call3.v1 main_call3.v2 select,
    nullary main_cst_11 (constant S_ .f32 0x00000000#32),
    binary main_v34 main_cst_11 main_v35 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_12 (constant S_ .f32 0x457BF000#32),
    binary main_v35 main_cst_12 main_v36 (Host.divf : (⟨S_, .f32⟩ : BufTy).Contents (Elt F) → (⟨S_, .f32⟩ : BufTy).Contents (Elt F) → (⟨S_, .f32⟩ : BufTy).Contents (Elt F)),
    unary main_v36 main_v37 (Host.sqrt : (⟨S_, .f32⟩ : BufTy).Contents (Elt F) → (⟨S_, .f32⟩ : BufTy).Contents (Elt F)),
    nullary main_cst_13 (constant S_ .f32 0x00000000#32),
    binary main_v21 main_cst_13 main_v38 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_14 (constant S_ .f32 0x45800000#32),
    binary main_v38 main_cst_14 main_v39 (Host.divf : (⟨S_, .f32⟩ : BufTy).Contents (Elt F) → (⟨S_, .f32⟩ : BufTy).Contents (Elt F) → (⟨S_, .f32⟩ : BufTy).Contents (Elt F)) ]

/-- The third stretch, 23 operations: the count one, the variance routine's eighteen operations and its guarded select's two inline, the root, and the difference of the two means. -/
abbrev opsC : List (HloOp τ sig (Elt F)) :=
  [ nullary main_c_15 (constantI S_ 32 1#32),
    TRef.nullary main_call4.call0.cst (constant S_ .f32 0x00000000#32),
    TRef.binary (.of main_v21 : TRef sig ⟨S64x64, .f32⟩) main_call4.call0.cst main_call4.call0.v0 (fun x v => Host.reduceAdd x v reducesTo_S64x64_S_d0_1 h_S_),
    TRef.unary main_call4.call0.v0 main_call4.call0.v1 (broadcastInDim S1x1 ![] bcast_S_S1x1),
    TRef.nullary main_call4.call0.cst_0 (constant S_ .f32 0x45800000#32),
    TRef.unary main_call4.call0.cst_0 main_call4.call0.v2 (broadcastInDim S1x1 ![] bcast_S_S1x1),
    TRef.binary main_call4.call0.v1 main_call4.call0.v2 main_call4.call0.v3 Host.divf,
    TRef.unary main_call4.call0.v3 main_call4.call0.v4 (broadcastInDim S64x64 ![0, 1] bcast_S1x1_S64x64_0_1),
    TRef.binary (.of main_v21 : TRef sig ⟨S64x64, .f32⟩) main_call4.call0.v4 main_call4.call0.v5 subf,
    TRef.binary main_call4.call0.v5 main_call4.call0.v5 main_call4.call0.v6 mulf,
    TRef.unary (.of main_c_15 : TRef sig ⟨S_, .i32⟩) main_call4.call0.v7 (sitofp .f32),
    TRef.nullary main_call4.call0.cst_1 (constant S_ .f32 0x45800000#32),
    TRef.binary main_call4.call0.cst_1 main_call4.call0.v7 main_call4.call0.v8 subf,
    TRef.nullary main_call4.call0.cst_2 (constant S_ .f32 0x00000000#32),
    TRef.binary main_call4.call0.v6 main_call4.call0.cst_2 main_call4.call0.v9 (fun x v => Host.reduceAdd x v reducesTo_S64x64_S_d0_1 h_S_),
    TRef.binary main_call4.call0.v9 main_call4.call0.v8 main_call4.call0.v10 Host.divf,
    TRef.nullary main_call4.call0.cst_3 (constant S_ .f32 0x00000000#32),
    TRef.binary main_call4.call0.v8 main_call4.call0.cst_3 main_call4.call0.v11 (cmpf .ogt),
    TRef.nullary main_call4.call0.cst_4 (constant S_ .f32 0x7FC00000#32),
    TRef.unary main_call4.call0.cst_4 main_call4.call0.call0.v0 id,
    TRef.ternary main_call4.call0.v11 main_call4.call0.v10 main_call4.call0.call0.v0 main_call4.call0.call0.v1 select,
    TRef.unary main_call4.call0.call0.v1 main_call4.v1 Host.sqrt,
    binary main_v30 main_v39 main_v41 (subf : (⟨S_, .f32⟩ : BufTy).Contents (Elt F) → (⟨S_, .f32⟩ : BufTy).Contents (Elt F) → (⟨S_, .f32⟩ : BufTy).Contents (Elt F)) ]

/-- The last stretch, 5 operations: the two spreads and the small constant added, the quotient, the negation. -/
abbrev opsD : List (HloOp τ sig (Elt F)) :=
  [ binary main_v37 main_v40 main_v42 (addf : (⟨S_, .f32⟩ : BufTy).Contents (Elt F) → (⟨S_, .f32⟩ : BufTy).Contents (Elt F) → (⟨S_, .f32⟩ : BufTy).Contents (Elt F)),
    nullary main_cst_16 (constant S_ .f32 0x322BCC77#32),
    binary main_v42 main_cst_16 main_v43 (addf : (⟨S_, .f32⟩ : BufTy).Contents (Elt F) → (⟨S_, .f32⟩ : BufTy).Contents (Elt F) → (⟨S_, .f32⟩ : BufTy).Contents (Elt F)),
    binary main_v41 main_v43 main_v44 (Host.divf : (⟨S_, .f32⟩ : BufTy).Contents (Elt F) → (⟨S_, .f32⟩ : BufTy).Contents (Elt F) → (⟨S_, .f32⟩ : BufTy).Contents (Elt F)),
    unary main_v44 main_v45 (Host.negf : (⟨S_, .f32⟩ : BufTy).Contents (Elt F) → (⟨S_, .f32⟩ : BufTy).Contents (Elt F)) ]

/-- The whole line: 97 operations. -/
abbrev ops : List (HloOp τ sig (Elt F)) := opsA ++ (opsB ++ (opsC ++ opsD))

end Lines

/-! ## The three functions the line is made of, at any float values

The same compositions as the shared definitions (a stack normalised, the similarity table of two stacks, the number
returned from two tables), stated for an arbitrary family of float values: the fold of the line is computed against
these, where no arithmetic of a particular family is ever opened, and at the ideal values each is the shared
definition by unfolding. -/

section Generic

variable {F : FTy → Type} [FloatOps F]

/-- Each patch divided by its norm plus the small constant. -/
def normalizeF (x : FVec F S64x256x64 .f32) : FVec F S64x256x64 .f32 :=
  Host.divf x
    (broadcastInDim S64x256x64 ![0, 1, 2] bcast_S64x256x1_S64x256x64_0_1_2
      (addf
        (Host.sqrt (broadcastInDim S64x256x1 ![0, 1] bcast_S64x256_S64x256x1_0_1
          (Host.reduceAdd (mulf x x) (constant S_ .f32 0x00000000#32) reducesTo_S64x256x64_S64x256_d2 h_S_)))
        (broadcastInDim S64x256x1 ![] bcast_S_S64x256x1 (constant S_ .f32 0x322BCC77#32))))

/-- The patch similarity of two stacks: contraction, transpose, maximum, sum, quotient by 256. -/
def hostSimF (l r : FVec F S64x256x64 .f32) : FVec F S64x64 .f32 :=
  Host.divf
    (Host.reduceAdd
      (Host.reduce FloatOps.maximumf
        (transpose S64x64x256x256 [2, 0, 3, 1]
          (Host.dotGeneral dot_S64x256x64_S64x256x64_S64x256x64x256_2_2_01_01_n_n none l r)
          transposes_S64x256x64x256_S64x64x256x256_2_0_3_1)
        (constant S_ .f32 0xFF800000#32) reducesTo_S64x64x256x256_S64x64x256_d3 h_S_)
      (constant S_ .f32 0x00000000#32) reducesTo_S64x64x256_S64x64_d2 h_S_)
    (broadcastInDim S64x64 ![] bcast_S_S64x64 (constant S_ .f32 0x43800000#32))

/-- A table with its diagonal zeroed. -/
def maskOffF (x : FVec F S64x64 .f32) : FVec F S64x64 .f32 :=
  select Cert.Shared.offDiag x (broadcastInDim S64x64 ![] bcast_S_S64x64 (id (constant S_ .f32 0x00000000#32)))

/-- The mean of a table off its diagonal. -/
def muOffF (nn : FVec F S64x64 .f32) : FVec F S_ .f32 :=
  Host.divf (Host.reduceAdd (maskOffF nn) (constant S_ .f32 0x00000000#32) reducesTo_S64x64_S_d0_1 h_S_) (constant S_ .f32 0x457C0000#32)

/-- The spread of a table off its diagonal. -/
def sigmaOffF (nn : FVec F S64x64 .f32) : FVec F S_ .f32 :=
  Host.sqrt (Host.divf
    (Host.reduceAdd
      (maskOffF (mulf (subf nn (broadcastInDim S64x64 ![] bcast_S_S64x64 (muOffF nn)))
                      (subf nn (broadcastInDim S64x64 ![] bcast_S_S64x64 (muOffF nn)))))
      (constant S_ .f32 0x00000000#32) reducesTo_S64x64_S_d0_1 h_S_)
    (constant S_ .f32 0x457BF000#32))

/-- The mean of a whole table. -/
def muAllF (nd : FVec F S64x64 .f32) : FVec F S_ .f32 :=
  Host.divf (Host.reduceAdd nd (constant S_ .f32 0x00000000#32) reducesTo_S64x64_S_d0_1 h_S_) (constant S_ .f32 0x45800000#32)

/-- A table's deviations from its mean, as the variance routine forms them. -/
def devAllF (nd : FVec F S64x64 .f32) : FVec F S64x64 .f32 :=
  subf nd (broadcastInDim S64x64 ![0, 1] bcast_S1x1_S64x64_0_1
    (Host.divf
      (broadcastInDim S1x1 ![] bcast_S_S1x1 (Host.reduceAdd nd (constant S_ .f32 0x00000000#32) reducesTo_S64x64_S_d0_1 h_S_))
      (broadcastInDim S1x1 ![] bcast_S_S1x1 (constant S_ .f32 0x45800000#32))))

/-- The count the variance divides by. -/
def dofAllF : FVec F S_ .f32 :=
  subf (constant S_ .f32 0x45800000#32) (sitofp .f32 (constantI S_ 32 1#32))

/-- The spread of a whole table: root of the guarded quotient. -/
def sigmaAllF (nd : FVec F S64x64 .f32) : FVec F S_ .f32 :=
  Host.sqrt (select (cmpf .ogt (dofAllF (F := F)) (constant S_ .f32 0x00000000#32))
    (Host.divf (Host.reduceAdd (mulf (devAllF nd) (devAllF nd)) (constant S_ .f32 0x00000000#32) reducesTo_S64x64_S_d0_1 h_S_) dofAllF)
    (id (constant S_ .f32 0x7FC00000#32)))

/-- From the two tables to the number returned. -/
def separabilityF (nn nd : FVec F S64x64 .f32) : FVec F S_ .f32 :=
  Host.negf (Host.divf (subf (muOffF nn) (muAllF nd))
    (addf (addf (sigmaOffF nn) (sigmaAllF nd)) (constant S_ .f32 0x322BCC77#32)))

end Generic

theorem normalizeF_ideal : normalizeF (F := Ideal) = Cert.Shared.normalize := rfl
theorem hostSimF_ideal : hostSimF (F := Ideal) = Cert.Shared.hostSim := rfl
theorem separabilityF_ideal : separabilityF (F := Ideal) = Cert.Shared.separability := rfl

/-! ## What each stretch leaves

Each equation is the fold unrolled and read at one buffer: every operation's result decides whether the buffer read
is the one it writes, and the typed references' casts are the identity at these literal references — all of it by
computation. The reductions, the transpose and the broadcasts stay folded meanwhile. -/

section Values

variable {F : FTy → Type} [FloatOps F]

attribute [local irreducible] Host.reduce Host.reduceAdd transpose broadcastInDim in
/-- The first stretch leaves the similarity table of the first stack with itself -/
theorem afterA_v15 (V : Valuation τ sig (Elt F)) :
    after (opsA (F := F)) V (main_v15 : DevRef τ sig) = hostSimF (normalizeF (V (main_arg0 : DevRef τ sig))) (normalizeF (V (main_arg0 : DevRef τ sig))) := by
  simp only [after_cons, after_nil]
  rfl

attribute [local irreducible] Host.reduce Host.reduceAdd transpose broadcastInDim in
/-- and of the second stack with the first; the arguments it leaves as they were. -/
theorem afterA_v21 (V : Valuation τ sig (Elt F)) :
    after (opsA (F := F)) V (main_v21 : DevRef τ sig) = hostSimF (normalizeF (V (main_arg1 : DevRef τ sig))) (normalizeF (V (main_arg0 : DevRef τ sig))) := by
  simp only [after_cons, after_nil]
  rfl

attribute [local irreducible] Host.reduce Host.reduceAdd transpose broadcastInDim in
theorem afterA_arg0 (V : Valuation τ sig (Elt F)) :
    after (opsA (F := F)) V (main_arg0 : DevRef τ sig) = V (main_arg0 : DevRef τ sig) := by
  simp only [after_cons, after_nil]
  rfl

attribute [local irreducible] Host.reduce Host.reduceAdd transpose broadcastInDim in
theorem afterA_arg1 (V : Valuation τ sig (Elt F)) :
    after (opsA (F := F)) V (main_arg1 : DevRef τ sig) = V (main_arg1 : DevRef τ sig) := by
  simp only [after_cons, after_nil]
  rfl

attribute [local irreducible] Host.reduce Host.reduceAdd transpose broadcastInDim in
/-- The second stretch leaves the first table's masked mean, -/
theorem afterB_v30 (W : Valuation τ sig (Elt F)) :
    after (opsB (F := F)) W (main_v30 : DevRef τ sig) = muOffF (W (main_v15 : DevRef τ sig)) := by
  simp only [after_cons, after_nil]
  rfl

attribute [local irreducible] Host.reduce Host.reduceAdd transpose broadcastInDim in
/-- its masked spread, -/
theorem afterB_v37 (W : Valuation τ sig (Elt F)) :
    after (opsB (F := F)) W (main_v37 : DevRef τ sig) = sigmaOffF (W (main_v15 : DevRef τ sig)) := by
  simp only [after_cons, after_nil]
  rfl

attribute [local irreducible] Host.reduce Host.reduceAdd transpose broadcastInDim in
/-- and the second table's mean; the second table and the arguments it leaves as they were. -/
theorem afterB_v39 (W : Valuation τ sig (Elt F)) :
    after (opsB (F := F)) W (main_v39 : DevRef τ sig) = muAllF (W (main_v21 : DevRef τ sig)) := by
  simp only [after_cons, after_nil]
  rfl

attribute [local irreducible] Host.reduce Host.reduceAdd transpose broadcastInDim in
theorem afterB_v21 (W : Valuation τ sig (Elt F)) :
    after (opsB (F := F)) W (main_v21 : DevRef τ sig) = W (main_v21 : DevRef τ sig) := by
  simp only [after_cons, after_nil]
  rfl

attribute [local irreducible] Host.reduce Host.reduceAdd transpose broadcastInDim in
theorem afterB_arg0 (W : Valuation τ sig (Elt F)) :
    after (opsB (F := F)) W (main_arg0 : DevRef τ sig) = W (main_arg0 : DevRef τ sig) := by
  simp only [after_cons, after_nil]
  rfl

attribute [local irreducible] Host.reduce Host.reduceAdd transpose broadcastInDim in
theorem afterB_arg1 (W : Valuation τ sig (Elt F)) :
    after (opsB (F := F)) W (main_arg1 : DevRef τ sig) = W (main_arg1 : DevRef τ sig) := by
  simp only [after_cons, after_nil]
  rfl

attribute [local irreducible] Host.reduce Host.reduceAdd transpose broadcastInDim in
/-- The third stretch leaves the second table's spread -/
theorem afterC_v40 (X : Valuation τ sig (Elt F)) :
    after (opsC (F := F)) X (main_v40 : DevRef τ sig) = sigmaAllF (X (main_v21 : DevRef τ sig)) := by
  simp only [after_cons, after_nil]
  rfl

attribute [local irreducible] Host.reduce Host.reduceAdd transpose broadcastInDim in
/-- and the difference of the two means; the first table's spread and the arguments it leaves as they were. -/
theorem afterC_v41 (X : Valuation τ sig (Elt F)) :
    after (opsC (F := F)) X (main_v41 : DevRef τ sig) = (subf (X (main_v30 : DevRef τ sig) : FVec F S_ .f32) (X (main_v39 : DevRef τ sig)) : FVec F S_ .f32) := by
  simp only [after_cons, after_nil]
  rfl

attribute [local irreducible] Host.reduce Host.reduceAdd transpose broadcastInDim in
theorem afterC_v37 (X : Valuation τ sig (Elt F)) :
    after (opsC (F := F)) X (main_v37 : DevRef τ sig) = X (main_v37 : DevRef τ sig) := by
  simp only [after_cons, after_nil]
  rfl

attribute [local irreducible] Host.reduce Host.reduceAdd transpose broadcastInDim in
theorem afterC_arg0 (X : Valuation τ sig (Elt F)) :
    after (opsC (F := F)) X (main_arg0 : DevRef τ sig) = X (main_arg0 : DevRef τ sig) := by
  simp only [after_cons, after_nil]
  rfl

attribute [local irreducible] Host.reduce Host.reduceAdd transpose broadcastInDim in
theorem afterC_arg1 (X : Valuation τ sig (Elt F)) :
    after (opsC (F := F)) X (main_arg1 : DevRef τ sig) = X (main_arg1 : DevRef τ sig) := by
  simp only [after_cons, after_nil]
  rfl

attribute [local irreducible] Host.reduce Host.reduceAdd transpose broadcastInDim in
/-- The last stretch returns the difference over the spreads' sum plus the small constant, negated; the arguments it leaves as they were. -/
theorem afterD_v45 (Y : Valuation τ sig (Elt F)) :
    after (opsD (F := F)) Y (main_v45 : DevRef τ sig) = Host.negf (Host.divf (Y (main_v41 : DevRef τ sig) : FVec F S_ .f32)
          (addf (addf (Y (main_v37 : DevRef τ sig) : FVec F S_ .f32) (Y (main_v40 : DevRef τ sig))) (constant S_ .f32 0x322BCC77#32))) := by
  simp only [after_cons, after_nil]
  rfl

attribute [local irreducible] Host.reduce Host.reduceAdd transpose broadcastInDim in
theorem afterD_arg0 (Y : Valuation τ sig (Elt F)) :
    after (opsD (F := F)) Y (main_arg0 : DevRef τ sig) = Y (main_arg0 : DevRef τ sig) := by
  simp only [after_cons, after_nil]
  rfl

attribute [local irreducible] Host.reduce Host.reduceAdd transpose broadcastInDim in
theorem afterD_arg1 (Y : Valuation τ sig (Elt F)) :
    after (opsD (F := F)) Y (main_arg1 : DevRef τ sig) = Y (main_arg1 : DevRef τ sig) := by
  simp only [after_cons, after_nil]
  rfl

/-- The whole line leaves, at the result buffer, the number returned from the two similarity tables of the normalised
    stacks: the four stretches' equations in a row. -/
theorem after_v45F (V : Valuation τ sig (Elt F)) :
    after (ops (F := F)) V (main_v45 : DevRef τ sig)
      = separabilityF (hostSimF (normalizeF (V (main_arg0 : DevRef τ sig))) (normalizeF (V (main_arg0 : DevRef τ sig))))
          (hostSimF (normalizeF (V (main_arg1 : DevRef τ sig))) (normalizeF (V (main_arg0 : DevRef τ sig)))) := by
  rw [show (ops : List (HloOp τ sig (Elt F))) = opsA ++ (opsB ++ (opsC ++ opsD)) from rfl,
    after_append, after_append, after_append,
    afterD_v45, afterC_v41, afterC_v37, afterC_v40, afterB_v30, afterB_v39, afterB_v37, afterB_v21, afterA_v15, afterA_v21]
  rfl

theorem after_arg0 (V : Valuation τ sig (Elt F)) : after (ops (F := F)) V (main_arg0 : DevRef τ sig) = V (main_arg0 : DevRef τ sig) := by
  rw [show (ops : List (HloOp τ sig (Elt F))) = opsA ++ (opsB ++ (opsC ++ opsD)) from rfl,
    after_append, after_append, after_append, afterD_arg0, afterC_arg0, afterB_arg0, afterA_arg0]

theorem after_arg1 (V : Valuation τ sig (Elt F)) : after (ops (F := F)) V (main_arg1 : DevRef τ sig) = V (main_arg1 : DevRef τ sig) := by
  rw [show (ops : List (HloOp τ sig (Elt F))) = opsA ++ (opsB ++ (opsC ++ opsD)) from rfl,
    after_append, after_append, after_append, afterD_arg1, afterC_arg1, afterB_arg1, afterA_arg1]

end Values

/-- At the ideal values the result is the shared definitions' composition. -/
theorem after_v45 (V : Valuation τ sig (Elt Ideal)) :
    after (ops (F := Ideal)) V (main_v45 : DevRef τ sig)
      = Cert.Shared.separability
          (Cert.Shared.hostSim (Cert.Shared.normalize (V (main_arg0 : DevRef τ sig))) (Cert.Shared.normalize (V (main_arg0 : DevRef τ sig))))
          (Cert.Shared.hostSim (Cert.Shared.normalize (V (main_arg1 : DevRef τ sig))) (Cert.Shared.normalize (V (main_arg0 : DevRef τ sig)))) := by
  rw [after_v45F, separabilityF_ideal, hostSimF_ideal, normalizeF_ideal]

/-! ## @main is that line -/

section Line

variable {F : FTy → Type} [FloatOps F]

set_option maxRecDepth 8192 in
set_option maxHeartbeats 4000000 in
/-- The first sixty statements are the first three stretches in a row: the routines' definitions unfolded at their
    calls and the records at their fields, both sides are one chain of steps once sequencing is reassociated. -/
theorem part0_eq (c : Dev nD) :
    main_part0 (F := F) c = (seq opsA >>= fun _ => seq opsB >>= fun _ => seq opsC) := by
  simp only [main_part0, fn_norm.body, fn_where.body, fn_where_0.body, fn_var.body, fn_std.body, seq, bind_assoc, pure_bind]
  rfl

/-- The last six statements are the last stretch. -/
theorem part1_eq (c : Dev nD) : main_part1 (F := F) c = seq opsD := rfl

/-- @main is the whole line. -/
theorem main_eq (c : Dev nD) : main (F := F) c = seq ops := by
  rw [show (ops : List (HloOp τ sig (Elt F))) = opsA ++ (opsB ++ (opsC ++ opsD)) from rfl, seq_append, seq_append, seq_append,
    ← part1_eq c]
  show (main_part0 c >>= fun _ => main_part1 c) = _
  rw [part0_eq]
  simp only [bind_assoc]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., nullary_bufs_sub .., unary_bufs_sub .., binary_bufs_sub .., binary_bufs_sub .., unary_bufs_sub .., nullary_bufs_sub .., binary_bufs_sub .., nullary_bufs_sub .., binary_bufs_sub .., nullary_bufs_sub .., unary_bufs_sub .., binary_bufs_sub ..⟩

theorem opsB_sub : (opsB : List (HloOp τ sig (Elt F))).Forall fun op => op.bufs ⊆ tcRefs τ sig :=
  ⟨nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., nullary_bufs_sub .., binary_bufs_sub .., nullary_bufs_sub .., binary_bufs_sub .., unary_bufs_sub .., binary_bufs_sub .., binary_bufs_sub .., nullary_bufs_sub .., unary_bufs_sub .., unary_bufs_sub .., ternary_bufs_sub .., nullary_bufs_sub .., binary_bufs_sub .., nullary_bufs_sub .., binary_bufs_sub .., unary_bufs_sub .., nullary_bufs_sub .., binary_bufs_sub .., nullary_bufs_sub .., binary_bufs_sub ..⟩

theorem opsC_sub : (opsC : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., unary_bufs_sub .., binary_bufs_sub ..⟩

theorem opsD_sub : (opsD : List (HloOp τ sig (Elt F))).Forall fun op => op.bufs ⊆ tcRefs τ sig :=
  ⟨binary_bufs_sub .., nullary_bufs_sub .., binary_bufs_sub .., binary_bufs_sub .., unary_bufs_sub ..⟩

/-- Every operation of the line touches TensorCore buffers only. -/
theorem ops_sub : (ops : List (HloOp τ sig (Elt F))).Forall fun op => op.bufs ⊆ tcRefs τ sig :=
  List.forall_iff_forall_mem.mpr fun op h => by
    rw [show (ops : List (HloOp τ sig (Elt F))) = opsA ++ (opsB ++ (opsC ++ opsD)) from rfl] at h
    simp only [List.mem_append] at h
    rcases h with h | h | h | h
    exacts [List.forall_iff_forall_mem.mp opsA_sub op h, List.forall_iff_forall_mem.mp opsB_sub op h,
      List.forall_iff_forall_mem.mp opsC_sub op h, List.forall_iff_forall_mem.mp opsD_sub op h]

theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

theorem opsD_fresh : (opsD : List (HloOp τ sig (Elt F))).Forall fun op => op.fresh = ∅ :=
  ⟨rfl, rfl, rfl, rfl, rfl⟩

/-- Every operation of the line determines its results. -/
theorem ops_fresh : ∀ op ∈ (ops : List (HloOp τ sig (Elt F))), op.fresh = ∅ := by
  intro op h
  rw [show (ops : List (HloOp τ sig (Elt F))) = opsA ++ (opsB ++ (opsC ++ opsD)) from rfl] at h
  simp only [List.mem_append] at h
  rcases h with h | h | h | h
  exacts [List.forall_iff_forall_mem.mp opsA_fresh op h, List.forall_iff_forall_mem.mp opsB_fresh op h,
    List.forall_iff_forall_mem.mp opsC_fresh op h, List.forall_iff_forall_mem.mp opsD_fresh op h]

end Line

/-- At the compiled mesh, from any memory with zero counters: every weakly fair execution of @main on the
    TensorCores terminates, the result buffer at the number the shared definitions return from the two similarity tables
    of the normalised argument stacks, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v45)
        = Cert.Shared.separability
            (Cert.Shared.hostSim (Cert.Shared.normalize (m ((c.tc : Thread nD τ).loc main_arg0))) (Cert.Shared.normalize (m ((c.tc : Thread nD τ).loc main_arg0))))
            (Cert.Shared.hostSim (Cert.Shared.normalize (m ((c.tc : Thread nD τ).loc main_arg1))) (Cert.Shared.normalize (m ((c.tc : Thread nD τ).loc main_arg0))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono
    (fun _ h c => ⟨(h c main_v45).trans (after_v45 _), (h c main_arg0).trans (after_arg0 _), (h c main_arg1).trans (after_arg1 _)⟩)
    (run_seq scopedRefs_eq scopedSems_eq defs main (fun _ => ops) main_eq (fun _ => ops_sub) m ρ (fun _ => ops_fresh))

end Cert.ReferenceIdeal.HandRun

end
-- ==== Proof.RefValue.lean ====
/-
  The host's patch similarity read index by index.

  The host forms, for every pair of images (m, n) and every pair of patches (q, p), the inner product over the
  64 entries of patch q of image m of the first stack with patch p of image n of the second: an array indexed
  [m, q, n, p]. It then brings the image axes first, [n, m, p, q], takes the maximum over q, adds over p, and
  divides by the literal 256. Each stage is read here at one index, over an arbitrary operand; composed, the
  entry (n, m) is the quotient by 256 of the sum over p of the largest over q of
  sum over k of l (m, q, k) * r (n, p, k), which is the specification's similarity of image n of r and image m of l
  once each product's two factors are exchanged.
-/
import proofs.«136283_j24739011625309_1_alg».proof.Proof.Gen.ReferenceIdeal
import proofs.«136283_j24739011625309_1_alg».proof.Proof.Shared
import proofs.«136283_j24739011625309_1_alg».proof.Proof.Spec
import Idealize.ShloMosaic.Lib.IdealHost
import Idealize.ShloMosaic.Lib.Pipeline.Value
import Idealize.ShloMosaic.PureOps.Reduce

noncomputable section

open scoped BigOperators

namespace Cert.RefValue

open Idealize.ShloMosaic Idealize.ShloMosaic.ValueIdx Cert.ReferenceIdeal Cert.ReferenceIdeal.Facts₀

section Stages

variable [Cert.ReferenceIdeal.Facts]

/-- A scalar bit pattern spread over the 64 × 64 table reads, everywhere, as that pattern's value. -/
theorem splat_apply (b : BitVec 32) (y : S64x64.Idx) :
    broadcastInDim S64x64 ![] bcast_S_S64x64 (constant (F := Ideal) S_ .f32 b) y = Ideal.ofBits .f32 b :=
  (broadcastInDim_scalar_apply bcast_S_S64x64 (constant (F := Ideal) S_ .f32 b) y).trans rfl

/-- The sum over the last axis from the pattern of zero: at (n, m) the sum over p of the operand at (n, m, p). -/
theorem sum_apply (Y : FVec Ideal S64x64x256 .f32) (n m : Fin 64) :
    Host.reduceAdd (F := Ideal) Y (constant (F := Ideal) S_ .f32 0x00000000#32) reducesTo_S64x64x256_S64x64_d2 h_S_ (ix2 n m)
      = ∑ p : Fin 256, Y (ix3 n m p) := by
  have h : S64x64x256.Reduces [2] S64x64 := by decide
  refine (hostReduceAdd_apply Y _ reducesTo_S64x64x256_S64x64_d2 h_S_ (ix2 n m)).trans ?_
  refine (Ideal.hostReduceAdd_single reducesTo_S64x64x256_S64x64_d2 h Y _ (ix2 n m)).trans ?_
  show Ideal.ofBits .f32 0x00000000#32 + ∑ p : Fin 256, Y (h.lift (ix2 n m) p) = _
  rw [Ideal.ofBits_zero_f32, zero_add]
  refine Finset.sum_congr rfl fun p _ => congrArg Y (funext fun a => ?_)
  match a with
  | ⟨0, _⟩ => exact Fin.ext rfl
  | ⟨1, _⟩ => exact Fin.ext rfl
  | ⟨2, _⟩ => exact Fin.ext rfl

/-- The maximum over the last axis from the pattern of minus infinity: at (n, m, p) the fold of `max`, from that
    pattern's value, over q of the operand at (n, m, p, q). -/
theorem max_apply (X : FVec Ideal S64x64x256x256 .f32) (n m : Fin 64) (p : Fin 256) :
    Host.reduce FloatOps.maximumf X (constant (F := Ideal) S_ .f32 0xFF800000#32) reducesTo_S64x64x256x256_S64x64x256_d3 h_S_
        (ix3 n m p)
      = (Finset.univ : Finset (Fin 256)).fold max Cert.Spec.negInf (fun q => X (ix4 n m p q)) := by
  have h : S64x64x256x256.Reduces [3] S64x64x256 := by decide
  refine (Host.reduce_eq_fold_single FloatOps.maximumf X _ reducesTo_S64x64x256x256_S64x64x256_d3 h h_S_ (ix3 n m p)).trans ?_
  show (Finset.univ : Finset (Fin 256)).fold max (Ideal.ofBits .f32 0xFF800000#32) (fun q => X (h.lift (ix3 n m p) q)) = _
  refine congrArg (fun f => (Finset.univ : Finset (Fin 256)).fold max Cert.Spec.negInf f)
    (funext fun q => congrArg X (funext fun a => ?_))
  match a with
  | ⟨0, _⟩ => exact Fin.ext rfl
  | ⟨1, _⟩ => exact Fin.ext rfl
  | ⟨2, _⟩ => exact Fin.ext rfl
  | ⟨3, _⟩ => exact Fin.ext rfl

/-- The transpose by [2, 0, 3, 1]: the result at (n, m, p, q) is the operand at (m, q, n, p). -/
theorem transpose_apply' (Z : FVec Ideal S64x256x64x256 .f32) (n m : Fin 64) (p q : Fin 256) :
    transpose S64x64x256x256 [2, 0, 3, 1] Z transposes_S64x256x64x256_S64x64x256x256_2_0_3_1 (ix4 n m p q)
      = Z (ix4 m q n p) :=
  transpose_apply [2, 0, 3, 1] Z transposes_S64x256x64x256_S64x64x256x256_2_0_3_1 (ix4 n m p q) (ix4 m q n p) fun b => by
    match b with
    | ⟨0, _⟩ => rfl
    | ⟨1, _⟩ => rfl
    | ⟨2, _⟩ => rfl
    | ⟨3, _⟩ => rfl

/-- The contraction's operand indices, axis by axis: the first operand keeps result axes 0 and 1, the second keeps
    result axes 2 and 3, and each reads the contraction position on its last axis. -/
theorem lhs0 (j : S64x256x64x256.Idx) (k : dot_S64x256x64_S64x256x64_S64x256x64x256_2_2_01_01_n_n.contr.Idx) :
    (dot_S64x256x64_S64x256x64_S64x256x64x256_2_2_01_01_n_n.lhsIdx j k 0).val = (j 0).val := rfl
theorem lhs1 (j : S64x256x64x256.Idx) (k : dot_S64x256x64_S64x256x64_S64x256x64x256_2_2_01_01_n_n.contr.Idx) :
    (dot_S64x256x64_S64x256x64_S64x256x64x256_2_2_01_01_n_n.lhsIdx j k 1).val = (j 1).val := rfl
theorem lhs2 (j : S64x256x64x256.Idx) (k : dot_S64x256x64_S64x256x64_S64x256x64x256_2_2_01_01_n_n.contr.Idx) :
    (dot_S64x256x64_S64x256x64_S64x256x64x256_2_2_01_01_n_n.lhsIdx j k 2).val = (k ⟨0, by decide⟩).val := rfl
theorem rhs0 (j : S64x256x64x256.Idx) (k : dot_S64x256x64_S64x256x64_S64x256x64x256_2_2_01_01_n_n.contr.Idx) :
    (dot_S64x256x64_S64x256x64_S64x256x64x256_2_2_01_01_n_n.rhsIdx j k 0).val = (j 2).val := rfl
theorem rhs1 (j : S64x256x64x256.Idx) (k : dot_S64x256x64_S64x256x64_S64x256x64x256_2_2_01_01_n_n.contr.Idx) :
    (dot_S64x256x64_S64x256x64_S64x256x64x256_2_2_01_01_n_n.rhsIdx j k 1).val = (j 3).val := rfl
theorem rhs2 (j : S64x256x64x256.Idx) (k : dot_S64x256x64_S64x256x64_S64x256x64x256_2_2_01_01_n_n.contr.Idx) :
    (dot_S64x256x64_S64x256x64_S64x256x64x256_2_2_01_01_n_n.rhsIdx j k 2).val = (k ⟨0, by decide⟩).val := rfl

/-- The contraction over the 64 entries: at (m, q, n, p) the inner product of x at (m, q, ·) with y at (n, p, ·). -/
theorem dot_apply (x y : FVec Ideal S64x256x64 .f32) (m n : Fin 64) (q p : Fin 256) :
    Host.dotGeneral dot_S64x256x64_S64x256x64_S64x256x64x256_2_2_01_01_n_n none x y (ix4 m q n p)
      = ∑ k : Fin 64, x (ix3 m q k) * y (ix3 n p k) := by
  refine (Ideal.dotGeneral_apply dot_S64x256x64_S64x256x64_S64x256x64x256_2_2_01_01_n_n none .single x y (ix4 m q n p)).trans ?_
  refine (Equiv.sum_comp (contrEquiv1 dot_S64x256x64_S64x256x64_S64x256x64x256_2_2_01_01_n_n 64 rfl rfl).symm _).symm.trans ?_
  refine Finset.sum_congr rfl fun k _ => ?_
  have hk := contrEquiv1_symm_val dot_S64x256x64_S64x256x64_S64x256x64x256_2_2_01_01_n_n 64 rfl rfl k
  have hx : dot_S64x256x64_S64x256x64_S64x256x64x256_2_2_01_01_n_n.lhsIdx (ix4 m q n p)
      ((contrEquiv1 dot_S64x256x64_S64x256x64_S64x256x64x256_2_2_01_01_n_n 64 rfl rfl).symm k) = ix3 m q k := by
    funext a
    match a with
    | ⟨0, _⟩ => exact Fin.ext (lhs0 _ _)
    | ⟨1, _⟩ => exact Fin.ext (lhs1 _ _)
    | ⟨2, _⟩ => exact Fin.ext ((lhs2 _ _).trans hk)
  have hy : dot_S64x256x64_S64x256x64_S64x256x64x256_2_2_01_01_n_n.rhsIdx (ix4 m q n p)
      ((contrEquiv1 dot_S64x256x64_S64x256x64_S64x256x64x256_2_2_01_01_n_n 64 rfl rfl).symm k) = ix3 n p k := by
    funext a
    match a with
    | ⟨0, _⟩ => exact Fin.ext (rhs0 _ _)
    | ⟨1, _⟩ => exact Fin.ext (rhs1 _ _)
    | ⟨2, _⟩ => exact Fin.ext ((rhs2 _ _).trans hk)
  rw [hx, hy]

end Stages

/-- The host's patch similarity is the specification's, with the two stacks in the other order: the host's
    entry (n, m) pairs image n of `r` with image m of `l`. -/
theorem hostSim_eq (l r : Cert.Shared.Stack) : Cert.Shared.hostSim l r = Cert.Spec.sim r l := by
  funext y
  obtain ⟨n, m, rfl⟩ : ∃ n m : Fin 64, y = ix2 n m := ⟨y 0, y 1, eq_ix2 y⟩
  rw [Cert.Spec.sim_apply]
  unfold Cert.Shared.hostSim Cert.Spec.simAt
  refine (hostDivf_apply _ _ (ix2 n m)).trans ?_
  rw [splat_apply, sum_apply]
  refine congrArg (fun s => Ideal.div s Cert.Spec.patches) (Finset.sum_congr rfl fun p _ => ?_)
  rw [max_apply]
  unfold Cert.Spec.bestMatch
  refine congrArg (fun f => (Finset.univ : Finset (Fin 256)).fold max Cert.Spec.negInf f) (funext fun q => ?_)
  rw [transpose_apply', dot_apply]
  unfold Cert.Spec.patchDot
  exact Finset.sum_congr rfl fun k _ => mul_comm _ _

end Cert.RefValue

end
-- ==== Proof.lean ====
/-
  A kernel that scores how well two stacks of images are separated, against its plain reference.

  Both programs normalize every patch (64 numbers) of both stacks of 64 images × 256 patches, form two
  64 × 64 tables of PATCH SIMILARITIES — for images `i` and `j`, the mean over the patches of `i` of the
  largest inner product with a patch of `j` — of the first stack with itself and with the second, and
  reduce the two tables to one number (means and spreads of the tables, a normalised difference, negated).
  The reference forms each table by one contraction over all pairs of patches of all pairs of images, a
  maximum, a sum and a division. The kernel walks eight grid points; a point holds eight images and both
  stacks laid out flat, and for each of its images and each quarter of a flat stack multiplies a
  256 × 64 by a 4096 × 64 matrix, takes maxima over groups of 256 columns, sums the 256 rows and divides by
  256: sixteen entries of one row of a table per store. At the ideal values the narrowing of the
  operands to bf16 changes nothing, a sum does not depend on its order and a product not on the order of
  its factors, so every entry is the same extended real in both programs; the operations before the
  call and after it are the same in both and are carried as they stand.

  The modules: `Spec` and `BlockSpec` state the similarity over index functions; `Shared` names the
  reference's three groups of operations; `RefRun` is the reference's run and `RefValue` reads its
  similarity at an index; `Chunk`, `ChunkValue`, `PieceDefs`, `PieceValue` read one store of the kernel's
  body; `Out3`, `Out4` read a grid point's two result blocks off the body's stores; `KernelTail` and
  `KernelValue` carry the blocks to the whole tables and through the operations after the call.
-/
import proofs.«136283_j24739011625309_1_alg».proof.Defs
import proofs.«136283_j24739011625309_1_alg».proof.Proof.Gen.Kernel
import proofs.«136283_j24739011625309_1_alg».proof.Proof.Gen.Kernel.Frame
import proofs.«136283_j24739011625309_1_alg».proof.Proof.Gen.KernelIdeal
import proofs.«136283_j24739011625309_1_alg».proof.Proof.Gen.KernelIdeal.Frame
import proofs.«136283_j24739011625309_1_alg».proof.Proof.Gen.ReferenceIdeal
import proofs.«136283_j24739011625309_1_alg».proof.Proof.Gen.Pre_finite_inputs
import proofs.«136283_j24739011625309_1_alg».proof.Proof.KernelValue
import proofs.«136283_j24739011625309_1_alg».proof.Proof.Out3
import proofs.«136283_j24739011625309_1_alg».proof.Proof.Out4
import proofs.«136283_j24739011625309_1_alg».proof.Proof.RefRun
import proofs.«136283_j24739011625309_1_alg».proof.Proof.RefValue
import Idealize.ShloMosaic.Adequacy
import Idealize.ShloMosaic.Init

noncomputable section

namespace Cert.Proof

open Idealize.ShloMosaic Idealize.SL.Sem

/-- The word-level kernel program runs and keeps its arguments: its frame as generated. -/
theorem frame_k : Cert.frame_Kernel := fun m ρ _ => Cert.Kernel.Gen.frame m ρ

/-- So does the kernel program read at the ideal values. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.HandRun.run m ρ)

/-- The idealization rewrote no operation. -/
theorem preserves : Cert.preserves_Kernel_KernelIdeal := trivial

/-- Both programs end at `separability` of the two similarity tables of the normalized stacks: the kernel's tables
    read off its grid points' blocks, the reference's read index by index off its contraction, both the one
    specification. -/
theorem algebraic : Cert.algebraic_KernelIdeal_ReferenceIdeal := by
  intro m ρ m' ρ' _ hagree
  refine ⟨fun c => Cert.Shared.separability
      (Cert.Spec.sim (Cert.KernelIdeal.KValue.nrm m c) (Cert.KernelIdeal.KValue.nrm m c))
      (Cert.Spec.sim (Cert.KernelIdeal.KValue.nrm m c) (Cert.KernelIdeal.KValue.drm m c)),
    Cert.KernelIdeal.KValue.run m ρ Cert.KernelIdeal.Out3.out3_eq Cert.KernelIdeal.Out4.out4_eq, ?_⟩
  refine (θ_run Cert.ReferenceIdeal.defs _ _).mono (fun _ h c => ⟨(h c).1.trans ?_, (h c).2⟩)
    (Cert.ReferenceIdeal.HandRun.run m' ρ')
  rw [(hagree c).1, (hagree c).2, Cert.RefValue.hostSim_eq, Cert.RefValue.hostSim_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
